-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_cst_14)) (v4 : (c : Dev Cert.KernelIdeal.nD) → Buf (Elt Ideal) ((c.tc : Thread Cert.KernelIdeal.nD Cert.KernelIdeal.τ).loc Cert.KernelIdeal.main_v25)) (v5 : (c : Dev Cert.KernelIdeal.nD) → Buf (Elt Ideal) ((c.tc : Thread Cert.KernelIdeal.nD Cert.KernelIdeal.τ).loc Cert.KernelIdeal.main_v29)) (v6 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_cst_14) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_v29) = v5 c
          ∧ r.2.mem ((c.tc : Thread Cert.KernelIdeal.nD Cert.KernelIdeal.τ).loc Cert.KernelIdeal.main_v33) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_cst_31) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_v36) = v5 c
          ∧ r.2.mem ((c.tc : Thread Cert.ReferenceIdeal.nD Cert.ReferenceIdeal.τ).loc Cert.ReferenceIdeal.main_v27) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32x32 : Shape := ⟨3, ![131072, 32, 32]⟩
abbrev S131072x31x1 : Shape := ⟨3, ![131072, 31, 1]⟩
abbrev S131072x31x3 : Shape := ⟨3, ![131072, 31, 3]⟩
abbrev S4063232x7 : Shape := ⟨2, ![4063232, 7]⟩
abbrev S4063232x1 : Shape := ⟨2, ![4063232, 1]⟩
abbrev S_ : Shape := ⟨0, ![]⟩

class Facts : Prop where
  bcast_S_S131072x32x32 : S_.BroadcastsInDim S131072x32x32 (![] : Fin 0 → Fin S131072x32x32.rank)
  reducesTo_S131072x32x32_S_d0_1_2 : S131072x32x32.ReducesTo [0, 1, 2] S_
  h_S_ : 0 < S_.numel
  bcast_S_S131072x31x1 : S_.BroadcastsInDim S131072x31x1 (![] : Fin 0 → Fin S131072x31x1.rank)
  reducesTo_S131072x31x1_S_d0_1_2 : S131072x31x1.ReducesTo [0, 1, 2] S_
  bcast_S_S131072x31x3 : S_.BroadcastsInDim S131072x31x3 (![] : Fin 0 → Fin S131072x31x3.rank)
  reducesTo_S131072x31x3_S_d0_1_2 : S131072x31x3.ReducesTo [0, 1, 2] S_
  bcast_S_S4063232x7 : S_.BroadcastsInDim S4063232x7 (![] : Fin 0 → Fin S4063232x7.rank)
  reducesTo_S4063232x7_S_d0_1 : S4063232x7.ReducesTo [0, 1] S_
  bcast_S_S4063232x1 : S_.BroadcastsInDim S4063232x1 (![] : Fin 0 → Fin S4063232x1.rank)
  reducesTo_S4063232x1_S_d0_1 : S4063232x1.ReducesTo [0, 1] S_

variable [Facts]

def fn_part1 {F : FTy → Type} [FloatOps F] (main_arg5 : IVec S4063232x1 32) (main_v13 : IVec S_ 1) (main_v16 : IVec S4063232x7 1) : IVec S_ 1 :=
  let main_c_5 : IVec S_ 1 := constantI S_ 1 1#1
  let main_v17 : IVec S_ 1 := (fun x v => Host.reduce IntOp.andi x v reducesTo_S4063232x7_S_d0_1 h_S_) main_v16 main_c_5
  let main_v18 : IVec S_ 1 := andi main_v13 main_v17
  let main_c_6 : IVec S_ 32 := constantI S_ 32 4294967295#32
  let main_v19 : IVec S4063232x1 32 := broadcastInDim S4063232x1 ![] bcast_S_S4063232x1 main_c_6
  let main_v20 : IVec S4063232x1 1 := cmpi .sge main_arg5 main_v19
  let main_c_7 : IVec S_ 32 := constantI S_ 32 31#32
  let main_v21 : IVec S4063232x1 32 := broadcastInDim S4063232x1 ![] bcast_S_S4063232x1 main_c_7
  let main_v22 : IVec S4063232x1 1 := cmpi .sle main_arg5 main_v21
  let main_v23 : IVec S4063232x1 1 := andi main_v20 main_v22
  let main_c_8 : IVec S_ 1 := constantI S_ 1 1#1
  let main_v24 : IVec S_ 1 := (fun x v => Host.reduce IntOp.andi x v reducesTo_S4063232x1_S_d0_1 h_S_) main_v23 main_c_8
  let main_v25 : IVec S_ 1 := andi main_v18 main_v24
  main_v25

def fn {F : FTy → Type} [FloatOps F] (main_arg0 : FVec F S131072x32x32 .f32) (main_arg1 : FVec F S131072x31x1 .f32) (main_arg2 : FVec F S131072x31x3 .f32) (main_arg3 : FVec F S4063232x7 .f32) (main_arg4 : IVec S131072x31x1 32) (main_arg5 : IVec S4063232x1 32) : IVec S_ 1 :=
  let main_v0 : FVec F S131072x32x32 .f32 := Host.absf main_arg0
  let main_cst : FVec F S_ .f32 := constant S_ .f32 0x7F800000#32
  let main_v1 : FVec F S131072x32x32 .f32 := broadcastInDim S131072x32x32 ![] bcast_S_S131072x32x32 main_cst
  let main_v2 : IVec S131072x32x32 1 := cmpf .olt main_v0 main_v1
  let main_c : IVec S_ 1 := constantI S_ 1 1#1
  let main_v3 : IVec S_ 1 := (fun x v => Host.reduce IntOp.andi x v reducesTo_S131072x32x32_S_d0_1_2 h_S_) main_v2 main_c
  let main_v4 : FVec F S131072x31x1 .f32 := Host.absf main_arg1
  let main_cst_0 : FVec F S_ .f32 := constant S_ .f32 0x7F800000#32
  let main_v5 : FVec F S131072x31x1 .f32 := broadcastInDim S131072x31x1 ![] bcast_S_S131072x31x1 main_cst_0
  let main_v6 : IVec S131072x31x1 1 := cmpf .olt main_v4 main_v5
  let main_c_1 : IVec S_ 1 := constantI S_ 1 1#1
  let main_v7 : IVec S_ 1 := (fun x v => Host.reduce IntOp.andi x v reducesTo_S131072x31x1_S_d0_1_2 h_S_) main_v6 main_c_1
  let main_v8 : IVec S_ 1 := andi main_v3 main_v7
  let main_v9 : FVec F S131072x31x3 .f32 := Host.absf main_arg2
  let main_cst_2 : FVec F S_ .f32 := constant S_ .f32 0x7F800000#32
  let main_v10 : FVec F S131072x31x3 .f32 := broadcastInDim S131072x31x3 ![] bcast_S_S131072x31x3 main_cst_2
  let main_v11 : IVec S131072x31x3 1 := cmpf .olt main_v9 main_v10
  let main_c_3 : IVec S_ 1 := constantI S_ 1 1#1
  let main_v12 : IVec S_ 1 := (fun x v => Host.reduce IntOp.andi x v reducesTo_S131072x31x3_S_d0_1_2 h_S_) main_v11 main_c_3
  let main_v13 : IVec S_ 1 := andi main_v8 main_v12
  let main_v14 : FVec F S4063232x7 .f32 := Host.absf main_arg3
  let main_cst_4 : FVec F S_ .f32 := constant S_ .f32 0x7F800000#32
  let main_v15 : FVec F S4063232x7 .f32 := broadcastInDim S4063232x7 ![] bcast_S_S4063232x7 main_cst_4
  let main_v16 : IVec S4063232x7 1 := cmpf .olt main_v14 main_v15
  fn_part1 (F := F) main_arg5 main_v13 main_v16
-- ==== Kernel.lean ====
abbrev S131072x32x32 : Shape := ⟨3, ![131072, 32, 32]⟩
abbrev S131072x31x1 : Shape := ⟨3, ![131072, 31, 1]⟩
abbrev S131072x31x3 : Shape := ⟨3, ![131072, 31, 3]⟩
abbrev S4063232x7 : Shape := ⟨2, ![4063232, 7]⟩
abbrev S4063232x1 : Shape := ⟨2, ![4063232, 1]⟩
abbrev S131072x31x7 : Shape := ⟨3, ![131072, 31, 7]⟩
abbrev S131072x31 : Shape := ⟨2, ![131072, 31]⟩
abbrev S2x8x128 : Shape := ⟨3, ![2, 8, 128]⟩
abbrev S256x32x32 : Shape := ⟨3, ![256, 32, 32]⟩
abbrev S256x31 : Shape := ⟨2, ![256, 31]⟩
abbrev S256x31x3 : Shape := ⟨3, ![256, 31, 3]⟩
abbrev S256x31x7 : Shape := ⟨3, ![256, 31, 7]⟩
abbrev S1x8x128 : Shape := ⟨3, ![1, 8, 128]⟩
abbrev S8x128 : Shape := ⟨2, ![8, 128]⟩
abbrev S256x31x32 : Shape := ⟨3, ![256, 31, 32]⟩
abbrev S256x31x1 : Shape := ⟨3, ![256, 31, 1]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x128 : Shape := ⟨2, ![1, 128]⟩
abbrev S_ : Shape := ⟨0, ![]⟩
abbrev S8 : Shape := ⟨1, ![8]⟩

abbrev nBuf : Space → Nat
  | .hbm => 61
  | .vmem => 14
  | .smem => 0
  | _ => 0

abbrev bufTy : (tb : Table) → Fin (tcTables nBuf tb) → BufTy
  | .hbm, ⟨0, _⟩ => ⟨S131072x32x32, .f32⟩
  | .hbm, ⟨1, _⟩ => ⟨S131072x31x1, .f32⟩
  | .hbm, ⟨2, _⟩ => ⟨S131072x31x3, .f32⟩
  | .hbm, ⟨3, _⟩ => ⟨S4063232x7, .f32⟩
  | .hbm, ⟨4, _⟩ => ⟨S131072x31x1, .i32⟩
  | .hbm, ⟨5, _⟩ => ⟨S4063232x1, .i32⟩
  | .hbm, ⟨6, _⟩ => ⟨S131072x31x7, .f32⟩
  | .hbm, ⟨7, _⟩ => ⟨S131072x31, .i32⟩
  | .hbm, ⟨8, _⟩ => ⟨S131072x31, .i32⟩
  | .hbm, ⟨9, _⟩ => ⟨S131072x31, .f32⟩
  | .hbm, ⟨10, _⟩ => ⟨S2x8x128, .f32⟩
  | .hbm, ⟨11, _⟩ => ⟨S_, .f32⟩
  | .hbm, ⟨12, _⟩ => ⟨S8, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S256x32x32, .f32⟩
  | .local _ .vmem, ⟨1, _⟩ => ⟨S256x32x32, .f32⟩
  | .local _ .vmem, ⟨2, _⟩ => ⟨S256x31, .f32⟩
  | .local _ .vmem, ⟨3, _⟩ => ⟨S256x31, .f32⟩
  | .local _ .vmem, ⟨4, _⟩ => ⟨S256x31x3, .f32⟩
  | .local _ .vmem, ⟨5, _⟩ => ⟨S256x31x3, .f32⟩
  | .local _ .vmem, ⟨6, _⟩ => ⟨S256x31, .i32⟩
  | .local _ .vmem, ⟨7, _⟩ => ⟨S256x31, .i32⟩
  | .local _ .vmem, ⟨8, _⟩ => ⟨S256x31x7, .f32⟩
  | .local _ .vmem, ⟨9, _⟩ => ⟨S256x31x7, .f32⟩
  | .local _ .vmem, ⟨10, _⟩ => ⟨S256x31, .i32⟩
  | .local _ .vmem, ⟨11, _⟩ => ⟨S256x31, .i32⟩
  | .local _ .vmem, ⟨12, _⟩ => ⟨S1x8x128, .f32⟩
  | .local _ .vmem, ⟨13, _⟩ => ⟨S1x8x128, .f32⟩
  | _, _ => ⟨S131072x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_cst_12 : Ref sig .tc := ⟨.hbm, 54, rfl⟩
abbrev main_v35 : Ref sig .tc := ⟨.hbm, 55, rfl⟩
abbrev main_v36 : Ref sig .tc := ⟨.hbm, 56, rfl⟩
abbrev main_cst_13 : Ref sig .tc := ⟨.hbm, 57, rfl⟩
abbrev main_v37 : Ref sig .tc := ⟨.hbm, 58, rfl⟩
abbrev main_v38 : Ref sig .tc := ⟨.hbm, 59, rfl⟩
abbrev main_cst_14 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 256], ![false, false]⟩

def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x31x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x31 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x31x7 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x31 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4063232x7_S131072x31x7 : S4063232x7.ShapeCasts S131072x31x7
  shapeCasts_S4063232x1_S131072x31 : S4063232x1.ShapeCasts S131072x31
  shapeCasts_S131072x31x1_S131072x31 : S131072x31x1.ShapeCasts S131072x31
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S256x31_S256x31_0_0 : ∀ a, (![0, 0] : Fin 2 → Nat) a + S256x31.size a ≤ S256x31.size a
  h_S256x31 : 0 < S256x31.numel
  shapeCasts_S256x31_S256x31 : S256x31.ShapeCasts S256x31
  inb_S256x32x32_S256x32x32_0_0_0 : ∀ a, (![0, 0, 0] : Fin 3 → Nat) a + S256x32x32.size a ≤ S256x32x32.size a
  h_S256x32x32 : 0 < S256x32x32.numel
  slices_S256x32x32_o0_0_0_S256x31x32 : S256x32x32.Slices ![0, 0, 0] S256x31x32
  iota_S256x31x32_d2_w32 : S256x31x32.Iotas .tc 32 [2]
  shapeCasts_S256x31_S256x31x1 : S256x31.ShapeCasts S256x31x1
  broadcasts_S256x31x1_S256x31x32 : S256x31x1.Broadcasts S256x31x32
  reduces_S256x31x32_S256x31 : S256x31x32.Reduces [2] S256x31
  inb_S256x31x3_S256x31x3_0_0_0 : ∀ a, (![0, 0, 0] : Fin 3 → Nat) a + S256x31x3.size a ≤ S256x31x3.size a
  h_S256x31x3 : 0 < S256x31x3.numel
  inb_S256x31x7_S256x31x7_0_0_0 : ∀ a, (![0, 0, 0] : Fin 3 → Nat) a + S256x31x7.size a ≤ S256x31x7.size a
  h_S256x31x7 : 0 < S256x31x7.numel
  shapeCasts_S256x31x7_S256x31x7 : S256x31x7.ShapeCasts S256x31x7
  slices_S256x31x3_o0_0_0_S256x31x1 : S256x31x3.Slices ![0, 0, 0] S256x31x1
  shapeCasts_S256x31x1_S256x31 : S256x31x1.ShapeCasts S256x31
  slices_S256x31x7_o0_0_0_S256x31x1 : S256x31x7.Slices ![0, 0, 0] S256x31x1
  slices_S256x31x3_o0_0_1_S256x31x1 : S256x31x3.Slices ![0, 0, 1] S256x31x1
  slices_S256x31x7_o0_0_1_S256x31x1 : S256x31x7.Slices ![0, 0, 1] S256x31x1
  slices_S256x31x3_o0_0_2_S256x31x1 : S256x31x3.Slices ![0, 0, 2] S256x31x1
  slices_S256x31x7_o0_0_2_S256x31x1 : S256x31x7.Slices ![0, 0, 2] S256x31x1
  natLt_1_32 : 1 < 32
  reduces_S256x31_S256 : S256x31.Reduces [1] S256
  shapeCasts_S256_S256x1 : S256.ShapeCasts S256x1
  reduces_S256x1_S1 : S256x1.Reduces [0] S1
  shapeCasts_S1_S1x1 : S1.ShapeCasts S1x1
  iota_S1x128_d1_w32 : S1x128.Iotas .tc 32 [1]
  broadcasts_S1x1_S1x128 : S1x1.Broadcasts S1x128
  concatenates_S1x128_S1x128_S1x128_S1x128_S1x128_S1x128_S1x128_S1x128_S8x128_d0 : Shape.Concatenates [S1x128, S1x128, S1x128, S1x128, S1x128, S1x128, S1x128, S1x128] S8x128 0
  reducesTo_S2x8x128_S8_d0_2 : S2x8x128.ReducesTo [0, 2] S8
  h_S_ : 0 < S_.numel
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1
  slices_S8_S1_4 : S8.Slices ![4] S1
  slices_S8_S1_5 : S8.Slices ![5] S1
  slices_S8_S1_6 : S8.Slices ![6] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x32.size a ≤ S131072x32x32.size a
  hwx0_0 : ∀ i : grid0.Coords, EltTy.bits .f32 = 32 ∨ (Rect.block (s := S131072x32x32) S256x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x31.size a ≤ S131072x31.size a
  hwx0_1 : ∀ i : grid0.Coords, EltTy.bits .f32 = 32 ∨ (Rect.block (s := S131072x31) S256x31.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x31x3.size a ≤ S131072x31x3.size a
  hwx0_2 : ∀ i : grid0.Coords, EltTy.bits .f32 = 32 ∨ (Rect.block (s := S131072x31x3) S256x31x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x31.size a ≤ S131072x31.size a
  hwx0_3 : ∀ i : grid0.Coords, EltTy.bits .i32 = 32 ∨ (Rect.block (s := S131072x31) S256x31.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x31x7.size a ≤ S131072x31x7.size a
  hwx0_4 : ∀ i : grid0.Coords, EltTy.bits .f32 = 32 ∨ (Rect.block (s := S131072x31x7) S256x31x7.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x31.size a ≤ S131072x31.size a
  hwx0_5 : ∀ i : grid0.Coords, EltTy.bits .i32 = 32 ∨ (Rect.block (s := S131072x31) S256x31.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

abbrev win0_0 : Pipeline.Window sig grid0 :=
  Pipeline.Window.ofSpec (Memref.whole main_arg0) S256x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x31.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x31x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x31.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x31x7.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x31.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x32x32 : Shape := ⟨3, ![131072, 32, 32]⟩
abbrev S131072x31x1 : Shape := ⟨3, ![131072, 31, 1]⟩
abbrev S131072x31x3 : Shape := ⟨3, ![131072, 31, 3]⟩
abbrev S4063232x7 : Shape := ⟨2, ![4063232, 7]⟩
abbrev S4063232x1 : Shape := ⟨2, ![4063232, 1]⟩
abbrev S4063232 : Shape := ⟨1, ![4063232]⟩
abbrev S_ : Shape := ⟨0, ![]⟩
abbrev S131072x31x32 : Shape := ⟨3, ![131072, 31, 32]⟩
abbrev S4063232x32 : Shape := ⟨2, ![4063232, 32]⟩
abbrev S4063232x1x1 : Shape := ⟨3, ![4063232, 1, 1]⟩
abbrev S1 : Shape := ⟨1, ![1]⟩
abbrev S1x1x1 : Shape := ⟨3, ![1, 1, 1]⟩
abbrev S4063232x3 : Shape := ⟨2, ![4063232, 3]⟩

abbrev nBuf : Space → Nat
  | .hbm => 137
  | .vmem => 0
  | .smem => 0
  | _ => 0

abbrev hbmTy0_0 (i : Nat) : BufTy := match i % 128 with
  | 0 => ⟨S131072x32x32, .f32⟩
  | 1 => ⟨S131072x31x1, .f32⟩
  | 2 => ⟨S131072x31x3, .f32⟩
  | 3 => ⟨S4063232x7, .f32⟩
  | 4 => ⟨S131072x31x1, .i32⟩
  | 5 => ⟨S4063232x1, .i32⟩
  | 6 => ⟨S4063232, .i32⟩
  | 7 => ⟨S_, .i32⟩
  | 8 => ⟨S4063232, .i32⟩
  | 9 => ⟨S4063232, .i1⟩
  | 10 => ⟨S_, .i32⟩
  | 11 => ⟨S4063232x1, .i32⟩
  | 12 => ⟨S4063232x1, .i1⟩
  | 13 => ⟨S_, .i32⟩
  | 14 => ⟨S_, .i32⟩
  | 15 => ⟨S4063232x1, .i32⟩
  | 16 => ⟨S4063232x1, .i32⟩
  | 17 => ⟨S131072x31x32, .f32⟩
  | 18 => ⟨S4063232x32, .f32⟩
  | 19 => ⟨S_, .i32⟩
  | 20 => ⟨S4063232x1, .i32⟩
  | 21 => ⟨S4063232x1, .i1⟩
  | 22 => ⟨S_, .i32⟩
  | 23 => ⟨S4063232x1, .i32⟩
  | 24 => ⟨S4063232x1, .i32⟩
  | 25 => ⟨S4063232x1, .i32⟩
  | 26 => ⟨S4063232x1x1, .i32⟩
  | 27 => ⟨S1, .i32⟩
  | 28 => ⟨S_, .i32⟩
  | 29 => ⟨S4063232x1x1, .i32⟩
  | 30 => ⟨S4063232x1x1, .i1⟩
  | 31 => ⟨S1x1x1, .i32⟩
  | 32 => ⟨S4063232x1x1, .i32⟩
  | 33 => ⟨S4063232x1x1, .i1⟩
  | 34 => ⟨S4063232x1x1, .i1⟩
  | 35 => ⟨S_, .i1⟩
  | 36 => ⟨S4063232x1, .i1⟩
  | 37 => ⟨S4063232x1, .f32⟩
  | 38 => ⟨S_, .f32⟩
  | 39 => ⟨S4063232x1, .f32⟩
  | 40 => ⟨S4063232x1, .f32⟩
  | 41 => ⟨S4063232x1, .f32⟩
  | 42 => ⟨S_, .f32⟩
  | 43 => ⟨S_, .f32⟩
  | 44 => ⟨S_, .f32⟩
  | 45 => ⟨S_, .f32⟩
  | 46 => ⟨S4063232x1, .i32⟩
  | 47 => ⟨S4063232x1, .i1⟩
  | 48 => ⟨S4063232, .i1⟩
  | 49 => ⟨S4063232, .f32⟩
  | 50 => ⟨S4063232, .i32⟩
  | 51 => ⟨S_, .i32⟩
  | 52 => ⟨S4063232, .i32⟩
  | 53 => ⟨S4063232, .i1⟩
  | 54 => ⟨S4063232, .i32⟩
  | 55 => ⟨S_, .i32⟩
  | 56 => ⟨S_, .i32⟩
  | 57 => ⟨S_, .f32⟩
  | 58 => ⟨S_, .f32⟩
  | 59 => ⟨S4063232, .f32⟩
  | 60 => ⟨S4063232, .f32⟩
  | 61 => ⟨S_, .f32⟩
  | 62 => ⟨S_, .f32⟩
  | 63 => ⟨S_, .i32⟩
  | 64 => ⟨S_, .i1⟩
  | 65 => ⟨S_, .i32⟩
  | 66 => ⟨S_, .i32⟩
  | 67 => ⟨S_, .f32⟩
  | 68 => ⟨S_, .f32⟩
  | 69 => ⟨S_, .f32⟩
  | 70 => ⟨S_, .f32⟩
  | 71 => ⟨S4063232, .i32⟩
  | 72 => ⟨S_, .i32⟩
  | 73 => ⟨S_, .i32⟩
  | 74 => ⟨S_, .f32⟩
  | 75 => ⟨S_, .f32⟩
  | 76 => ⟨S4063232, .f32⟩
  | 77 => ⟨S4063232, .f32⟩
  | 78 => ⟨S_, .f32⟩
  | 79 => ⟨S_, .f32⟩
  | 80 => ⟨S_, .i32⟩
  | 81 => ⟨S_, .i1⟩
  | 82 => ⟨S_, .i32⟩
  | 83 => ⟨S_, .i32⟩
  | 84 => ⟨S_, .f32⟩
  | 85 => ⟨S_, .f32⟩
  | 86 => ⟨S_, .f32⟩
  | 87 => ⟨S_, .f32⟩
  | 88 => ⟨S4063232x3, .f32⟩
  | 89 => ⟨S4063232x3, .f32⟩
  | 90 => ⟨S4063232x3, .f32⟩
  | 91 => ⟨S4063232x3, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S4063232, .f32⟩
  | 99 => ⟨S4063232x3, .f32⟩
  | 100 => ⟨S_, .f32⟩
  | 101 => ⟨S4063232, .f32⟩
  | 102 => ⟨S4063232, .f32⟩
  | 103 => ⟨S4063232, .f32⟩
  | 104 => ⟨S_, .f32⟩
  | 105 => ⟨S4063232, .f32⟩
  | 106 => ⟨S4063232, .f32⟩
  | 107 => ⟨S_, .f32⟩
  | 108 => ⟨S4063232, .f32⟩
  | 109 => ⟨S4063232, .f32⟩
  | 110 => ⟨S4063232, .f32⟩
  | 111 => ⟨S4063232, .i32⟩
  | 112 => ⟨S_, .i32⟩
  | 113 => ⟨S_, .i32⟩
  | 114 => ⟨S_, .f32⟩
  | 115 => ⟨S_, .f32⟩
  | 116 => ⟨S4063232, .f32⟩
  | 117 => ⟨S4063232, .f32⟩
  | 118 => ⟨S_, .f32⟩
  | 119 => ⟨S_, .f32⟩
  | 120 => ⟨S_, .i32⟩
  | 121 => ⟨S_, .i1⟩
  | 122 => ⟨S_, .i32⟩
  | 123 => ⟨S_, .i32⟩
  | 124 => ⟨S_, .f32⟩
  | 125 => ⟨S_, .f32⟩
  | 126 => ⟨S_, .f32⟩
  | 127 => ⟨S_, .f32⟩
  | _ => ⟨S131072x32x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S131072x32x32, .f32⟩

abbrev hbmTy (i : Nat) : BufTy := match i / 128 with
  | 0 => hbmTy0_0 i
  | 1 => hbmTy0_1 i
  | _ => ⟨S131072x32x32, .f32⟩

abbrev bufTy : (tb : Table) → Fin (tcTables nBuf tb) → BufTy
  | .hbm, ⟨i, _⟩ => hbmTy i
  | _, _ => ⟨S131072x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_cst_2 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_c_3 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v21 : Ref sig .tc := ⟨.hbm, 60, rfl⟩
abbrev main_cst_6 : Ref sig .tc := ⟨.hbm, 61, rfl⟩
abbrev main_v22 : Ref sig .tc := ⟨.hbm, 62, rfl⟩
abbrev main_c_7 : Ref sig .tc := ⟨.hbm, 63, rfl⟩
abbrev main_v23 : Ref sig .tc := ⟨.hbm, 64, rfl⟩
abbrev main_c_8 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst_9 : Ref sig .tc := ⟨.hbm, 69, rfl⟩
abbrev main_v27 : Ref sig .tc := ⟨.hbm, 70, rfl⟩
abbrev main_v28 : Ref sig .tc := ⟨.hbm, 71, rfl⟩
abbrev main_c_10 : Ref sig .tc := ⟨.hbm, 72, rfl⟩
abbrev main_v29 : Ref sig .tc := ⟨.hbm, 73, rfl⟩
abbrev main_cst_11 : Ref sig .tc := ⟨.hbm, 74, rfl⟩
abbrev main_call4_v0 : Ref sig .tc := ⟨.hbm, 75, rfl⟩
abbrev main_call4_v1 : Ref sig .tc := ⟨.hbm, 76, rfl⟩
abbrev main_v30 : Ref sig .tc := ⟨.hbm, 77, rfl⟩
abbrev main_cst_12 : Ref sig .tc := ⟨.hbm, 78, rfl⟩
abbrev main_v31 : Ref sig .tc := ⟨.hbm, 79, rfl⟩
abbrev main_c_13 : Ref sig .tc := ⟨.hbm, 80, rfl⟩
abbrev main_v32 : Ref sig .tc := ⟨.hbm, 81, rfl⟩
abbrev main_c_14 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_15 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_16 : Ref sig .tc := ⟨.hbm, 92, rfl⟩
abbrev main_v41 : Ref sig .tc := ⟨.hbm, 93, rfl⟩
abbrev main_cst_17 : Ref sig .tc := ⟨.hbm, 94, rfl⟩
abbrev main_v42 : Ref sig .tc := ⟨.hbm, 95, rfl⟩
abbrev main_cst_18 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_19 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_20 : Ref sig .tc := ⟨.hbm, 104, rfl⟩
abbrev main_v49 : Ref sig .tc := ⟨.hbm, 105, rfl⟩
abbrev main_v50 : Ref sig .tc := ⟨.hbm, 106, rfl⟩
abbrev main_cst_21 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_c_22 : Ref sig .tc := ⟨.hbm, 112, rfl⟩
abbrev main_v55 : Ref sig .tc := ⟨.hbm, 113, rfl⟩
abbrev main_cst_23 : Ref sig .tc := ⟨.hbm, 114, rfl⟩
abbrev main_call6_v0 : Ref sig .tc := ⟨.hbm, 115, rfl⟩
abbrev main_call6_v1 : Ref sig .tc := ⟨.hbm, 116, rfl⟩
abbrev main_v56 : Ref sig .tc := ⟨.hbm, 117, rfl⟩
abbrev main_cst_24 : Ref sig .tc := ⟨.hbm, 118, rfl⟩
abbrev main_v57 : Ref sig .tc := ⟨.hbm, 119, rfl⟩
abbrev main_c_25 : Ref sig .tc := ⟨.hbm, 120, rfl⟩
abbrev main_v58 : Ref sig .tc := ⟨.hbm, 121, rfl⟩
abbrev main_c_26 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_cst_27 : Ref sig .tc := ⟨.hbm, 126, rfl⟩
abbrev main_v62 : Ref sig .tc := ⟨.hbm, 127, rfl⟩
abbrev main_cst_28 : Ref sig .tc := ⟨.hbm, 128, rfl⟩
abbrev main_v63 : Ref sig .tc := ⟨.hbm, 129, rfl⟩
abbrev main_cst_29 : Ref sig .tc := ⟨.hbm, 130, rfl⟩
abbrev main_v64 : Ref sig .tc := ⟨.hbm, 131, rfl⟩
abbrev main_v65 : Ref sig .tc := ⟨.hbm, 132, rfl⟩
abbrev main_cst_30 : Ref sig .tc := ⟨.hbm, 133, rfl⟩
abbrev main_v66 : Ref sig .tc := ⟨.hbm, 134, rfl⟩
abbrev main_v67 : Ref sig .tc := ⟨.hbm, 135, rfl⟩
abbrev main_cst_31 : Ref sig .tc := ⟨.hbm, 136, rfl⟩

abbrev nD : Nat := 1
abbrev τ : Topo := Topo.v7x

variable {F : FTy → Type} [FloatOps F]

class Facts₀ : Prop where
  shapeCasts_S4063232x1_S4063232 : S4063232x1.ShapeCasts S4063232
  bcast_S_S4063232 : S_.BroadcastsInDim S4063232 (![] : Fin 0 → Fin S4063232.rank)
  bcast_S_S4063232x1 : S_.BroadcastsInDim S4063232x1 (![] : Fin 0 → Fin S4063232x1.rank)
  slices_S131072x32x32_S131072x31x32_0_0_0 : S131072x32x32.Slices ![0, 0, 0] S131072x31x32
  shapeCasts_S131072x31x32_S4063232x32 : S131072x31x32.ShapeCasts S4063232x32
  shapeCasts_S4063232x1_S4063232x1x1 : S4063232x1.ShapeCasts S4063232x1x1
  bcast_S_S4063232x1x1 : S_.BroadcastsInDim S4063232x1x1 (![] : Fin 0 → Fin S4063232x1x1.rank)
  bcast_S1_S1x1x1_2 : S1.BroadcastsInDim S1x1x1 (![2] : Fin 1 → Fin S1x1x1.rank)
  bcast_S1x1x1_S4063232x1x1_0_1_2 : S1x1x1.BroadcastsInDim S4063232x1x1 (![0, 1, 2] : Fin 3 → Fin S4063232x1x1.rank)
  reducesTo_S4063232x1x1_S4063232x1_d2 : S4063232x1x1.ReducesTo [2] S4063232x1
  h_S_ : 0 < S_.numel
  reducesTo_S4063232x1_S_d0_1 : S4063232x1.ReducesTo [0, 1] S_
  shapeCasts_S131072x31x1_S4063232x1 : S131072x31x1.ShapeCasts S4063232x1
  natLt_1_32 : 1 < 32
  reducesTo_S4063232_S_d0 : S4063232.ReducesTo [0] S_
  shapeCasts_S131072x31x3_S4063232x3 : S131072x31x3.ShapeCasts S4063232x3
  slices_S4063232x7_S4063232x3_0_0 : S4063232x7.Slices ![0, 0] S4063232x3
  reducesTo_S4063232x3_S_d0_1 : S4063232x3.ReducesTo [0, 1] S_
  shapeCasts_S131072x31x1_S4063232 : S131072x31x1.ShapeCasts S4063232
  reducesTo_S4063232x3_S4063232_d1 : S4063232x3.ReducesTo [1] S4063232
  gather_S4063232x32_S4063232x1x1_S4063232x1_n_1_0_0_1_2_11_wf : GatherDims.WF S4063232x32 S4063232x1x1 S4063232x1 [] [1] [0] [1] [0] 2 ![1, 1]

variable [Facts₀]

def gather_S4063232x32_S4063232x1x1_S4063232x1_n_1_0_0_1_2_11 : GatherDims S4063232x32 S4063232x1x1 S4063232x1 where
  offsetDims := []
  collapsedSliceDims := [1]
  operandBatchingDims := [0]
  startIndicesBatchingDims := [0]
  startIndexMap := [1]
  indexVectorDim := 2
  sliceSizes := ![1, 1]
  wf := gather_S4063232x32_S4063232x1x1_S4063232x1_n_1_0_0_1_2_11_wf

class Facts : Prop extends Facts₀ where

variable [Facts]
-- ==== Proof.Spec.lean ====
/-
  The set-matching loss, stated once. For every group b (131072 of them) and detection j (31 per group) one ENTRY
  collects what the loss reads there: row j of the group's 32 x 32 score table, the variance, the three position
  and three target-pose coordinates, the predicted index word and the label word. A label word -1 means "no label"
  and is routed to the last ("dustbin") column 31; any other label word is the column itself. From an entry:
    cost   = 0 - (the score in the label's column)
    sq     = (dx*dx + dy*dy) + dz*dz                       with d = position - pose
    per    = sq / variance + (3 * log variance) * 0.04
    succ   = 1 if the predicted index equals the label, else 0
  and eight per-entry terms: cost, sq, per and 1 where a prediction exists (index word not -1), succ and 1 where a
  label exists, succ where a prediction exists, and 0. The seven statistics are the sums of these terms over all
  (b, j); the seven results are quotients of the statistics: the two means over N = 4063232 entries, and three masked
  means (sum / max(count, 1) when the count is positive, else a default).
  Nothing here refers to a program: both programs are shown to compute these functions of the six argument arrays.
-/
import Idealize.ShloMosaic.Lib.ValueIdx

noncomputable section

open scoped BigOperators

namespace Cert.SetLoss

open Idealize.ShloMosaic Idealize.ShloMosaic.ValueIdx

/-- The 32-bit word of the integer -1. -/
abbrev negOne : BitVec 32 := 4294967295#32

/-- A label word in its range: -1 (no label) or a column 0 … 31 of the score table. -/
def InRange (w : BitVec 32) : Prop := w = negOne ∨ w.toNat ≤ 31

/-- The score column a label word selects: the dustbin column 31 for -1, else the word itself. -/
def colOf (w : BitVec 32) : Fin 32 := if w = negOne then 31 else ⟨w.toNat % 32, Nat.mod_lt _ (by decide)⟩

/-- What the loss reads at one (group, detection). -/
structure Entry where
  row : Fin 32 → EReal
  cv : EReal
  p0 : EReal
  p1 : EReal
  p2 : EReal
  q0 : EReal
  q1 : EReal
  q2 : EReal
  iw : BitVec 32
  mw : BitVec 32

namespace Entry

variable (e : Entry)

/-- Minus the score in the label's column. -/
def cost : EReal := 0 - e.row (colOf e.mw)
/-- The squared distance between position and pose, the three squares added left to right. -/
def sq : EReal := ((e.p0 - e.q0) * (e.p0 - e.q0) + (e.p1 - e.q1) * (e.p1 - e.q1)) + (e.p2 - e.q2) * (e.p2 - e.q2)
/-- The diagonal-covariance negative log-likelihood term: sq / c + (3 · log c) · 0.04. -/
def per : EReal :=
  Ideal.div e.sq e.cv + (Ideal.ofBits .f32 0x40400000#32 * Ideal.log e.cv) * Ideal.ofBits .f32 0x3D23D70A#32
/-- 1 when the predicted index is the label. -/
def succ : EReal := if e.iw = e.mw then 1 else 0

/-- The eight per-entry terms, in the order of the accumulator's rows. -/
def term (r : Fin 8) : EReal :=
  match r with
  | ⟨0, _⟩ => e.cost
  | ⟨1, _⟩ => e.sq
  | ⟨2, _⟩ => if e.iw = negOne then 0 else e.per
  | ⟨3, _⟩ => if e.iw = negOne then 0 else 1
  | ⟨4, _⟩ => if e.mw = negOne then 0 else e.succ
  | ⟨5, _⟩ => if e.mw = negOne then 0 else 1
  | ⟨6, _⟩ => if e.iw = negOne then 0 else e.succ
  | ⟨_ + 7, _⟩ => 0

end Entry

/-! ## Entries of the argument arrays -/

abbrev SScores : Shape := ⟨3, ![131072, 32, 32]⟩
abbrev SCov : Shape := ⟨3, ![131072, 31, 1]⟩
abbrev SPos : Shape := ⟨3, ![131072, 31, 3]⟩
abbrev SPose : Shape := ⟨2, ![4063232, 7]⟩
abbrev SInd : Shape := ⟨3, ![131072, 31, 1]⟩
abbrev SMatch : Shape := ⟨2, ![4063232, 1]⟩

/-- Entry (b, j) lies in row b·31 + j of the arrays that are flattened over (group, detection). -/
def rowOf (b : Fin 131072) (j : Fin 31) : Fin 4063232 :=
  ⟨b.val * 31 + j.val, by have := b.isLt; have := j.isLt; omega⟩

/-- The entry at (b, j) of the six argument arrays. -/
def entryAt (a0 : FVec Ideal SScores .f32) (a1 : FVec Ideal SCov .f32) (a2 : FVec Ideal SPos .f32)
    (a3 : FVec Ideal SPose .f32) (a4 : IVec SInd 32) (a5 : IVec SMatch 32) (b : Fin 131072) (j : Fin 31) : Entry where
  row := fun l => a0 (ix3 b (⟨j.val, by have := j.isLt; omega⟩ : Fin 32) l)
  cv := a1 (ix3 b j (0 : Fin 1))
  p0 := a2 (ix3 b j (0 : Fin 3))
  p1 := a2 (ix3 b j (1 : Fin 3))
  p2 := a2 (ix3 b j (2 : Fin 3))
  q0 := a3 (ix2 (rowOf b j) (0 : Fin 7))
  q1 := a3 (ix2 (rowOf b j) (1 : Fin 7))
  q2 := a3 (ix2 (rowOf b j) (2 : Fin 7))
  iw := a4 (ix3 b j (0 : Fin 1))
  mw := a5 (ix2 (rowOf b j) (0 : Fin 1))

/-- The eight statistics: each term summed over every group and detection. -/
def stat (a0 : FVec Ideal SScores .f32) (a1 : FVec Ideal SCov .f32) (a2 : FVec Ideal SPos .f32)
    (a3 : FVec Ideal SPose .f32) (a4 : IVec SInd 32) (a5 : IVec SMatch 32) (r : Fin 8) : EReal :=
  ∑ b : Fin 131072, ∑ j : Fin 31, (entryAt a0 a1 a2 a3 a4 a5 b j).term r

/-! ## Entries of one block of 256 groups -/

abbrev BScores : Shape := ⟨3, ![256, 32, 32]⟩
abbrev BFlat : Shape := ⟨2, ![256, 31]⟩
abbrev BPos : Shape := ⟨3, ![256, 31, 3]⟩
abbrev BPose : Shape := ⟨3, ![256, 31, 7]⟩

/-- The entry at (p, j) of six blocks: 256 consecutive groups of each array, the flattened arrays regrouped
    as (group, detection) and the unit axes dropped. -/
def bentry (x0 : FVec Ideal BScores .f32) (x1 : FVec Ideal BFlat .f32) (x2 : FVec Ideal BPos .f32)
    (x3 : IVec BFlat 32) (x4 : FVec Ideal BPose .f32) (x5 : IVec BFlat 32) (p : Fin 256) (j : Fin 31) : Entry where
  row := fun l => x0 (ix3 p (⟨j.val, by have := j.isLt; omega⟩ : Fin 32) l)
  cv := x1 (ix2 p j)
  p0 := x2 (ix3 p j (0 : Fin 3))
  p1 := x2 (ix3 p j (1 : Fin 3))
  p2 := x2 (ix3 p j (2 : Fin 3))
  q0 := x4 (ix3 p j (0 : Fin 7))
  q1 := x4 (ix3 p j (1 : Fin 7))
  q2 := x4 (ix3 p j (2 : Fin 7))
  iw := x3 (ix2 p j)
  mw := x5 (ix2 p j)

/-- A block's share of the statistics. -/
def bstat (x0 : FVec Ideal BScores .f32) (x1 : FVec Ideal BFlat .f32) (x2 : FVec Ideal BPos .f32)
    (x3 : IVec BFlat 32) (x4 : FVec Ideal BPose .f32) (x5 : IVec BFlat 32) (r : Fin 8) : EReal :=
  ∑ p : Fin 256, ∑ j : Fin 31, (bentry x0 x1 x2 x3 x4 x5 p j).term r

/-! ## From the statistics to the seven results -/

/-- The number of entries, 4063232, as both programs spell it. -/
def nTot : EReal := Ideal.ofBits .f32 0x4A780000#32
def one32 : EReal := Ideal.ofBits .f32 0x3F800000#32
def zero32 : EReal := Ideal.ofBits .f32 0x00000000#32

/-- A masked mean: the sum over the count (at least 1) when the count is positive, else the default. -/
def masked (cnt s d : EReal) : EReal :=
  Scalar.select (Ideal.cmp .ogt cnt zero32) (Ideal.div s (max cnt one32)) d

def lossMatch (s : Fin 8 → EReal) : EReal := Ideal.div (s 0) nTot
def lossPos (s : Fin 8 → EReal) : EReal := Ideal.div (s 1) nTot
def lossCov (s : Fin 8 → EReal) : EReal := masked (s 3) (s 2) (Ideal.ofBits .f32 0x40A00000#32)
def precision (s : Fin 8 → EReal) : EReal := masked (s 3) (s 6) one32
def recall (s : Fin 8 → EReal) : EReal := masked (s 5) (s 4) one32
def total (s : Fin 8 → EReal) : EReal :=
  (one32 * lossMatch s + one32 * lossPos s) + Ideal.ofBits .f32 0x3DCCCCCD#32 * lossCov s

/-! ## The accumulator array -/

/-- The kernel's accumulator: one 8 x 128 slab per core. -/
abbrev SAcc : Shape := ⟨3, ![2, 8, 128]⟩

/-- Row `r` of the accumulator summed over both cores and all 128 lanes, from zero. -/
def rowSums (G : FVec Ideal SAcc .f32) (r : Fin 8) : EReal :=
  zero32 + ∑ c' : Fin 2, ∑ l : Fin 128, G (ix3 c' r l)

end Cert.SetLoss

end
-- ==== Proof.PreRange.lean ====
/-
  What the precondition says about the label words. Its last conjunct is an all-reduce of
  (label ≥ -1) and (label ≤ 31), both signed, over every label word; so each label word is -1 or one of 0 … 31.
-/
import proofs.«403313_j30760555773959_3_alg».proof.Proof.Spec
import proofs.«403313_j30760555773959_3_alg».proof.Pre_finite_inputs
import Idealize.ShloMosaic.Lib.ReduceAll
import Idealize.ShloMosaic.Lib.StableHlo.Predicate

noncomputable section

open scoped BigOperators

namespace Cert.SetLoss

open Idealize.ShloMosaic Idealize.ShloMosaic.ValueIdx

/-- The scalar shape has a single index. -/
instance : Subsingleton Cert.Pre_finite_inputs.S_.Idx := ⟨fun a b => funext fun d => d.elim0⟩

/-- Read as signed numbers: a word that is at least -1 and at most 31 is the word of -1 or, read unsigned, at most 31. -/
private theorem word_range (w : BitVec 32) (h1 : IntOp.cmpi .sge w 4294967295#32 = 1#1)
    (h2 : IntOp.cmpi .sle w 31#32 = 1#1) : InRange w := by
  rw [IntOp.cmpi_sge] at h1
  rw [IntOp.cmpi_sle] at h2
  have e1 : (4294967295#32 : BitVec 32).toInt = -1 := by decide
  have e2 : (31#32 : BitVec 32).toInt = 31 := by decide
  rw [e1] at h1
  rw [e2] at h2
  have hlt := w.isLt
  rw [BitVec.toInt_eq_toNat_cond] at h1 h2
  by_cases hw : 2 * w.toNat < 2 ^ 32
  · -- a non-negative word: its signed value is its unsigned value
    rw [if_pos hw] at h2
    exact Or.inr (by omega)
  · -- a negative word: only -1 is at least -1
    rw [if_neg hw] at h1
    refine Or.inl (BitVec.eq_of_toNat_eq ?_)
    show w.toNat = 4294967295
    omega

/-- EVERY LABEL WORD IS IN RANGE under the precondition. -/
theorem range_of_pre [Cert.Pre_finite_inputs.Facts] (a0 : FVec Ideal SScores .f32) (a1 : FVec Ideal SCov .f32)
    (a2 : FVec Ideal SPos .f32) (a3 : FVec Ideal SPose .f32) (a4 : IVec SInd 32) (a5 : IVec SMatch 32)
    (h : Cert.Pre_finite_inputs.fn (F := Ideal) a0 a1 a2 a3 a4 a5 = fun _ => 1#1) (n : Fin 4063232) :
    InRange (a5 (ix2 n (0 : Fin 1))) := by
  -- the precondition's one value is 1
  have h0 := congrFun h ValueIdx.ix0
  dsimp only [Cert.Pre_finite_inputs.fn, Cert.Pre_finite_inputs.fn_part1] at h0
  -- its last conjunct is the conjunction over all label words of (label ≥ -1) and (label ≤ 31)
  have hall := (IntOp.andi_eq_one.1 h0).2
  -- so both comparisons hold at the label word of row n
  have hel := Host.reduce_andi_all _ _ _ _ _ hall (ix2 n (0 : Fin 1))
  obtain ⟨hge, hle⟩ := IntOp.andi_eq_one.1 hel
  -- a broadcast scalar reads the scalar at every index
  have hb : ∀ (c : BitVec 32) (hbc : Cert.Pre_finite_inputs.S_.BroadcastsInDim Cert.Pre_finite_inputs.S4063232x1 ![])
      (j : Cert.Pre_finite_inputs.S4063232x1.Idx),
      broadcastInDim Cert.Pre_finite_inputs.S4063232x1 ![] hbc (constantI Cert.Pre_finite_inputs.S_ 32 c) j = c :=
    fun c hbc j => StableHlo.Predicate.bcast_scalar hbc Cert.Pre_finite_inputs.Facts.h_S_ _ j
  have hge' : IntOp.cmpi .sge (a5 (ix2 n (0 : Fin 1))) 4294967295#32 = 1#1 := by
    rw [← hb 4294967295#32 Cert.Pre_finite_inputs.Facts.bcast_S_S4063232x1 (ix2 n (0 : Fin 1))]
    exact hge
  have hle' : IntOp.cmpi .sle (a5 (ix2 n (0 : Fin 1))) 31#32 = 1#1 := by
    rw [← hb 31#32 Cert.Pre_finite_inputs.Facts.bcast_S_S4063232x1 (ix2 n (0 : Fin 1))]
    exact hle
  exact word_range _ hge' hle'

end Cert.SetLoss

end
-- ==== Proof.KStepDef.lean ====
/-
  One grid step of the kernel as ONE value: what the body stores into the accumulator block, as a function of the step's
  six input blocks, the grid's second coordinate and the accumulator's previous contents. It is the body's pure terms
  composed in program order: the eight statistics of the blocks, each placed in the lane (coordinate mod 128) of its
  row, added to the previous contents.
-/
import proofs.«403313_j30760555773959_3_alg».proof.Proof.Spec
import proofs.«403313_j30760555773959_3_alg».proof.Proof.Gen.KernelIdeal.Skeleton

noncomputable section

namespace Cert.SetLoss.K

open Idealize.ShloMosaic Cert.KernelIdeal Cert.KernelIdeal.Gen

variable {F : FTy → Type} [FloatOps F]

/-- The accumulator block after one step: `prev` plus the step's statistics spread into lane `arg1 mod 128`.
    `x0` … `x5` are the step's blocks of scores, variances, positions, predicted indices, poses and labels. -/
def stepVal (arg1 : BitVec 32) (x0 : Vec F S256x32x32 .f32) (x1 : Vec F S256x31 .f32) (x2 : Vec F S256x31x3 .f32)
    (x3 : Vec F S256x31 .i32) (x4 : Vec F S256x31x7 .f32) (x5 : Vec F S256x31 .i32) (prev : Vec F S1x8x128 .f32) :
    Vec F S1x8x128 .f32 :=
  k0_pay1 (k0_pay19 arg1 (k0_pay12 (k0_pay3 x5)) (k0_pay13 (k0_pay4 x3)) (k0_pay14 (k0_pay3 x5) (k0_pay4 x3))
    (k0_pay15 (k0_pay6 x5 x0))
    (k0_pay16 x2 (k0_pay7 x4) (k0_pay8 x2 x4) (k0_pay9 x2) (k0_pay10 x4))
    (k0_pay17 (k0_pay4 x3) (k0_pay5 x1) x2 (k0_pay7 x4) (k0_pay8 x2 x4) (k0_pay9 x2) (k0_pay10 x4))
    (k0_pay18 (k0_pay4 x3)) (Scalar.ofBits .f32 0x00000000#32) prev)

/-- The block the first step of a core starts from: all zeros. -/
abbrev zeroBlk : Vec F S1x8x128 .f32 := k0_pay2 (F := F)

end Cert.SetLoss.K

end
-- ==== Proof.KStep.lean ====
/-
  One grid step read at an index. Row r, lane l of the accumulator block after a step holds what it held before plus
  the blocks' statistic r if l is the step's lane (its second grid coordinate mod 128), and plus nothing otherwise.
  The statistic is the sum over the block's 256 x 31 entries of the entry's term r: the two lane sums of the body
  (over the 31 detections, then over the 256 groups) are one double sum; the one-hot select over the 32 score
  columns picks the label's column, the label word being in range.
-/
import proofs.«403313_j30760555773959_3_alg».proof.Proof.KStepDef
import Idealize.ShloMosaic.Lib.ValueLayout
import Idealize.ShloMosaic.PureOps.Ideal.Laws

noncomputable section

open scoped BigOperators

namespace Cert.SetLoss.K

open Idealize.ShloMosaic Idealize.ShloMosaic.ValueIdx Cert.KernelIdeal Cert.KernelIdeal.Gen

namespace Step

/-! ## Words: a select and a widened bit on a comparison -/

/-- A select on an equality test is the `if` on the equality. -/
theorem select_eq {α : Type} {w : Nat} (x y : BitVec w) (a b : α) :
    Scalar.select (IntOp.cmpi .eq x y) a b = if x = y then a else b := by
  by_cases h : x = y
  · exact (if_pos (IntOp.cmpi_eq.mpr h)).trans (if_pos h).symm
  · exact (if_neg (mt IntOp.cmpi_eq.mp h)).trans (if_neg h).symm

/-- A select on an inequality test is the `if` on the equality, its branches swapped. -/
theorem select_ne {α : Type} {w : Nat} (x y : BitVec w) (a b : α) :
    Scalar.select (IntOp.cmpi .ne x y) a b = if x = y then b else a := by
  by_cases h : x = y
  · exact (if_neg (fun hc => (IntOp.cmpi_ne.mp hc) h)).trans (if_pos h).symm
  · exact (if_pos (IntOp.cmpi_ne.mpr h)).trans (if_neg h).symm

/-- Selects agree when their conditions and branches do. -/
theorem select_congr {α : Type} {c c' : BitVec 1} {a a' b b' : α} (hc : c = c') (ha : a = a') (hb : b = b') :
    Scalar.select c a b = Scalar.select c' a' b' := by
  subst hc ha hb; rfl

/-- A bit widened to 32 bits and converted is 1 or 0. -/
theorem sitofp_bit (c : BitVec 1) :
    FloatOps.sitofp (F := Ideal) .f32 (c.setWidth 32) = if c = 1#1 then 1 else 0 := by
  rcases BitVec.eq_zero_or_eq_one c with h | h
  · subst h
    have e : ((0#1).setWidth 32 : BitVec 32).toInt = 0 := by decide
    show ((((0#1).setWidth 32 : BitVec 32).toInt : ℝ) : EReal) = _
    rw [e, if_neg (by decide)]; simp
  · subst h
    have e : ((1#1).setWidth 32 : BitVec 32).toInt = 1 := by decide
    show ((((1#1).setWidth 32 : BitVec 32).toInt : ℝ) : EReal) = _
    rw [e, if_pos rfl]; simp

/-- The bit of an equality test, converted: 1 where equal. -/
theorem sitofp_eq (x y : BitVec 32) :
    FloatOps.sitofp (F := Ideal) .f32 ((IntOp.cmpi .eq x y).setWidth 32) = if x = y then 1 else 0 := by
  rw [sitofp_bit]
  by_cases h : x = y
  · rw [if_pos (IntOp.cmpi_eq.mpr h), if_pos h]
  · rw [if_neg (mt IntOp.cmpi_eq.mp h), if_neg h]

/-- The bit of an inequality test, converted: 0 where equal. -/
theorem sitofp_ne (x y : BitVec 32) :
    FloatOps.sitofp (F := Ideal) .f32 ((IntOp.cmpi .ne x y).setWidth 32) = if x = y then 0 else 1 := by
  rw [sitofp_bit]
  by_cases h : x = y
  · rw [if_neg (fun hc => (IntOp.cmpi_ne.mp hc) h), if_pos h]
  · rw [if_pos (IntOp.cmpi_ne.mpr h), if_neg h]

/-! ## Layout operations at an index -/

section Layout
variable {α : Type}

/-- A trailing unit axis dropped: [a, b, 1] read as [a, b]. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- A trailing unit axis added: [a, b] read as [a, b, 1]. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- A vector as a column: [a] read as [a, 1]. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A rank-3 array cut along its last axis from `o` reads, at `(a, b, j)`, the source at `(a, b, k)`, `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Column `o` of a [a, b, n] array as a matrix: the cut of width one along the last axis, its unit axis dropped. -/
theorem column_apply {a b n : ℕ} (o : ℕ) (X : (⟨3, ![a, b, n]⟩ : Shape).Idx → α)
    (h : (⟨3, ![a, b, n]⟩ : Shape).Slices ![0, 0, o] ⟨3, ![a, b, 1]⟩)
    (h' : (⟨3, ![a, b, 1]⟩ : Shape).ShapeCasts ⟨2, ![a, b]⟩) (p : Fin a) (j : Fin b) (k : Fin n) (hk : k.val = o) :
    shapeCast ⟨2, ![a, b]⟩ (extractStridedSlice ⟨3, ![a, b, 1]⟩ ![0, 0, o] X h) h' (ix2 p j) = X (ix3 p j k) :=
  (shapeCast_ab1_ab_apply _ h' p j).trans (slice3_axis2_apply o X h p j (0 : Fin 1) k (by rw [hk]; rfl))

/-- A [a, b, 1] array spread over a last axis of extent c reads its one entry. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (l : Fin c) :
    broadcastTo ⟨3, ![a, b, c]⟩ v h (ix3 p j l) = v (ix3 p j (0 : Fin 1)) := by
  refine broadcastTo_apply v h (ix3 p j l) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

/-- A 1 x 1 array spread over n lanes reads its one entry. -/
theorem broadcastTo_11_1n_apply {n : ℕ} (v : (⟨2, ![1, 1]⟩ : Shape).Idx → α)
    (h : (⟨2, ![1, 1]⟩ : Shape).Broadcasts ⟨2, ![1, n]⟩) (u : Fin 1) (l : Fin n) :
    broadcastTo ⟨2, ![1, n]⟩ v h (ix2 u l) = v (ix2 (0 : Fin 1) (0 : Fin 1)) := by
  refine broadcastTo_apply v h (ix2 u l) (ix2 (0 : Fin 1) (0 : Fin 1)) fun ax => ?_
  match ax with
  | ⟨0, _⟩ => rfl
  | ⟨1, _⟩ => rfl

end Layout

/-! ## Lane sums -/

/-- A sum along the last axis of a rank-3 array, read at an index. -/
theorem lastSum_apply {a b c : ℕ} (v : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (j : Fin b) :
    multiReduction (F := Ideal) .add [2] ⟨2, ![a, b]⟩ v 0x00000000#32 h hφ hacc (ix2 p j) = ∑ l : Fin c, v (ix3 p j l) := by
  refine (Ideal.multiReduction_add_single v 0x00000000#32 h hφ hacc (ix2 p j)).trans ?_
  refine Finset.sum_congr rfl fun l _ => congrArg v ?_
  funext d
  match d with
  | ⟨0, _⟩ => exact Fin.ext rfl
  | ⟨1, _⟩ => exact Fin.ext rfl
  | ⟨2, _⟩ => exact Fin.ext rfl

/-- A sum along the second axis of a matrix, read at a row. -/
theorem rowSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 h hφ hacc (ix1 p) = ∑ j : Fin b, v (ix2 p j) := by
  refine (Ideal.multiReduction_add_single v 0x00000000#32 h hφ hacc (ix1 p)).trans ?_
  refine Finset.sum_congr rfl fun j _ => congrArg v ?_
  funext c
  match c with
  | ⟨0, _⟩ => exact Fin.ext rfl
  | ⟨1, _⟩ => exact Fin.ext rfl

/-- A sum along the first axis of a one-column matrix, read at its one index. -/
theorem colSum_apply {a : ℕ} (v : FVec Ideal ⟨2, ![a, 1]⟩ .f32)
    (h : (⟨2, ![a, 1]⟩ : Shape).Reduces [0] ⟨1, ![1]⟩) (hφ : FKind.Formats .f32)
    (hacc : (0x00000000#32 : BitVec 32) = 0x00000000#32) (u : Fin 1) :
    multiReduction (F := Ideal) .add [0] ⟨1, ![1]⟩ v 0x00000000#32 h hφ hacc (ix1 u) = ∑ p : Fin a, v (ix2 p (0 : Fin 1)) := by
  refine (Ideal.multiReduction_add_single v 0x00000000#32 h hφ hacc (ix1 u)).trans ?_
  refine Finset.sum_congr rfl fun p _ => congrArg v ?_
  funext c
  match c with
  | ⟨0, _⟩ => exact Fin.ext rfl
  | ⟨1, _⟩ => exact Fin.ext (by have := u.isLt; show u.val = 0; omega)

/-- The body's two lane sums, over the 31 detections and then over the 256 groups, kept as a 1 x 1 vector. -/
def dsum (v : FVec Ideal S256x31 .f32) : FVec Ideal S1x1 .f32 :=
  shapeCast S1x1
    (multiReduction (F := Ideal) .add [0] S1
      (shapeCast S256x1 (multiReduction (F := Ideal) .add [1] S256 v 0x00000000#32 reduces_S256x31_S256 (.inl rfl) rfl)
        shapeCasts_S256_S256x1)
      0x00000000#32 reduces_S256x1_S1 (.inl rfl) rfl)
    shapeCasts_S1_S1x1

/-- They are one double sum. -/
theorem dsum_apply (v : FVec Ideal S256x31 .f32) :
    dsum v (ix2 (0 : Fin 1) (0 : Fin 1)) = ∑ p : Fin 256, ∑ j : Fin 31, v (ix2 p j) := by
  unfold dsum
  refine (shapeCast_a_1a_apply _ shapeCasts_S1_S1x1 (0 : Fin 1) (0 : Fin 1)).trans ?_
  refine (colSum_apply _ reduces_S256x1_S1 (.inl rfl) rfl (0 : Fin 1)).trans ?_
  refine Finset.sum_congr rfl fun p _ => ?_
  refine (shapeCast_a_a1_apply _ shapeCasts_S256_S256x1 p (0 : Fin 1)).trans ?_
  exact rowSum_apply v reduces_S256x31_S256 (.inl rfl) rfl p

/-! ## The cost's column: a one-hot select over the 32 score columns -/

/-- The column word the body compares against: 31 for "no label", else the label word. -/
def colWord (w : BitVec 32) : BitVec 32 := Scalar.select (IntOp.cmpi .eq w 4294967295#32) 31#32 w

/-- For a label word in range, column `l`'s word is the column word exactly at `l = colOf w`. -/
theorem colWord_iff (w : BitVec 32) (hw : InRange w) (l : Fin 32) :
    BitVec.ofNat 32 l.val = colWord w ↔ l = colOf w := by
  unfold colWord colOf
  rw [select_eq]
  have hl := l.isLt
  by_cases h : w = negOne
  · rw [if_pos h, if_pos h]
    constructor
    · intro e
      have := congrArg BitVec.toNat e
      rw [BitVec.toNat_ofNat] at this
      exact Fin.ext (by show l.val = 31; simp at this; omega)
    · intro e; subst e; rfl
  · rw [if_neg h, if_neg h]
    have hw' : w.toNat ≤ 31 := by
      rcases hw with h' | h'
      · exact absurd h' h
      · exact h'
    constructor
    · intro e
      have := congrArg BitVec.toNat e
      rw [BitVec.toNat_ofNat] at this
      exact Fin.ext (by show l.val = w.toNat % 32; omega)
    · intro e
      have : l.val = w.toNat % 32 := congrArg Fin.val e
      apply BitVec.eq_of_toNat_eq
      rw [BitVec.toNat_ofNat]; omega

/-- So the one-hot sum over the columns picks the label's column. -/
theorem onehot_sum (w : BitVec 32) (hw : InRange w) (f : Fin 32 → EReal) :
    ∑ l : Fin 32, Scalar.select (IntOp.cmpi .eq (BitVec.ofNat 32 l.val) (colWord w)) (f l) (0 : EReal) = f (colOf w) := by
  have : ∀ l : Fin 32, Scalar.select (IntOp.cmpi .eq (BitVec.ofNat 32 l.val) (colWord w)) (f l) (0 : EReal)
      = if l = colOf w then f l else 0 := fun l => by
    rw [select_eq]
    exact if_congr (colWord_iff w hw l) rfl rfl
  rw [Finset.sum_congr rfl fun l _ => this l, Finset.sum_ite_eq' Finset.univ (colOf w) f, if_pos (Finset.mem_univ _)]

/-! ## The lane factor -/

/-- The step's lane word: the grid coordinate's remainder by 128. -/
theorem lane_word (i1 : Fin 256) : Scalar.remsi (BitVec.ofNat 32 i1.val) 128#32 = BitVec.ofNat 32 (i1.val % 128) := by
  have hi := i1.isLt
  apply BitVec.eq_of_toNat_eq
  have hx : (BitVec.ofNat 32 i1.val).toNat = i1.val := by rw [BitVec.toNat_ofNat]; omega
  have := IntOp.toNat_remsi .scalar (x := BitVec.ofNat 32 i1.val) (by rw [hx]; omega) 128 (by omega) (by omega)
  rw [hx] at this
  show (IntOp.remsi .scalar (BitVec.ofNat 32 i1.val) (BitVec.ofNat 32 128)).toNat = _
  rw [this, BitVec.toNat_ofNat]; omega

/-- Lane `l`'s word is the lane word exactly at `l = i1 mod 128`. -/
theorem lane_iff (i1 : Fin 256) (l : Fin 128) :
    BitVec.ofNat 32 l.val = Scalar.remsi (BitVec.ofNat 32 i1.val) 128#32 ↔ l.val = i1.val % 128 := by
  rw [lane_word]
  have hl := l.isLt
  have hi := i1.isLt
  constructor
  · intro e
    have := congrArg BitVec.toNat e
    rw [BitVec.toNat_ofNat, BitVec.toNat_ofNat] at this
    omega
  · intro e; rw [e]

/-- The one-hot lane vector: 1 in the step's lane, 0 in every other. -/
theorem hot_apply (i1 : Fin 256) (u : Fin 1) (l : Fin 128) :
    (sitofp (F := Ideal) .f32
        (extui 32 (cmpi .eq (iota .tc S1x128 32 [1] iota_S1x128_d1_w32)
          (broadcast S1x128 (Scalar.remsi (BitVec.ofNat 32 i1.val) 128#32))) natLt_1_32)) (ix2 u l)
      = if l.val = i1.val % 128 then 1 else 0 := by
  have hi : iota .tc S1x128 32 [1] iota_S1x128_d1_w32 (ix2 u l) = BitVec.ofNat 32 l.val :=
    iota_single_apply _ _ _ _ _ _
  show FloatOps.sitofp (F := Ideal) .f32
      ((IntOp.cmpi .eq (iota .tc S1x128 32 [1] iota_S1x128_d1_w32 (ix2 u l))
        (Scalar.remsi (BitVec.ofNat 32 i1.val) 128#32)).setWidth 32) = _
  rw [hi, sitofp_eq]
  exact if_congr (lane_iff i1 l) rfl rfl

/-! ## The body's vectors at an entry -/

/-- The body's casts of a block to its own shape change nothing. -/
theorem pay3_eq (x : Vec Ideal S256x31 .i32) : k0_pay3 (F := Ideal) x = x := shapeCast_self x _
theorem pay4_eq (x : Vec Ideal S256x31 .i32) : k0_pay4 (F := Ideal) x = x := shapeCast_self x _
theorem pay5_eq (x : Vec Ideal S256x31 .f32) : k0_pay5 (F := Ideal) x = x := shapeCast_self x _
theorem pay7_eq (x : Vec Ideal S256x31x7 .f32) : k0_pay7 (F := Ideal) x = x := shapeCast_self x _

/-- The cost at an entry: minus the score in the label's column, the label word being in range. -/
theorem pay6_apply (x5 : Vec Ideal S256x31 .i32) (x0 : Vec Ideal S256x32x32 .f32) (p : Fin 256) (j : Fin 31)
    (hw : InRange (x5 (ix2 p j))) :
    k0_pay6 (F := Ideal) x5 x0 (ix2 p j)
      = 0 - x0 (ix3 p (⟨j.val, by have := j.isLt; omega⟩ : Fin 32) (colOf (x5 (ix2 p j)))) := by
  unfold k0_pay6
  rw [pay3_eq]
  refine (subf_apply _ _ _).trans ?_
  refine congrArg₂ (· - ·) Ideal.ofBits_zero_f32 ?_
  refine (lastSum_apply _ reduces_S256x31x32_S256x31 (.inl rfl) rfl p j).trans ?_
  refine Eq.trans (Finset.sum_congr rfl fun l _ => ?_)
    (onehot_sum (x5 (ix2 p j)) hw fun l => x0 (ix3 p (⟨j.val, by have := j.isLt; omega⟩ : Fin 32) l))
  refine (select_apply _ _ _ _).trans ?_
  refine select_congr ?_ ?_ Ideal.ofBits_zero_f32
  · have hi : iota .tc S256x31x32 32 [2] iota_S256x31x32_d2_w32 (ix3 p j l) = BitVec.ofNat 32 l.val :=
      iota_single_apply _ _ _ _ _ _
    have hb : broadcastTo S256x31x32
        (shapeCast S256x31x1
          (select (cmpi .eq x5 (broadcast S256x31 4294967295#32)) (broadcast S256x31 31#32) x5)
          shapeCasts_S256x31_S256x31x1)
        broadcasts_S256x31x1_S256x31x32 (ix3 p j l) = colWord (x5 (ix2 p j)) :=
      (broadcastTo_ab1_abc_apply _ _ p j l).trans (shapeCast_ab_ab1_apply _ _ p j (0 : Fin 1))
    exact congrArg₂ (IntOp.cmpi .eq) hi hb
  · exact slice3_axis1_apply 0 x0 slices_S256x32x32_o0_0_0_S256x31x32 p j l _ (by simp)

/-- The first coordinate's difference at an entry. -/
theorem pay8_apply (x2 : Vec Ideal S256x31x3 .f32) (x4 : Vec Ideal S256x31x7 .f32) (p : Fin 256) (j : Fin 31) :
    k0_pay8 (F := Ideal) x2 x4 (ix2 p j) = x2 (ix3 p j (0 : Fin 3)) - x4 (ix3 p j (0 : Fin 7)) := by
  unfold k0_pay8
  rw [pay7_eq]
  refine (subf_apply _ _ _).trans ?_
  exact congrArg₂ (· - ·)
    (column_apply 0 x2 slices_S256x31x3_o0_0_0_S256x31x1 shapeCasts_S256x31x1_S256x31 p j (0 : Fin 3) rfl)
    (column_apply 0 x4 slices_S256x31x7_o0_0_0_S256x31x1 shapeCasts_S256x31x1_S256x31 p j (0 : Fin 7) rfl)

/-- The position's second coordinate at an entry. -/
theorem pay9_apply (x2 : Vec Ideal S256x31x3 .f32) (p : Fin 256) (j : Fin 31) :
    k0_pay9 (F := Ideal) x2 (ix2 p j) = x2 (ix3 p j (1 : Fin 3)) := by
  unfold k0_pay9
  exact column_apply 1 x2 slices_S256x31x3_o0_0_1_S256x31x1 shapeCasts_S256x31x1_S256x31 p j (1 : Fin 3) rfl

/-- The pose's second coordinate at an entry. -/
theorem pay10_apply (x4 : Vec Ideal S256x31x7 .f32) (p : Fin 256) (j : Fin 31) (u : Fin 1) :
    k0_pay10 (F := Ideal) x4 (ix3 p j u) = x4 (ix3 p j (1 : Fin 7)) := by
  unfold k0_pay10
  rw [pay7_eq]
  exact slice3_axis2_apply 1 x4 slices_S256x31x7_o0_0_1_S256x31x1 p j u (1 : Fin 7)
    (by have := u.isLt; show 1 = 1 + u.val; omega)

/-- The squared distance at an entry. -/
theorem sq_apply (x0 : Vec Ideal S256x32x32 .f32) (x1 : Vec Ideal S256x31 .f32) (x2 : Vec Ideal S256x31x3 .f32)
    (x3 : Vec Ideal S256x31 .i32) (x4 : Vec Ideal S256x31x7 .f32) (x5 : Vec Ideal S256x31 .i32) (p : Fin 256) (j : Fin 31) :
    k0_pay11 (F := Ideal) x2 x4 (k0_pay8 x2 x4) (k0_pay9 x2) (k0_pay10 x4) (ix2 p j)
      = (bentry x0 x1 x2 x3 x4 x5 p j).sq := by
  unfold k0_pay11
  have d0 := pay8_apply x2 x4 p j
  have d1 : subf (F := Ideal) (φ := .f32) (k0_pay9 (F := Ideal) x2) (shapeCast S256x31 (k0_pay10 (F := Ideal) x4) shapeCasts_S256x31x1_S256x31) (ix2 p j)
      = x2 (ix3 p j (1 : Fin 3)) - x4 (ix3 p j (1 : Fin 7)) :=
    (subf_apply _ _ _).trans (congrArg₂ (· - ·) (pay9_apply x2 p j)
      ((shapeCast_ab1_ab_apply _ shapeCasts_S256x31x1_S256x31 p j).trans (pay10_apply x4 p j (0 : Fin 1))))
  have d2 : subf (F := Ideal) (φ := .f32)
        (shapeCast S256x31 (extractStridedSlice S256x31x1 ![0, 0, 2] x2 slices_S256x31x3_o0_0_2_S256x31x1)
          shapeCasts_S256x31x1_S256x31)
        (shapeCast S256x31 (extractStridedSlice S256x31x1 ![0, 0, 2] x4 slices_S256x31x7_o0_0_2_S256x31x1)
          shapeCasts_S256x31x1_S256x31) (ix2 p j)
      = x2 (ix3 p j (2 : Fin 3)) - x4 (ix3 p j (2 : Fin 7)) :=
    (subf_apply _ _ _).trans (congrArg₂ (· - ·)
      (column_apply 2 x2 slices_S256x31x3_o0_0_2_S256x31x1 shapeCasts_S256x31x1_S256x31 p j (2 : Fin 3) rfl)
      (column_apply 2 x4 slices_S256x31x7_o0_0_2_S256x31x1 shapeCasts_S256x31x1_S256x31 p j (2 : Fin 7) rfl))
  refine (addf_apply _ _ _).trans ?_
  refine congrArg₂ (· + ·) ((addf_apply _ _ _).trans (congrArg₂ (· + ·) ?_ ?_)) ?_
  · exact (mulf_apply _ _ _).trans (congrArg₂ (· * ·) d0 d0)
  · exact (mulf_apply _ _ _).trans (congrArg₂ (· * ·) d1 d1)
  · exact (mulf_apply _ _ _).trans (congrArg₂ (· * ·) d2 d2)

/-- The success indicator at an entry: 1 where the predicted index is the label. -/
theorem pay14_apply (x5 x3 : IVec S256x31 32) (i : S256x31.Idx) :
    k0_pay14 (F := Ideal) x5 x3 i = if x3 i = x5 i then 1 else 0 :=
  sitofp_eq (x3 i) (x5 i)

/-! ## The seven statistics of a block as double sums of the entries' terms -/

section Stats
variable (x0 : Vec Ideal S256x32x32 .f32) (x1 : Vec Ideal S256x31 .f32) (x2 : Vec Ideal S256x31x3 .f32)
  (x3 : Vec Ideal S256x31 .i32) (x4 : Vec Ideal S256x31x7 .f32) (x5 : Vec Ideal S256x31 .i32)

/-- Row 0: the costs. -/
theorem stat0 (hr : ∀ (p : Fin 256) (j : Fin 31), InRange (x5 (ix2 p j))) :
    k0_pay15 (F := Ideal) (k0_pay6 x5 x0) (ix2 (0 : Fin 1) (0 : Fin 1))
      = ∑ p : Fin 256, ∑ j : Fin 31, (bentry x0 x1 x2 x3 x4 x5 p j).term ⟨0, by decide⟩ := by
  refine (dsum_apply _).trans ?_
  refine Finset.sum_congr rfl fun p _ => Finset.sum_congr rfl fun j _ => ?_
  exact pay6_apply x5 x0 p j (hr p j)

/-- Row 1: the squared distances. -/
theorem stat1 :
    k0_pay16 (F := Ideal) x2 x4 (k0_pay8 x2 x4) (k0_pay9 x2) (k0_pay10 x4) (ix2 (0 : Fin 1) (0 : Fin 1))
      = ∑ p : Fin 256, ∑ j : Fin 31, (bentry x0 x1 x2 x3 x4 x5 p j).term ⟨1, by decide⟩ := by
  refine (dsum_apply _).trans ?_
  refine Finset.sum_congr rfl fun p _ => Finset.sum_congr rfl fun j _ => ?_
  exact sq_apply x0 x1 x2 x3 x4 x5 p j

/-- Row 2: the likelihood terms where a prediction exists. -/
theorem stat2 :
    k0_pay17 (F := Ideal) x3 x1 x2 x4 (k0_pay8 x2 x4) (k0_pay9 x2) (k0_pay10 x4) (ix2 (0 : Fin 1) (0 : Fin 1))
      = ∑ p : Fin 256, ∑ j : Fin 31, (bentry x0 x1 x2 x3 x4 x5 p j).term ⟨2, by decide⟩ := by
  refine (dsum_apply _).trans ?_
  refine Finset.sum_congr rfl fun p _ => Finset.sum_congr rfl fun j _ => ?_
  refine (select_apply _ _ _ _).trans ?_
  refine (select_ne (x3 (ix2 p j)) 4294967295#32 _ _).trans ?_
  refine if_congr Iff.rfl Ideal.ofBits_zero_f32 ?_
  refine (addf_apply _ _ _).trans ?_
  refine congrArg₂ (· + ·) ?_ rfl
  refine (divf_apply _ _ _).trans ?_
  exact congrArg (fun s => Ideal.div s (x1 (ix2 p j))) (sq_apply x0 x1 x2 x3 x4 x5 p j)

/-- Row 3: the number of predictions. -/
theorem stat3 :
    k0_pay18 (F := Ideal) x3 (ix2 (0 : Fin 1) (0 : Fin 1))
      = ∑ p : Fin 256, ∑ j : Fin 31, (bentry x0 x1 x2 x3 x4 x5 p j).term ⟨3, by decide⟩ := by
  refine (dsum_apply _).trans ?_
  refine Finset.sum_congr rfl fun p _ => Finset.sum_congr rfl fun j _ => ?_
  exact sitofp_ne (x3 (ix2 p j)) 4294967295#32

/-- Row 4: the successes where a label exists. -/
theorem stat4 :
    dsum (select (k0_pay12 x5) (k0_pay14 (F := Ideal) x5 x3) (broadcast S256x31 (Scalar.ofBits .f32 0x00000000#32)))
        (ix2 (0 : Fin 1) (0 : Fin 1))
      = ∑ p : Fin 256, ∑ j : Fin 31, (bentry x0 x1 x2 x3 x4 x5 p j).term ⟨4, by decide⟩ := by
  refine (dsum_apply _).trans ?_
  refine Finset.sum_congr rfl fun p _ => Finset.sum_congr rfl fun j _ => ?_
  refine (select_apply _ _ _ _).trans ?_
  refine (select_ne (x5 (ix2 p j)) 4294967295#32 _ _).trans ?_
  exact if_congr Iff.rfl Ideal.ofBits_zero_f32 (pay14_apply x5 x3 (ix2 p j))

/-- Row 5: the number of labels. -/
theorem stat5 :
    dsum (sitofp (F := Ideal) .f32 (extui 32 (k0_pay12 x5) natLt_1_32)) (ix2 (0 : Fin 1) (0 : Fin 1))
      = ∑ p : Fin 256, ∑ j : Fin 31, (bentry x0 x1 x2 x3 x4 x5 p j).term ⟨5, by decide⟩ := by
  refine (dsum_apply _).trans ?_
  refine Finset.sum_congr rfl fun p _ => Finset.sum_congr rfl fun j _ => ?_
  exact sitofp_ne (x5 (ix2 p j)) 4294967295#32

/-- Row 6: the successes where a prediction exists. -/
theorem stat6 :
    dsum (select (k0_pay13 x3) (k0_pay14 (F := Ideal) x5 x3) (broadcast S256x31 (Scalar.ofBits .f32 0x00000000#32)))
        (ix2 (0 : Fin 1) (0 : Fin 1))
      = ∑ p : Fin 256, ∑ j : Fin 31, (bentry x0 x1 x2 x3 x4 x5 p j).term ⟨6, by decide⟩ := by
  refine (dsum_apply _).trans ?_
  refine Finset.sum_congr rfl fun p _ => Finset.sum_congr rfl fun j _ => ?_
  refine (select_apply _ _ _ _).trans ?_
  refine (select_ne (x3 (ix2 p j)) 4294967295#32 _ _).trans ?_
  exact if_congr Iff.rfl Ideal.ofBits_zero_f32 (pay14_apply x5 x3 (ix2 p j))

end Stats

/-! ## The eight rows stacked, and the step -/

section Concat
variable {α : Type}

/-- The row index of a stacked 1 x 128 piece: off the stacking axis the coordinates agree. -/
theorem concat_row_idx (r : Fin 8) (l : Fin 128) (hr : S1x128.rank = S8x128.rank) :
    ∀ b : Fin S1x128.rank, b.cast hr ≠ (0 : Fin S8x128.rank) →
      ((ix2 (0 : Fin 1) l : S1x128.Idx) b).val = ((ix2 r l : S8x128.Idx) (b.cast hr)).val :=
  fun b hb => match b with
    | ⟨0, _⟩ => absurd rfl hb
    | ⟨1, _⟩ => rfl

/-- Eight 1 x 128 rows stacked along axis 0 read, at (r, l), row r at (0, l). -/
theorem concat8_apply (a0 a1 a2 a3 a4 a5 a6 a7 : S1x128.Idx → α)
    (h : Shape.Concatenates (([⟨S1x128, a0⟩, ⟨S1x128, a1⟩, ⟨S1x128, a2⟩, ⟨S1x128, a3⟩, ⟨S1x128, a4⟩, ⟨S1x128, a5⟩,
      ⟨S1x128, a6⟩, ⟨S1x128, a7⟩] : List ((s : Shape) × (s.Idx → α))).map (·.1)) S8x128 0)
    (r : Fin 8) (l : Fin 128) :
    concatenate S8x128 0 [⟨S1x128, a0⟩, ⟨S1x128, a1⟩, ⟨S1x128, a2⟩, ⟨S1x128, a3⟩, ⟨S1x128, a4⟩, ⟨S1x128, a5⟩,
        ⟨S1x128, a6⟩, ⟨S1x128, a7⟩] h (ix2 r l)
      = (match r with
          | ⟨0, _⟩ => a0 | ⟨1, _⟩ => a1 | ⟨2, _⟩ => a2 | ⟨3, _⟩ => a3
          | ⟨4, _⟩ => a4 | ⟨5, _⟩ => a5 | ⟨6, _⟩ => a6 | ⟨_ + 7, _⟩ => a7) (ix2 (0 : Fin 1) l) := by
  match r with
  | ⟨0, _⟩ =>
    exact concatenate_apply_piece (0 : Fin S8x128.rank) _ h _ 0 (show (0 : ℕ) < 8 by omega) S1x128 a0 rfl rfl 0 rfl
      (ix2 (0 : Fin 1) l) (concat_row_idx _ l rfl) rfl
  | ⟨1, _⟩ =>
    exact concatenate_apply_piece (0 : Fin S8x128.rank) _ h _ 1 (show (1 : ℕ) < 8 by omega) S1x128 a1 rfl rfl 1 rfl
      (ix2 (0 : Fin 1) l) (concat_row_idx _ l rfl) rfl
  | ⟨2, _⟩ =>
    exact concatenate_apply_piece (0 : Fin S8x128.rank) _ h _ 2 (show (2 : ℕ) < 8 by omega) S1x128 a2 rfl rfl 2 rfl
      (ix2 (0 : Fin 1) l) (concat_row_idx _ l rfl) rfl
  | ⟨3, _⟩ =>
    exact concatenate_apply_piece (0 : Fin S8x128.rank) _ h _ 3 (show (3 : ℕ) < 8 by omega) S1x128 a3 rfl rfl 3 rfl
      (ix2 (0 : Fin 1) l) (concat_row_idx _ l rfl) rfl
  | ⟨4, _⟩ =>
    exact concatenate_apply_piece (0 : Fin S8x128.rank) _ h _ 4 (show (4 : ℕ) < 8 by omega) S1x128 a4 rfl rfl 4 rfl
      (ix2 (0 : Fin 1) l) (concat_row_idx _ l rfl) rfl
  | ⟨5, _⟩ =>
    exact concatenate_apply_piece (0 : Fin S8x128.rank) _ h _ 5 (show (5 : ℕ) < 8 by omega) S1x128 a5 rfl rfl 5 rfl
      (ix2 (0 : Fin 1) l) (concat_row_idx _ l rfl) rfl
  | ⟨6, _⟩ =>
    exact concatenate_apply_piece (0 : Fin S8x128.rank) _ h _ 6 (show (6 : ℕ) < 8 by omega) S1x128 a6 rfl rfl 6 rfl
      (ix2 (0 : Fin 1) l) (concat_row_idx _ l rfl) rfl
  | ⟨7, _⟩ =>
    exact concatenate_apply_piece (0 : Fin S8x128.rank) _ h _ 7 (show (7 : ℕ) < 8 by omega) S1x128 a7 rfl rfl 7 rfl
      (ix2 (0 : Fin 1) l) (concat_row_idx _ l rfl) rfl
  | ⟨n + 8, hn⟩ => exact absurd hn (by omega)

end Concat

/-- What row r of the step adds in its lane, over the body's intermediate vectors: four statistics arrive summed, three
    are summed here, and the last row adds nothing. -/
def rowStat (v55 v57 : IVec S256x31 1) (v60 : FVec Ideal S256x31 .f32) (v64 v68 v74 v80 : FVec Ideal S1x1 .f32)
    (r : Fin 8) : EReal :=
  match r with
  | ⟨0, _⟩ => v64 (ix2 (0 : Fin 1) (0 : Fin 1))
  | ⟨1, _⟩ => v68 (ix2 (0 : Fin 1) (0 : Fin 1))
  | ⟨2, _⟩ => v74 (ix2 (0 : Fin 1) (0 : Fin 1))
  | ⟨3, _⟩ => v80 (ix2 (0 : Fin 1) (0 : Fin 1))
  | ⟨4, _⟩ => dsum (select v55 v60 (broadcast S256x31 (Scalar.ofBits .f32 0x00000000#32))) (ix2 (0 : Fin 1) (0 : Fin 1))
  | ⟨5, _⟩ => dsum (sitofp (F := Ideal) .f32 (extui 32 v55 natLt_1_32)) (ix2 (0 : Fin 1) (0 : Fin 1))
  | ⟨6, _⟩ => dsum (select v57 v60 (broadcast S256x31 (Scalar.ofBits .f32 0x00000000#32))) (ix2 (0 : Fin 1) (0 : Fin 1))
  | ⟨_ + 7, _⟩ => 0

/-- The accumulator update at (r, l): the previous contents plus row r's statistic in the step's lane. -/
theorem pay19_apply (i1 : Fin 256) (v55 v57 : IVec S256x31 1) (v60 : FVec Ideal S256x31 .f32)
    (v64 v68 v74 v80 : FVec Ideal S1x1 .f32) (prev : Vec Ideal S1x8x128 .f32) (r : Fin 8) (l : Fin 128) :
    k0_pay19 (F := Ideal) (BitVec.ofNat 32 i1.val) v55 v57 v60 v64 v68 v74 v80 (Scalar.ofBits .f32 0x00000000#32) prev
        (ix2 r l)
      = prev (ix3 (0 : Fin 1) r l)
        + rowStat v55 v57 v60 v64 v68 v74 v80 r * (if l.val = i1.val % 128 then 1 else 0) := by
  unfold k0_pay19
  refine (addf_apply _ _ _).trans ?_
  refine congrArg₂ (· + ·) (shapeCast_1ab_ab_apply prev shapeCasts_S1x8x128_S8x128 r l) ?_
  refine (concat8_apply _ _ _ _ _ _ _ _ _ r l).trans ?_
  match r with
  | ⟨0, _⟩ =>
    exact (mulf_apply _ _ _).trans
      (congrArg₂ (· * ·) (broadcastTo_11_1n_apply v64 broadcasts_S1x1_S1x128 0 l) (hot_apply i1 0 l))
  | ⟨1, _⟩ =>
    exact (mulf_apply _ _ _).trans
      (congrArg₂ (· * ·) (broadcastTo_11_1n_apply v68 broadcasts_S1x1_S1x128 0 l) (hot_apply i1 0 l))
  | ⟨2, _⟩ =>
    exact (mulf_apply _ _ _).trans
      (congrArg₂ (· * ·) (broadcastTo_11_1n_apply v74 broadcasts_S1x1_S1x128 0 l) (hot_apply i1 0 l))
  | ⟨3, _⟩ =>
    exact (mulf_apply _ _ _).trans
      (congrArg₂ (· * ·) (broadcastTo_11_1n_apply v80 broadcasts_S1x1_S1x128 0 l) (hot_apply i1 0 l))
  | ⟨4, _⟩ =>
    exact (mulf_apply _ _ _).trans
      (congrArg₂ (· * ·) (broadcastTo_11_1n_apply _ broadcasts_S1x1_S1x128 0 l) (hot_apply i1 0 l))
  | ⟨5, _⟩ =>
    exact (mulf_apply _ _ _).trans
      (congrArg₂ (· * ·) (broadcastTo_11_1n_apply _ broadcasts_S1x1_S1x128 0 l) (hot_apply i1 0 l))
  | ⟨6, _⟩ =>
    exact (mulf_apply _ _ _).trans
      (congrArg₂ (· * ·) (broadcastTo_11_1n_apply _ broadcasts_S1x1_S1x128 0 l) (hot_apply i1 0 l))
  | ⟨7, _⟩ => exact Ideal.ofBits_zero_f32.trans (zero_mul _).symm
  | ⟨n + 8, hn⟩ => exact absurd hn (by omega)

/-- Over the step's blocks, row r's statistic is the block's share of statistic r. -/
theorem rowStat_eq (x0 : Vec Ideal S256x32x32 .f32) (x1 : Vec Ideal S256x31 .f32) (x2 : Vec Ideal S256x31x3 .f32)
    (x3 : Vec Ideal S256x31 .i32) (x4 : Vec Ideal S256x31x7 .f32) (x5 : Vec Ideal S256x31 .i32)
    (hr : ∀ (p : Fin 256) (j : Fin 31), InRange (x5 (ix2 p j))) (r : Fin 8) :
    rowStat (k0_pay12 (k0_pay3 (F := Ideal) x5)) (k0_pay13 (k0_pay4 (F := Ideal) x3))
        (k0_pay14 (k0_pay3 (F := Ideal) x5) (k0_pay4 (F := Ideal) x3)) (k0_pay15 (k0_pay6 x5 x0))
        (k0_pay16 x2 (k0_pay7 x4) (k0_pay8 x2 x4) (k0_pay9 x2) (k0_pay10 x4))
        (k0_pay17 (k0_pay4 (F := Ideal) x3) (k0_pay5 x1) x2 (k0_pay7 x4) (k0_pay8 x2 x4) (k0_pay9 x2) (k0_pay10 x4))
        (k0_pay18 (k0_pay4 (F := Ideal) x3)) r
      = bstat x0 x1 x2 x3 x4 x5 r := by
  rw [pay3_eq, pay4_eq, pay5_eq, pay7_eq]
  match r with
  | ⟨0, _⟩ => exact stat0 x0 x1 x2 x3 x4 x5 hr
  | ⟨1, _⟩ => exact stat1 x0 x1 x2 x3 x4 x5
  | ⟨2, _⟩ => exact stat2 x0 x1 x2 x3 x4 x5
  | ⟨3, _⟩ => exact stat3 x0 x1 x2 x3 x4 x5
  | ⟨4, _⟩ => exact stat4 x0 x1 x2 x3 x4 x5
  | ⟨5, _⟩ => exact stat5 x0 x1 x2 x3 x4 x5
  | ⟨6, _⟩ => exact stat6 x0 x1 x2 x3 x4 x5
  | ⟨7, _⟩ => exact (Finset.sum_eq_zero fun p _ => Finset.sum_eq_zero fun j _ => rfl).symm
  | ⟨n + 8, hn⟩ => exact absurd hn (by omega)

end Step

open Step

/-- The zero block is zero everywhere. -/
theorem zeroBlk_apply (r : Fin 8) (l : Fin 128) : (zeroBlk (F := Ideal)) (ix3 (0 : Fin 1) r l) = 0 := by
  unfold zeroBlk k0_pay2
  refine (shapeCast_ab_1ab_apply _ shapeCasts_S8x128_S1x8x128 (0 : Fin 1) r l).trans ?_
  exact Ideal.ofBits_zero_f32

/-- THE STEP AT AN INDEX. -/
theorem stepVal_apply (i1 : Fin 256) (x0 : Vec Ideal S256x32x32 .f32) (x1 : Vec Ideal S256x31 .f32)
    (x2 : Vec Ideal S256x31x3 .f32) (x3 : Vec Ideal S256x31 .i32) (x4 : Vec Ideal S256x31x7 .f32)
    (x5 : Vec Ideal S256x31 .i32) (prev : Vec Ideal S1x8x128 .f32)
    (hr : ∀ (p : Fin 256) (j : Fin 31), InRange (x5 (ix2 p j))) (r : Fin 8) (l : Fin 128) :
    stepVal (F := Ideal) (BitVec.ofNat 32 i1.val) x0 x1 x2 x3 x4 x5 prev (ix3 (0 : Fin 1) r l)
      = prev (ix3 (0 : Fin 1) r l) + bstat x0 x1 x2 x3 x4 x5 r * (if l.val = i1.val % 128 then 1 else 0) := by
  unfold stepVal k0_pay1
  refine (shapeCast_ab_1ab_apply _ shapeCasts_S8x128_S1x8x128 (0 : Fin 1) r l).trans ?_
  refine (pay19_apply i1 _ _ _ _ _ _ _ prev r l).trans ?_
  exact congrArg (fun s => prev (ix3 (0 : Fin 1) r l) + s * (if l.val = i1.val % 128 then 1 else 0))
    (rowStat_eq x0 x1 x2 x3 x4 x5 hr r)

end Cert.SetLoss.K

end
-- ==== Proof.KBlocks.lean ====
/-
  The six input blocks of grid point `t` on core `c`, each named at its literal shape: 256 consecutive groups of
  the scores, variances, positions, predicted indices, poses and labels, as the region finds those arrays.
  Point `t` (0 … 511) handles groups 256·t … 256·t + 255.
-/
import proofs.«403313_j30760555773959_3_alg».proof.Proof.Spec
import proofs.«403313_j30760555773959_3_alg».proof.Proof.Gen.KernelIdeal.Frame

noncomputable section

namespace Cert.SetLoss.K

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

abbrev xb0 (c : Dev nD) (t : Fin cfg0.N) : Vec F S256x32x32 .f32 := iblk m c 0 t
abbrev xb1 (c : Dev nD) (t : Fin cfg0.N) : Vec F S256x31 .f32 := iblk m c 1 t
abbrev xb2 (c : Dev nD) (t : Fin cfg0.N) : Vec F S256x31x3 .f32 := iblk m c 2 t
abbrev xb3 (c : Dev nD) (t : Fin cfg0.N) : Vec F S256x31 .i32 := iblk m c 3 t
abbrev xb4 (c : Dev nD) (t : Fin cfg0.N) : Vec F S256x31x7 .f32 := iblk m c 4 t
abbrev xb5 (c : Dev nD) (t : Fin cfg0.N) : Vec F S256x31 .i32 := iblk m c 5 t

/-- The group that row `p` of point `t`'s blocks holds. -/
def gidx (t : Fin cfg0.N) (p : Fin 256) : Fin 131072 :=
  ⟨t.val * 256 + p.val, by have h1 := t.isLt; have h2 : cfg0.N = 512 := N_0; have := p.isLt; omega⟩

end Cert.SetLoss.K

end
-- ==== Proof.KIn.lean ====
/-
  The blocks are pieces of the arrays. Entry (p, j) of point t's six blocks is entry (256·t + p, j) of the argument
  arrays: each window's block index at point t is t along the group axis and 0 elsewhere, and the three arrays the
  kernel receives reshaped (variances, predicted indices and labels without their unit axis, poses regrouped as
  (group, detection, 7)) hold the argument's element at the same row-major position.
-/
import proofs.«403313_j30760555773959_3_alg».proof.Proof.KBlocks
import Idealize.ShloMosaic.Lib.Pipeline.Value

noncomputable section

open scoped BigOperators

namespace Cert.SetLoss.K

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## A reshape read at coordinates

The three reshapes drop a unit axis or regroup the flattened (group, detection) row; each keeps the row-major
position, so the element at (b, j[, k]) of the result is the element of the operand at the coordinates with the
same position. -/

section Reshapes
variable {α : Type}

/-- [131072, 31, 1] read as [131072, 31]: the unit axis dropped. -/
theorem dropUnit_at (x : S131072x31x1.Idx → α) (h : S131072x31x1.ShapeCasts S131072x31) (b : Fin 131072) (j : Fin 31)
    (y : S131072x31.Idx) (h0 : (y 0).val = b.val) (h1 : (y 1).val = j.val) :
    shapeCast S131072x31 x h y = x (ix3 b j (0 : Fin 1)) := by
  refine shapeCast_apply x h y _ ?_
  rw [Shape.rowMajor_val_three, Shape.rowMajor_val_two]
  show (b.val * 31 + j.val) * 1 + 0 = (y 0).val * 31 + (y 1).val
  rw [h0, h1]; omega

/-- [4063232, 1] read as [131072, 31]: row b·31 + j of the flattened array. -/
theorem flat1_at (x : S4063232x1.Idx → α) (h : S4063232x1.ShapeCasts S131072x31) (b : Fin 131072) (j : Fin 31)
    (y : S131072x31.Idx) (h0 : (y 0).val = b.val) (h1 : (y 1).val = j.val) :
    shapeCast S131072x31 x h y = x (ix2 (rowOf b j) (0 : Fin 1)) := by
  refine shapeCast_apply x h y _ ?_
  rw [Shape.rowMajor_val_two, Shape.rowMajor_val_two]
  show (b.val * 31 + j.val) * 1 + 0 = (y 0).val * 31 + (y 1).val
  rw [h0, h1]; omega

/-- [4063232, 7] read as [131072, 31, 7]: row b·31 + j of the flattened array, the last axis kept. -/
theorem flat7_at (x : S4063232x7.Idx → α) (h : S4063232x7.ShapeCasts S131072x31x7) (b : Fin 131072) (j : Fin 31) (k : Fin 7)
    (y : S131072x31x7.Idx) (h0 : (y 0).val = b.val) (h1 : (y 1).val = j.val) (h2 : (y 2).val = k.val) :
    shapeCast S131072x31x7 x h y = x (ix2 (rowOf b j) k) := by
  refine shapeCast_apply x h y _ ?_
  rw [Shape.rowMajor_val_two, Shape.rowMajor_val_three]
  show (b.val * 31 + j.val) * 7 + k.val = ((y 0).val * 31 + (y 1).val) * 7 + (y 2).val
  rw [h0, h1, h2]

end Reshapes

/-! ## The four reshaped arrays as the region finds them -/

theorem V_v0 (c : Dev nD) : (V m c main_v0 : S131072x31x7.Idx → EReal)
    = shapeCast S131072x31x7 (m ((c.tc : Thread nD τ).loc main_arg3) : S4063232x7.Idx → EReal) Facts₀.shapeCasts_S4063232x7_S131072x31x7 := by
  dsimp only [Gen.V, Gen.V0]
  simp only [hostOps0, List.flatten_cons, List.flatten_nil, List.append_nil]
  after_results
  rfl

theorem V_v1 (c : Dev nD) : (V m c main_v1 : S131072x31.Idx → BitVec 32)
    = shapeCast S131072x31 (m ((c.tc : Thread nD τ).loc main_arg5) : S4063232x1.Idx → BitVec 32) Facts₀.shapeCasts_S4063232x1_S131072x31 := by
  dsimp only [Gen.V, Gen.V0]
  simp only [hostOps0, List.flatten_cons, List.flatten_nil, List.append_nil]
  after_results
  rfl

theorem V_v2 (c : Dev nD) : (V m c main_v2 : S131072x31.Idx → BitVec 32)
    = shapeCast S131072x31 (m ((c.tc : Thread nD τ).loc main_arg4) : S131072x31x1.Idx → BitVec 32) Facts₀.shapeCasts_S131072x31x1_S131072x31 := by
  dsimp only [Gen.V, Gen.V0]
  simp only [hostOps0, List.flatten_cons, List.flatten_nil, List.append_nil]
  after_results
  rfl

theorem V_v3 (c : Dev nD) : (V m c main_v3 : S131072x31.Idx → EReal)
    = shapeCast S131072x31 (m ((c.tc : Thread nD τ).loc main_arg1) : S131072x31x1.Idx → EReal) Facts₀.shapeCasts_S131072x31x1_S131072x31 := by
  dsimp only [Gen.V, Gen.V0]
  simp only [hostOps0, List.flatten_cons, List.flatten_nil, List.append_nil]
  after_results
  rfl

/-! ## The windows' block indices over the grid: point t's block is block t along the group axis -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-! ## Each block read at coordinates: element (p, …) of point t's block is element (256·t + p, …) of the array -/

/-- Scores. -/
theorem xb0_at (c : Dev nD) (t : Fin cfg0.N) (p : Fin 256) (r : Fin 32) (l : Fin 32) :
    xb0 m c t (ix3 p r l) = m ((c.tc : Thread nD τ).loc main_arg0) (ix3 (gidx t p) r l) := by
  have hi := idx0 t
  rw [← V_main_arg0 m c]
  show iblk m c 0 t (ix3 p r l) = _
  unfold iblk
  rw [View.read_apply]
  show V m c main_arg0 _ = V m c main_arg0 _
  congr 1
  funext a
  apply Fin.ext
  match a with
  | ⟨0, _⟩ => show win0_0.index t 0 * 256 + 1 * p.val = t.val * 256 + p.val; rw [hi.1]; omega
  | ⟨1, _⟩ => show win0_0.index t 1 * 32 + 1 * r.val = r.val; rw [hi.2.1]; omega
  | ⟨2, _⟩ => show win0_0.index t 2 * 32 + 1 * l.val = l.val; rw [hi.2.2]; omega

/-- Variances. -/
theorem xb1_at (c : Dev nD) (t : Fin cfg0.N) (p : Fin 256) (j : Fin 31) :
    xb1 m c t (ix2 p j) = m ((c.tc : Thread nD τ).loc main_arg1) (ix3 (gidx t p) j (0 : Fin 1)) := by
  have hi := idx1 t
  have e := V_v3 m c
  show iblk m c 1 t (ix2 p j) = _
  unfold iblk
  rw [View.read_apply]
  show V m c main_v3 _ = _
  rw [e]
  refine dropUnit_at _ _ (gidx t p) j _ ?_ ?_
  · show win0_1.index t 0 * 256 + 1 * p.val = t.val * 256 + p.val; rw [hi.1]; omega
  · show win0_1.index t 1 * 31 + 1 * j.val = j.val; rw [hi.2]; omega

/-- Positions. -/
theorem xb2_at (c : Dev nD) (t : Fin cfg0.N) (p : Fin 256) (j : Fin 31) (k : Fin 3) :
    xb2 m c t (ix3 p j k) = m ((c.tc : Thread nD τ).loc main_arg2) (ix3 (gidx t p) j k) := by
  have hi := idx2 t
  rw [← V_main_arg2 m c]
  show iblk m c 2 t (ix3 p j k) = _
  unfold iblk
  rw [View.read_apply]
  show V m c main_arg2 _ = V m c main_arg2 _
  congr 1
  funext a
  apply Fin.ext
  match a with
  | ⟨0, _⟩ => show win0_2.index t 0 * 256 + 1 * p.val = t.val * 256 + p.val; rw [hi.1]; omega
  | ⟨1, _⟩ => show win0_2.index t 1 * 31 + 1 * j.val = j.val; rw [hi.2.1]; omega
  | ⟨2, _⟩ => show win0_2.index t 2 * 3 + 1 * k.val = k.val; rw [hi.2.2]; omega

/-- Predicted indices. -/
theorem xb3_at (c : Dev nD) (t : Fin cfg0.N) (p : Fin 256) (j : Fin 31) :
    xb3 m c t (ix2 p j) = m ((c.tc : Thread nD τ).loc main_arg4) (ix3 (gidx t p) j (0 : Fin 1)) := by
  have hi := idx3 t
  have e := V_v2 m c
  show iblk m c 3 t (ix2 p j) = _
  unfold iblk
  rw [View.read_apply]
  show V m c main_v2 _ = _
  rw [e]
  refine dropUnit_at _ _ (gidx t p) j _ ?_ ?_
  · show win0_3.index t 0 * 256 + 1 * p.val = t.val * 256 + p.val; rw [hi.1]; omega
  · show win0_3.index t 1 * 31 + 1 * j.val = j.val; rw [hi.2]; omega

/-- Poses. -/
theorem xb4_at (c : Dev nD) (t : Fin cfg0.N) (p : Fin 256) (j : Fin 31) (k : Fin 7) :
    xb4 m c t (ix3 p j k) = m ((c.tc : Thread nD τ).loc main_arg3) (ix2 (rowOf (gidx t p) j) k) := by
  have hi := idx4 t
  have e := V_v0 m c
  show iblk m c 4 t (ix3 p j k) = _
  unfold iblk
  rw [View.read_apply]
  show V m c main_v0 _ = _
  rw [e]
  refine flat7_at _ _ (gidx t p) j k _ ?_ ?_ ?_
  · show win0_4.index t 0 * 256 + 1 * p.val = t.val * 256 + p.val; rw [hi.1]; omega
  · show win0_4.index t 1 * 31 + 1 * j.val = j.val; rw [hi.2.1]; omega
  · show win0_4.index t 2 * 7 + 1 * k.val = k.val; rw [hi.2.2]; omega

/-- Labels. -/
theorem xb5_at (c : Dev nD) (t : Fin cfg0.N) (p : Fin 256) (j : Fin 31) :
    xb5 m c t (ix2 p j) = m ((c.tc : Thread nD τ).loc main_arg5) (ix2 (rowOf (gidx t p) j) (0 : Fin 1)) := by
  have hi := idx5 t
  have e := V_v1 m c
  show iblk m c 5 t (ix2 p j) = _
  unfold iblk
  rw [View.read_apply]
  show V m c main_v1 _ = _
  rw [e]
  refine flat1_at _ _ (gidx t p) j _ ?_ ?_
  · show win0_5.index t 0 * 256 + 1 * p.val = t.val * 256 + p.val; rw [hi.1]; omega
  · show win0_5.index t 1 * 31 + 1 * j.val = j.val; rw [hi.2]; omega

/-- Two entries with the same ten fields are the same entry. -/
theorem entry_ext {e e' : Entry} (h0 : e.row = e'.row) (h1 : e.cv = e'.cv) (h2 : e.p0 = e'.p0) (h3 : e.p1 = e'.p1)
    (h4 : e.p2 = e'.p2) (h5 : e.q0 = e'.q0) (h6 : e.q1 = e'.q1) (h7 : e.q2 = e'.q2) (h8 : e.iw = e'.iw)
    (h9 : e.mw = e'.mw) : e = e' := by
  cases e; cases e'
  simp only [Entry.mk.injEq]
  exact ⟨h0, h1, h2, h3, h4, h5, h6, h7, h8, h9⟩

/-- THE BLOCKS' ENTRIES ARE THE ARRAYS' ENTRIES. -/
theorem bentry_xb (c : Dev nD) (t : Fin cfg0.N) (p : Fin 256) (j : Fin 31) :
    bentry (xb0 m c t) (xb1 m c t) (xb2 m c t) (xb3 m c t) (xb4 m c t) (xb5 m c t) p j
      = entryAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (gidx t p) j :=
  entry_ext (funext fun l => xb0_at m c t p _ l) (xb1_at m c t p j) (xb2_at m c t p j 0) (xb2_at m c t p j 1)
    (xb2_at m c t p j 2) (xb4_at m c t p j 0) (xb4_at m c t p j 1) (xb4_at m c t p j 2) (xb3_at m c t p j) (xb5_at m c t p j)

end Cert.SetLoss.K

end
-- ==== Proof.Sums.lean ====
/-
  Regrouping sums. All statements are rearrangements of finite sums in a commutative monoid, so they hold for the
  extended reals with no finiteness assumption.
  - An accumulator that is reset at every multiple of 256 and otherwise adds holds, i steps after a reset, the sum of
    the i + 1 summands since the reset.
  - Spreading each step's value into lane (step mod 128) of a 128-lane accumulator and then summing all lanes of
    both cores' accumulators gives the plain sum over all 512 steps.
  - 512 blocks of 256 groups are the 131072 groups; 131072 groups of 31 detections are the 4063232 rows.
-/
import proofs.«403313_j30760555773959_3_alg».proof.Proof.Spec

noncomputable section

open scoped BigOperators

namespace Cert.SetLoss.Sums

open Idealize.ShloMosaic

/-- An accumulator reset at the multiples of 256: after step `c'·256 + i` it holds the summands of steps
    `c'·256 … c'·256 + i`. -/
theorem acc_closed (g a : ℕ → EReal) (h0 : a 0 = 0 + g 0)
    (hs : ∀ n, a (n + 1) = if (n + 1) % 256 = 0 then 0 + g (n + 1) else a n + g (n + 1))
    (c' i : ℕ) (hi : i < 256) : a (c' * 256 + i) = ∑ i' ∈ Finset.range (i + 1), g (c' * 256 + i') := by
  induction i with
  | zero =>
    -- the first step of a block: the accumulator was just reset, so it holds the single summand g (c'·256)
    rw [Finset.sum_range_one]
    have hreset : a (c' * 256 + 0) = 0 + g (c' * 256 + 0) := by
      cases c' with
      | zero => simpa using h0
      | succ c =>
        have e : (c + 1) * 256 + 0 = (c * 256 + 255) + 1 := by ring
        have hm : ((c * 256 + 255) + 1) % 256 = 0 := by omega
        rw [e, hs, if_pos hm]
    rw [hreset, zero_add]
  | succ i ih =>
    -- a later step of the block is not a multiple of 256, so the accumulator adds the next summand
    have hi' : i < 256 := by omega
    have e : c' * 256 + (i + 1) = (c' * 256 + i) + 1 := by ring
    have hm : ¬ ((c' * 256 + i) + 1) % 256 = 0 := by omega
    rw [Finset.sum_range_succ, ← ih hi', e, hs, if_neg hm]

/-- Summing `x` times the indicator of one lane over all 128 lanes gives `x`. -/
private theorem lane_pick (x : EReal) (k : ℕ) (hk : k < 128) :
    ∑ l : Fin 128, x * (if l.val = k then (1 : EReal) else 0) = x := by
  rw [Fintype.sum_eq_single (⟨k, hk⟩ : Fin 128)]
  · simp
  · intro l hl
    have : ¬ l.val = k := fun h => hl (Fin.ext h)
    rw [if_neg this, mul_zero]

/-- Lane-spread partial sums, summed over cores and lanes, are the sum over all steps. -/
theorem lane_collapse (f : ℕ → EReal) :
    ∑ c' : Fin 2, ∑ l : Fin 128, ∑ i ∈ Finset.range 256,
        f (c'.val * 256 + i) * (if l.val = ((c'.val * 256 + i) % 256) % 128 then (1 : EReal) else 0)
      = ∑ t : Fin 512, f t.val := by
  -- per core: exchange lanes and steps, then each step's value sits in exactly one lane
  have hcore : ∀ c' : Fin 2, ∑ l : Fin 128, ∑ i ∈ Finset.range 256,
        f (c'.val * 256 + i) * (if l.val = ((c'.val * 256 + i) % 256) % 128 then (1 : EReal) else 0)
      = ∑ i ∈ Finset.range 256, f (c'.val * 256 + i) := by
    intro c'
    rw [Finset.sum_comm]
    refine Finset.sum_congr rfl fun i _ => ?_
    exact lane_pick _ _ (Nat.mod_lt _ (by norm_num))
  rw [Fintype.sum_congr _ _ hcore, Fin.sum_univ_two, Fin.sum_univ_eq_sum_range (fun t => f t) 512,
    show (512 : ℕ) = 256 + 256 from rfl, Finset.sum_range_add]
  simp only [Fin.val_zero, Fin.val_one, zero_mul, zero_add, one_mul]

/-- Pairs (a, b) with a < m and b < n enumerate the numbers a·n + b below m·n = N. -/
private theorem sum_pairs {M : Type} [AddCommMonoid M] (m n N : ℕ) (hN : m * n = N) (g : Fin N → M)
    (φ : Fin m → Fin n → Fin N) (hφ : ∀ a b, (φ a b).val = a.val * n + b.val) :
    ∑ a : Fin m, ∑ b : Fin n, g (φ a b) = ∑ x, g x := by
  subst hN
  rw [← Fintype.sum_prod_type']
  refine Fintype.sum_equiv finProdFinEquiv _ _ fun x => congrArg g (Fin.ext ?_)
  rw [hφ, finProdFinEquiv_apply_val, Nat.mul_comm, Nat.add_comm]

/-- 512 blocks of 256 groups are all 131072 groups. -/
theorem blocks_to_groups {M : Type} [AddCommMonoid M] (h : Fin 131072 → M) :
    ∑ t : Fin 512, ∑ p : Fin 256, h ⟨t.val * 256 + p.val, by have := t.isLt; have := p.isLt; omega⟩ = ∑ b, h b :=
  sum_pairs 512 256 131072 (by norm_num) h _ (fun _ _ => rfl)

/-- The 4063232 rows are the (group, detection) pairs. -/
theorem rows_to_groups {M : Type} [AddCommMonoid M] (g : Fin 4063232 → M) :
    ∑ n, g n = ∑ b : Fin 131072, ∑ j : Fin 31, g (rowOf b j) :=
  (sum_pairs 131072 31 4063232 (by norm_num) g rowOf (fun _ _ => rfl)).symm

end Cert.SetLoss.Sums

end
-- ==== Proof.KInv.lean ====
/-
  What the accumulator holds, point by point, and what the result array ends holding.
  Each grid point's body leaves in the accumulator block one step applied to what the block held: at the first point
  of a core (point number divisible by 256) the block is first zeroed, at every other point it carries over from the
  point before. So the block after point n is a recursion on n, and the staging contents the frame run found are that
  recursion. At the extended reals, row r and lane l of the block after point c'·256 + i is the sum over the steps
  c'·256 … c'·256 + i of (statistic r of the step's blocks if l is the step's lane, else 0). The block is written
  back to slab c' of the result array after the core's last point, c'·256 + 255; the two slabs cover the array.
-/
import proofs.«403313_j30760555773959_3_alg».proof.Proof.KStep
import proofs.«403313_j30760555773959_3_alg».proof.Proof.KIn
import proofs.«403313_j30760555773959_3_alg».proof.Proof.Sums
import Idealize.ShloMosaic.Lib.Pipeline.Value
import Idealize.ShloMosaic.PureOps.Ideal.Laws
import Idealize.ShloMosaic.Lib.Tactic

noncomputable section

open scoped BigOperators

namespace Cert.SetLoss.K

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen

section AnyInstance

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not a core's first: the body's one covering store holds one step over the carried contents. -/
theorem out_B (c : Dev nD) (i : grid0.Coords) (a2 : Memref sig .tc .vmem S256x32x32 .f32) (h2 : a2.IsWhole) (a3 : Memref sig .tc .vmem S256x31 .f32) (h3 : a3.IsWhole) (a4 : Memref sig .tc .vmem S256x31x3 .f32) (h4 : a4.IsWhole) (a5 : Memref sig .tc .vmem S256x31 .i32) (h5 : a5.IsWhole) (a6 : Memref sig .tc .vmem S256x31x7 .f32) (h6 : a6.IsWhole) (a7 : Memref sig .tc .vmem S256x31 .i32) (h7 : a7.IsWhole) (a8 : Memref sig .tc .vmem S1x8x128 .f32) (h8 : a8.IsWhole) (hc : ¬cond0_0 i) (x0 : Vec F S256x32x32 .f32) (x1 : Vec F S256x31 .f32) (x2 : Vec F S256x31x3 .f32) (x3 : Vec F S256x31 .i32) (x4 : Vec F S256x31x7 .f32) (x5 : Vec F S256x31 .i32) (xo6 : Vec F S1x8x128 .f32) :
    out0_B_6 c i a2 h2 a3 h3 a4 h4 a5 h5 a6 h6 a7 h7 a8 h8 hc x0 x1 x2 x3 x4 x5 xo6 = stepVal (BitVec.ofNat 32 (i 1).val) x0 x1 x2 x3 x4 x5 xo6 := by
  unfold out0_B_6
  rw [View.read_writes_eq_canon _ _ _ (cover0_B_6 c i a2 h2 a3 h3 a4 h4 a5 h5 a6 h6 a7 h7 a8 h8 hc x0 x1 x2 x3 x4 x5 xo6)]
  unfold kernelRun0_B
  dsimp only
  sl_unfold_words
  rw [View.canon_unit_zero hz3]
  unfold stepVal
  simp only [View.readAt_eq_ld, h2.read_unread, h3.read_unread, h4.read_unread, h5.read_unread, h6.read_unread,
    h7.read_unread, h8.read_unread, View.ld_unit_zero (S := S256x32x32) hz3, View.ld_unit_zero (S := S256x31x3) hz3,
    View.ld_unit_zero (S := S256x31x7) hz3, View.ld_unit_zero (S := S1x8x128) hz3, View.ld_unit_zero (S := S256x31) hz2]

/-- A core's first point: the zero block is stored first, read back, and one step over it is stored. -/
theorem out_A (c : Dev nD) (i : grid0.Coords) (a2 : Memref sig .tc .vmem S256x32x32 .f32) (h2 : a2.IsWhole) (a3 : Memref sig .tc .vmem S256x31 .f32) (h3 : a3.IsWhole) (a4 : Memref sig .tc .vmem S256x31x3 .f32) (h4 : a4.IsWhole) (a5 : Memref sig .tc .vmem S256x31 .i32) (h5 : a5.IsWhole) (a6 : Memref sig .tc .vmem S256x31x7 .f32) (h6 : a6.IsWhole) (a7 : Memref sig .tc .vmem S256x31 .i32) (h7 : a7.IsWhole) (a8 : Memref sig .tc .vmem S1x8x128 .f32) (h8 : a8.IsWhole) (hc : cond0_0 i) (x0 : Vec F S256x32x32 .f32) (x1 : Vec F S256x31 .f32) (x2 : Vec F S256x31x3 .f32) (x3 : Vec F S256x31 .i32) (x4 : Vec F S256x31x7 .f32) (x5 : Vec F S256x31 .i32) :
    out0_A_6 c i a2 h2 a3 h3 a4 h4 a5 h5 a6 h6 a7 h7 a8 h8 hc x0 x1 x2 x3 x4 x5 = stepVal (BitVec.ofNat 32 (i 1).val) x0 x1 x2 x3 x4 x5 zeroBlk := by
  unfold out0_A_6
  rw [View.read_writes_eq_canon _ _ _ (cover0_A_6 c i a2 h2 a3 h3 a4 h4 a5 h5 a6 h6 a7 h7 a8 h8 hc x0 x1 x2 x3 x4 x5)]
  unfold kernelRun0_A
  dsimp only
  sl_unfold_words
  rw [View.canon_cons_unit_zero (S := S1x8x128) hz3, View.readCov_unit_zero (S := S1x8x128) _ hz3]
  unfold stepVal
  simp only [View.readAt_eq_ld, h2.read_unread, h3.read_unread, h4.read_unread, h5.read_unread, h6.read_unread,
    h7.read_unread, View.ld_unit_zero (S := S256x32x32) hz3, View.ld_unit_zero (S := S256x31x3) hz3,
    View.ld_unit_zero (S := S256x31x7) hz3, View.ld_unit_zero (S := S256x31) hz2]

variable (m : (ℓ : Loc nD τ sig) → Buf (Elt F) ℓ)

/-- One step at point `t`, on the point's blocks, over `prev`. -/
def stepAt (c : Dev nD) (t : Fin cfg0.N) (prev : Vec F S1x8x128 .f32) : Vec F S1x8x128 .f32 :=
  stepVal (BitVec.ofNat 32 ((grid0.coords t) 1).val) (xb0 m c t) (xb1 m c t) (xb2 m c t) (xb3 m c t) (xb4 m c t) (xb5 m c t) prev

/-- The accumulator block after point `n`: reset at the multiples of 256, carried otherwise. -/
def acc (c : Dev nD) : (n : ℕ) → n < cfg0.N → Vec F S1x8x128 .f32
  | 0, h => stepAt m c ⟨0, h⟩ zeroBlk
  | n + 1, h =>
    if (n + 1) % 256 = 0 then stepAt m c ⟨n + 1, h⟩ zeroBlk
    else stepAt m c ⟨n + 1, h⟩ (acc c n (Nat.lt_of_succ_lt h))

/-- The staging contents the frame run found are that recursion. -/
theorem outsAt_eq (c : Dev nD) : ∀ (n : ℕ) (h : n < cfg0.N), outsAt0 m c n h = acc m c n h
  | 0, h =>
    (outsAt0_A m c ⟨0, h⟩ (Nat.zero_mod _)).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr (Nat.zero_mod _)) (xb0 m c ⟨0, h⟩) (xb1 m c ⟨0, h⟩) (xb2 m c ⟨0, h⟩) (xb3 m c ⟨0, h⟩) (xb4 m c ⟨0, h⟩) (xb5 m c ⟨0, h⟩))
  | n + 1, h => by
    by_cases h0 : (n + 1) % 256 = 0
    · refine (outsAt0_A m c ⟨n + 1, h⟩ h0).trans ?_
      refine (out_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) ((hcond0_0 ⟨n + 1, h⟩).mpr h0) (xb0 m c ⟨n + 1, h⟩) (xb1 m c ⟨n + 1, h⟩) (xb2 m c ⟨n + 1, h⟩) (xb3 m c ⟨n + 1, h⟩) (xb4 m c ⟨n + 1, h⟩) (xb5 m c ⟨n + 1, h⟩)).trans ?_
      show stepAt m c ⟨n + 1, h⟩ zeroBlk = acc m c (n + 1) h
      rw [acc, if_pos h0]
    · refine (outsAt0_B m c ⟨n + 1, h⟩ h0).trans ?_
      refine (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => h0 ((hcond0_0 ⟨n + 1, h⟩).mp hh)) (xb0 m c ⟨n + 1, h⟩) (xb1 m c ⟨n + 1, h⟩) (xb2 m c ⟨n + 1, h⟩) (xb3 m c ⟨n + 1, h⟩) (xb4 m c ⟨n + 1, h⟩) (xb5 m c ⟨n + 1, h⟩) _).trans ?_
      show stepAt m c ⟨n + 1, h⟩ (outsAt0 m c n _) = acc m c (n + 1) h
      rw [outsAt_eq c n, acc, if_neg h0]

end AnyInstance

section AtIdeal

variable (m : (ℓ : Loc nD τ sig) → Buf (Elt Ideal) ℓ) (c : Dev nD)

/-- The grid's second coordinate at point `t` is `t mod 256` (the grid is 2 x 256, row-major). -/
theorem coord1 : ∀ t : Fin cfg0.N, ((grid0.coords t) 1).val = t.val % 256 :=
  (by decide +kernel : ∀ t : Fin grid0.N, ((grid0.coords t) 1).val = t.val % 256)

/-- The label words of a block are label words of the array, so in range when those are. -/
theorem block_range (hr : ∀ n : Fin 4063232, InRange (m ((c.tc : Thread nD τ).loc main_arg5) (ix2 n (0 : Fin 1))))
    (t : Fin cfg0.N) (p : Fin 256) (j : Fin 31) : InRange (xb5 m c t (ix2 p j)) := by
  have e : xb5 m c t (ix2 p j) = m ((c.tc : Thread nD τ).loc main_arg5) (ix2 (rowOf (gidx t p) j) (0 : Fin 1)) :=
    congrArg Entry.mw (bentry_xb m c t p j)
  rw [e]
  exact hr _

/-- Statistic `r` of the blocks of point `s` (0 past the grid). -/
def fS (r : Fin 8) (s : ℕ) : EReal :=
  if hs : s < cfg0.N then bstat (xb0 m c ⟨s, hs⟩) (xb1 m c ⟨s, hs⟩) (xb2 m c ⟨s, hs⟩) (xb3 m c ⟨s, hs⟩) (xb4 m c ⟨s, hs⟩) (xb5 m c ⟨s, hs⟩) r else 0

/-- What step `s` adds to row `r`, lane `l`: the statistic in the step's lane, nothing elsewhere. -/
def gS (r : Fin 8) (l : Fin 128) (s : ℕ) : EReal :=
  fS m c r s * (if l.val = (s % 256) % 128 then (1 : EReal) else 0)

/-- Row `r`, lane `l` of the accumulator block after point `s` (0 past the grid). -/
def aS (r : Fin 8) (l : Fin 128) (s : ℕ) : EReal :=
  if hs : s < cfg0.N then acc m c s hs (ix3 (0 : Fin 1) r l) else 0

/-- One step at an index. -/
theorem stepAt_apply (hr : ∀ n : Fin 4063232, InRange (m ((c.tc : Thread nD τ).loc main_arg5) (ix2 n (0 : Fin 1))))
    (t : Fin cfg0.N) (prev : Vec Ideal S1x8x128 .f32) (r : Fin 8) (l : Fin 128) :
    stepAt m c t prev (ix3 (0 : Fin 1) r l) = prev (ix3 (0 : Fin 1) r l) + gS m c r l t.val := by
  have hlt : t.val % 256 < 256 := Nat.mod_lt _ (by decide)
  unfold stepAt
  rw [coord1 t]
  refine (stepVal_apply ⟨t.val % 256, hlt⟩ (xb0 m c t) (xb1 m c t) (xb2 m c t) (xb3 m c t) (xb4 m c t) (xb5 m c t) prev (block_range m c hr t) r l).trans ?_
  unfold gS fS
  rw [dif_pos t.isLt]

theorem N_pos : 0 < cfg0.N := by rw [show cfg0.N = 512 from N_0]; decide

theorem aS_zero (hr : ∀ n : Fin 4063232, InRange (m ((c.tc : Thread nD τ).loc main_arg5) (ix2 n (0 : Fin 1))))
    (r : Fin 8) (l : Fin 128) : aS m c r l 0 = 0 + gS m c r l 0 := by
  unfold aS
  rw [dif_pos N_pos]
  show stepAt m c ⟨0, N_pos⟩ zeroBlk (ix3 (0 : Fin 1) r l) = _
  rw [stepAt_apply m c hr ⟨0, N_pos⟩ zeroBlk r l, zeroBlk_apply]

theorem aS_succ (hr : ∀ n : Fin 4063232, InRange (m ((c.tc : Thread nD τ).loc main_arg5) (ix2 n (0 : Fin 1))))
    (r : Fin 8) (l : Fin 128) (n : ℕ) :
    aS m c r l (n + 1) = if (n + 1) % 256 = 0 then 0 + gS m c r l (n + 1) else aS m c r l n + gS m c r l (n + 1) := by
  have hN : cfg0.N = 512 := N_0
  by_cases hn : n + 1 < cfg0.N
  · have hn' : n < cfg0.N := Nat.lt_of_succ_lt hn
    unfold aS
    rw [dif_pos hn, dif_pos hn']
    by_cases h0 : (n + 1) % 256 = 0
    · rw [if_pos h0]
      show (acc m c (n + 1) hn) (ix3 (0 : Fin 1) r l) = _
      rw [acc, if_pos h0, stepAt_apply m c hr ⟨n + 1, hn⟩ zeroBlk r l, zeroBlk_apply]
    · rw [if_neg h0]
      show (acc m c (n + 1) hn) (ix3 (0 : Fin 1) r l) = _
      rw [acc, if_neg h0, stepAt_apply m c hr ⟨n + 1, hn⟩ _ r l]
  · have hg : gS m c r l (n + 1) = 0 := by unfold gS fS; rw [dif_neg hn, zero_mul]
    have ha : aS m c r l (n + 1) = 0 := by unfold aS; rw [dif_neg hn]
    rw [ha, hg]
    by_cases h0 : (n + 1) % 256 = 0
    · rw [if_pos h0, add_zero]
    · rw [if_neg h0, add_zero]
      unfold aS
      rw [dif_neg (by omega)]

/-- The accumulator, `i` steps into core `c'`'s run: the sum of the steps so far. -/
theorem aS_closed (hr : ∀ n : Fin 4063232, InRange (m ((c.tc : Thread nD τ).loc main_arg5) (ix2 n (0 : Fin 1))))
    (r : Fin 8) (l : Fin 128) (c' i : ℕ) (hi : i < 256) :
    aS m c r l (c' * 256 + i) = ∑ i' ∈ Finset.range (i + 1), gS m c r l (c' * 256 + i') :=
  Sums.acc_closed (gS m c r l) (aS m c r l) (aS_zero m c hr r l) (aS_succ m c hr r l) c' i hi

/-- Slab `c'`, row `r`, lane `l` of the result array: core `c'`'s 256 steps summed. -/
def G6c (c' : Fin 2) (r : Fin 8) (l : Fin 128) : EReal :=
  ∑ i' ∈ Finset.range 256, gS m c r l (c'.val * 256 + i')

/-- The result array the kernel leaves. -/
def G6 : Vec Ideal S2x8x128 .f32 := fun i =>
  G6c m c ⟨(i 0).val, (i 0).isLt⟩ ⟨(i 1).val, (i 1).isLt⟩ ⟨(i 2).val, (i 2).isLt⟩

theorem G6_ix3 (c' : Fin 2) (r : Fin 8) (l : Fin 128) : G6 m c (ix3 c' r l) = G6c m c c' r l := rfl

/-- Window 6's block index at point `t`: slab `t / 256`. -/
theorem idx6 : ∀ t : Fin cfg0.N, win0_6.index t (0 : Fin 3) = t.val / 256 ∧ win0_6.index t (1 : Fin 3) = 0
    ∧ win0_6.index t (2 : Fin 3) = 0 :=
  (by decide +kernel : ∀ t : Fin grid0.N, win0_6.index t (0 : Fin 3) = t.val / 256 ∧ win0_6.index t (1 : Fin 3) = 0
    ∧ win0_6.index t (2 : Fin 3) = 0)

end AtIdeal

section Final

variable (m : (ℓ : Loc nD τ sig) → Buf (Elt Ideal) ℓ) (c : Dev nD)

theorem G6c_congr {c1 c2 : Fin 2} {r1 r2 : Fin 8} {l1 l2 : Fin 128} (hc : c1.val = c2.val) (hr : r1.val = r2.val)
    (hl : l1.val = l2.val) : G6c m c c1 r1 l1 = G6c m c c2 r2 l2 := by
  rw [Fin.ext hc, Fin.ext hr, Fin.ext hl]

/-- WHAT A CORE'S LAST POINT WRITES BACK is its slab of `G6`. -/
theorem flushed6_eq (hr : ∀ n : Fin 4063232, InRange (m ((c.tc : Thread nD τ).loc main_arg5) (ix2 n (0 : Fin 1)))) (t : Fin cfg0.N) (hf : (cfg0.win 6).flush t = true) :
    (dats m 0 c).flushed 6 t = ((cfg0.win 6).blk t).view.read (Elt Ideal) (G6 m c) := by
  have hN : cfg0.N = 512 := N_0
  have hlt : t.val < 512 := hN ▸ t.isLt
  have h255 : t.val % 256 = 255 := (flush0_6 t).mp hf
  obtain ⟨e0, e1, e2⟩ := idx6 t
  show (cfg0.win 6).cut (grid0.coords t) ((dats m 0 c).after 6 t) = _
  rw [after0_6, outsAt_eq]
  funext y
  show acc m c t.val t.isLt y = G6 m c (((cfg0.win 6).blk t).view.emb y)
  have hy0 : (y 0).val < 1 := (y 0).isLt
  have hy1 : (y 1).val < 8 := (y 1).isLt
  have hy2 : (y 2).val < 128 := (y 2).isLt
  have hy : y = ix3 (0 : Fin 1) (⟨(y 1).val, hy1⟩ : Fin 8) (⟨(y 2).val, hy2⟩ : Fin 128) := by
    funext a; apply Fin.ext
    match a with
    | ⟨0, _⟩ => show (y 0).val = 0; omega
    | ⟨1, _⟩ => rfl
    | ⟨2, _⟩ => rfl
  have lhs : acc m c t.val t.isLt y = aS m c ⟨(y 1).val, hy1⟩ ⟨(y 2).val, hy2⟩ t.val := by
    unfold aS; rw [dif_pos t.isLt]; exact congrArg _ hy
  have ht : t.val / 256 * 256 + 255 = t.val := by omega
  have cl := aS_closed m c hr ⟨(y 1).val, hy1⟩ ⟨(y 2).val, hy2⟩ (t.val / 256) 255 (by decide)
  rw [ht] at cl
  rw [lhs, cl]
  have h0 : ((((cfg0.win 6).blk t).view.emb y) 0).val = t.val / 256 := by
    show win0_6.index t (0 : Fin 3) * 1 + 1 * (y 0).val = _; rw [e0]; omega
  have h1 : ((((cfg0.win 6).blk t).view.emb y) 1).val = (y 1).val := by
    show win0_6.index t (1 : Fin 3) * 8 + 1 * (y 1).val = _; rw [e1]; omega
  have h2 : ((((cfg0.win 6).blk t).view.emb y) 2).val = (y 2).val := by
    show win0_6.index t (2 : Fin 3) * 128 + 1 * (y 2).val = _; rw [e2]; omega
  exact (G6c_congr m c (c1 := ⟨t.val / 256, by omega⟩) (r1 := ⟨(y 1).val, hy1⟩) (l1 := ⟨(y 2).val, hy2⟩) h0.symm h1.symm h2.symm)

/-- An index of the result array is in point `t`'s block iff each coordinate is in the block's range. -/
theorem mem_blk6 (t : Fin cfg0.N) (i : S2x8x128.Idx) :
    i ∈ ((cfg0.win 6).blk t).view.set ↔ ∀ a : Fin 3, win0_6.index t a * S1x8x128.size a ≤ (i a).val
      ∧ (i a).val < win0_6.index t a * S1x8x128.size a + S1x8x128.size a := by
  show i ∈ ((View.whole main_v4).slice (win0_6.rect t)).set ↔ _
  rw [View.set_slice_whole, Rect.mem_set_unit]
  exact Iff.rfl

/-- THE RESULT ARRAY after the region: both slabs written, each by its core's last point. -/
theorem final6 (hr : ∀ n : Fin 4063232, InRange (m ((c.tc : Thread nD τ).loc main_arg5) (ix2 n (0 : Fin 1)))) : (dats m 0 c).arrAt 6 cfg0.N = G6 m c :=
  (dats m 0 c).arrAt_eq_of_cover 6 (G6 m c) (fun t hf => flushed6_eq m c hr t hf) fun i => by
    have hN : cfg0.N = 512 := N_0
    have hi0 : (i 0).val < 2 := (i 0).isLt
    have hi1 : (i 1).val < 8 := (i 1).isLt
    have hi2 : (i 2).val < 128 := (i 2).isLt
    have htl : (i 0).val * 256 + 255 < cfg0.N := by omega
    obtain ⟨e0, e1, e2⟩ := idx6 ⟨(i 0).val * 256 + 255, htl⟩
    have e0' : win0_6.index ⟨(i 0).val * 256 + 255, htl⟩ (0 : Fin 3) = ((i 0).val * 256 + 255) / 256 := e0
    refine ⟨⟨(i 0).val * 256 + 255, htl⟩, (flush0_6 _).mpr (by show ((i 0).val * 256 + 255) % 256 = 255; omega), ?_⟩
    rw [mem_blk6]
    intro a
    match a with
    | ⟨0, _⟩ =>
      show win0_6.index ⟨(i 0).val * 256 + 255, htl⟩ (0 : Fin 3) * 1 ≤ (i 0).val
        ∧ (i 0).val < win0_6.index ⟨(i 0).val * 256 + 255, htl⟩ (0 : Fin 3) * 1 + 1
      rw [e0']; omega
    | ⟨1, _⟩ =>
      show win0_6.index ⟨(i 0).val * 256 + 255, htl⟩ (1 : Fin 3) * 8 ≤ (i 1).val
        ∧ (i 1).val < win0_6.index ⟨(i 0).val * 256 + 255, htl⟩ (1 : Fin 3) * 8 + 8
      rw [e1]; omega
    | ⟨2, _⟩ =>
      show win0_6.index ⟨(i 0).val * 256 + 255, htl⟩ (2 : Fin 3) * 128 ≤ (i 2).val
        ∧ (i 2).val < win0_6.index ⟨(i 0).val * 256 + 255, htl⟩ (2 : Fin 3) * 128 + 128
      rw [e2]; omega

/-- THE ROW SUMS OF THE RESULT ARRAY ARE THE STATISTICS: the lanes collapse, the 512 blocks of 256 groups are all
    the groups, and a block's entries are the arrays' entries. -/
theorem rowSums_G6 (r : Fin 8) :
    rowSums (G6 m c) r = stat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r := by
  have hN : cfg0.N = 512 := N_0
  unfold rowSums
  simp only [G6_ix3]
  unfold G6c gS
  rw [Sums.lane_collapse (fS m c r), show zero32 = 0 from Ideal.ofBits_zero_f32, zero_add]
  have e1 : ∀ t : Fin 512, fS m c r t.val
      = ∑ p : Fin 256, (fun b : Fin 131072 => ∑ j : Fin 31, (entryAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b j).term r)
          ⟨t.val * 256 + p.val, by have := t.isLt; have := p.isLt; omega⟩ := by
    intro t
    unfold fS
    rw [dif_pos (by have := t.isLt; omega)]
    unfold bstat
    simp only [bentry_xb]
    rfl
  rw [Finset.sum_congr rfl (fun t _ => e1 t)]
  exact Sums.blocks_to_groups (fun b : Fin 131072 => ∑ j : Fin 31, (entryAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b j).term r)

end Final

end Cert.SetLoss.K

end
-- ==== Proof.KTail.lean ====
/-
  The host lines after the region. They sum each row of the accumulator array over both cores and all lanes, take
  rows 0 … 6 as the seven statistics, and form the results: two quotients by the number of entries, three masked
  means, the weighted total, and the constant zero. Read off the run's final valuation, each result is the
  corresponding function of the row sums of whatever the accumulator array ends holding.
-/
import proofs.«403313_j30760555773959_3_alg».proof.Proof.KBlocks

noncomputable section

open scoped BigOperators

namespace Cert.SetLoss.K

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The accumulator's row sums, as the reduce forms them -/

/-- An index of the accumulator array with row coordinate `r` drops, under the reduction over cores and lanes, to `r`. -/
theorem drop_ix3 (c' : Fin 2) (r : Fin 8) (l : Fin 128) :
    reducesTo_S2x8x128_S8_d0_2.drop (ix3 c' r l : S2x8x128.Idx) = (ix1 r : S8.Idx) := by
  funext b
  match b with
  | ⟨0, _⟩ => rfl

/-- Conversely an index that drops to `r` is (its core, `r`, its lane). -/
theorem eq_ix3_of_drop (i : S2x8x128.Idx) (r : Fin 8) (h : reducesTo_S2x8x128_S8_d0_2.drop i = (ix1 r : S8.Idx)) :
    i = ix3 (i 0) r (i 2) := by
  have h1 : i 1 = r := congrFun h 0
  rw [← h1]
  exact eq_ix3 i

/-- The reduce over axes 0 and 2 from zero, read at row `r`: zero plus the sum over both cores and all 128 lanes.
    The indices summed at `r` are exactly the pairs (core, lane) placed around `r`. -/
theorem reduce_row (G : Vec Ideal S2x8x128 .f32) (r : Fin 8) :
    Host.reduceAdd (F := Ideal) G (constant S_ .f32 0x00000000#32) reducesTo_S2x8x128_S8_d0_2 h_S_ (ix1 r) = rowSums G r := by
  show Ideal.hostReduceAdd _ _ _ _ = _
  unfold Ideal.hostReduceAdd rowSums
  show zero32 + _ = zero32 + _
  congr 1
  rw [← Fintype.sum_prod_type']
  symm
  refine Finset.sum_bij (fun p _ => (ix3 p.1 r p.2 : S2x8x128.Idx)) ?_ ?_ ?_ ?_
  · intro p _
    simp only [Finset.mem_filter, Finset.mem_univ, true_and]
    exact drop_ix3 p.1 r p.2
  · intro p _ q _ h
    exact Prod.ext (congrFun h 0) (congrFun h 2)
  · intro i hi
    simp only [Finset.mem_filter, Finset.mem_univ, true_and] at hi
    exact ⟨(i 0, i 2), Finset.mem_univ _, (eq_ix3_of_drop i r hi).symm⟩
  · intro p _
    rfl

/-- Row `k` of a vector of eight is a block of one element at offset `k`. -/
theorem slices_row (k : Fin 8) : S8.Slices (![k.val] : Fin S8.rank → Nat) S1 :=
  ⟨rfl, fun a => by
    match a with
    | ⟨0, _⟩ => show k.val + 1 ≤ 8; omega⟩

/-- Statistic `k` as the host lines form it: the reduce of the accumulator array, the one-element slice at `k`,
    and the reshape of that slice to a scalar. -/
def tailStats (G : Vec Ideal S2x8x128 .f32) (j : S_.Idx) (k : Fin 8) : EReal :=
  shapeCast S_ (extractStridedSlice S1 (![k.val] : Fin S8.rank → Nat)
    (Host.reduceAdd (F := Ideal) G (constant S_ .f32 0x00000000#32) reducesTo_S2x8x128_S8_d0_2 h_S_) (slices_row k))
    shapeCasts_S1_S_ j

/-- A one-element vector has only the coordinate 0. -/
theorem s1_val (x : S1.Idx) (a : Fin 1) : (x a).val = 0 := by
  match a with
  | ⟨0, h0⟩ =>
    have h : (x ⟨0, h0⟩).val < 1 := (x ⟨0, h0⟩).isLt
    omega

/-- It is the row sum: the slice's one element sits at coordinate `k + 0`. -/
theorem tailStats_eq (G : Vec Ideal S2x8x128 .f32) (j : S_.Idx) : tailStats G j = rowSums G := by
  funext k
  rw [← reduce_row]
  unfold tailStats shapeCast extractStridedSlice
  congr 1
  funext a
  match a with
  | ⟨0, _⟩ =>
    apply Fin.ext
    show k.val + ((Shape.reshapeEquiv shapeCasts_S1_S_ j : S1.Idx) _).val = k.val
    rw [s1_val (Shape.reshapeEquiv shapeCasts_S1_S_ j)]
    rfl

/-! ## The seven results -/

set_option maxHeartbeats 1000000 in
/-- All seven results at once, so that the host lines are read a single time. Every line's value is the line's
    operation applied to its operands' values; the accumulator array's value is `G`; at the one index of a scalar
    each result is then, term for term, the corresponding function of `tailStats G`, which is `rowSums G`. -/
theorem tail_all (c : Dev nD) (G : Vec Ideal S2x8x128 .f32) (hG : (dats m 0 c).arrAt 6 cfg0.N = G) :
    (Pipeline.afterTail₀ cfgs (dats m) 0 (V0 m) [hostOps1, hostOps1_1, hostOps1_2, hostOps1_3, hostOps1_4, hostOps1_5, hostOps1_6] c main_v38 = fun _ => total (rowSums G)) ∧
    (Pipeline.afterTail₀ cfgs (dats m) 0 (V0 m) [hostOps1, hostOps1_1, hostOps1_2, hostOps1_3, hostOps1_4, hostOps1_5, hostOps1_6] c main_v20 = fun _ => lossMatch (rowSums G)) ∧
    (Pipeline.afterTail₀ cfgs (dats m) 0 (V0 m) [hostOps1, hostOps1_1, hostOps1_2, hostOps1_3, hostOps1_4, hostOps1_5, hostOps1_6] c main_v21 = fun _ => lossPos (rowSums G)) ∧
    (Pipeline.afterTail₀ cfgs (dats m) 0 (V0 m) [hostOps1, hostOps1_1, hostOps1_2, hostOps1_3, hostOps1_4, hostOps1_5, hostOps1_6] c main_cst_14 = fun _ => zero32) ∧
    (Pipeline.afterTail₀ cfgs (dats m) 0 (V0 m) [hostOps1, hostOps1_1, hostOps1_2, hostOps1_3, hostOps1_4, hostOps1_5, hostOps1_6] c main_v25 = fun _ => lossCov (rowSums G)) ∧
    (Pipeline.afterTail₀ cfgs (dats m) 0 (V0 m) [hostOps1, hostOps1_1, hostOps1_2, hostOps1_3, hostOps1_4, hostOps1_5, hostOps1_6] c main_v29 = fun _ => precision (rowSums G)) ∧
    (Pipeline.afterTail₀ cfgs (dats m) 0 (V0 m) [hostOps1, hostOps1_1, hostOps1_2, hostOps1_3, hostOps1_4, hostOps1_5, hostOps1_6] c main_v33 = fun _ => recall (rowSums G)) := by
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  generalize hW : Pipeline.withArrays _ _ _ _ _ = W
  have e : W = G := hW.symm.trans ((Pipeline.withArrays_arr spec0 launch0.win.arr_inj c _ _ 6).trans hG)
  rw [e]
  refine ⟨?_, ?_, ?_, ?_, ?_, ?_, ?_⟩ <;> funext j
  · show total (tailStats G j) = _
    rw [tailStats_eq]
  · show lossMatch (tailStats G j) = _
    rw [tailStats_eq]
  · show lossPos (tailStats G j) = _
    rw [tailStats_eq]
  · rfl
  · show lossCov (tailStats G j) = _
    rw [tailStats_eq]
  · show precision (tailStats G j) = _
    rw [tailStats_eq]
  · show recall (tailStats G j) = _
    rw [tailStats_eq]

/-! ## The results one by one -/

theorem tail_total (c : Dev nD) (G : Vec Ideal S2x8x128 .f32) (hG : (dats m 0 c).arrAt 6 cfg0.N = G) :
    Pipeline.afterTail₀ cfgs (dats m) 0 (V0 m) [hostOps1, hostOps1_1, hostOps1_2, hostOps1_3, hostOps1_4, hostOps1_5, hostOps1_6] c main_v38 = fun _ => total (rowSums G) :=
  (tail_all m c G hG).1

theorem tail_match (c : Dev nD) (G : Vec Ideal S2x8x128 .f32) (hG : (dats m 0 c).arrAt 6 cfg0.N = G) :
    Pipeline.afterTail₀ cfgs (dats m) 0 (V0 m) [hostOps1, hostOps1_1, hostOps1_2, hostOps1_3, hostOps1_4, hostOps1_5, hostOps1_6] c main_v20 = fun _ => lossMatch (rowSums G) :=
  (tail_all m c G hG).2.1

theorem tail_pos (c : Dev nD) (G : Vec Ideal S2x8x128 .f32) (hG : (dats m 0 c).arrAt 6 cfg0.N = G) :
    Pipeline.afterTail₀ cfgs (dats m) 0 (V0 m) [hostOps1, hostOps1_1, hostOps1_2, hostOps1_3, hostOps1_4, hostOps1_5, hostOps1_6] c main_v21 = fun _ => lossPos (rowSums G) :=
  (tail_all m c G hG).2.2.1

theorem tail_rot (c : Dev nD) (G : Vec Ideal S2x8x128 .f32) (hG : (dats m 0 c).arrAt 6 cfg0.N = G) :
    Pipeline.afterTail₀ cfgs (dats m) 0 (V0 m) [hostOps1, hostOps1_1, hostOps1_2, hostOps1_3, hostOps1_4, hostOps1_5, hostOps1_6] c main_cst_14 = fun _ => zero32 :=
  (tail_all m c G hG).2.2.2.1

theorem tail_cov (c : Dev nD) (G : Vec Ideal S2x8x128 .f32) (hG : (dats m 0 c).arrAt 6 cfg0.N = G) :
    Pipeline.afterTail₀ cfgs (dats m) 0 (V0 m) [hostOps1, hostOps1_1, hostOps1_2, hostOps1_3, hostOps1_4, hostOps1_5, hostOps1_6] c main_v25 = fun _ => lossCov (rowSums G) :=
  (tail_all m c G hG).2.2.2.2.1

theorem tail_prec (c : Dev nD) (G : Vec Ideal S2x8x128 .f32) (hG : (dats m 0 c).arrAt 6 cfg0.N = G) :
    Pipeline.afterTail₀ cfgs (dats m) 0 (V0 m) [hostOps1, hostOps1_1, hostOps1_2, hostOps1_3, hostOps1_4, hostOps1_5, hostOps1_6] c main_v29 = fun _ => precision (rowSums G) :=
  (tail_all m c G hG).2.2.2.2.2.1

theorem tail_rec (c : Dev nD) (G : Vec Ideal S2x8x128 .f32) (hG : (dats m 0 c).arrAt 6 cfg0.N = G) :
    Pipeline.afterTail₀ cfgs (dats m) 0 (V0 m) [hostOps1, hostOps1_1, hostOps1_2, hostOps1_3, hostOps1_4, hostOps1_5, hostOps1_6] c main_v33 = fun _ => recall (rowSums G) :=
  (tail_all m c G hG).2.2.2.2.2.2

end Cert.SetLoss.K

end
-- ==== Proof.KRun.lean ====
/-
  The kernel's run, read. Every weakly fair execution of the idealized kernel program terminates; its seven result
  buffers then hold the spec's seven functions of the statistics of the argument arrays, and the arguments are
  unchanged. The result array of the region ends at the closed form of the accumulator; the host lines after the
  region take its row sums, which are the statistics. The label words are assumed in range.
-/
import proofs.«403313_j30760555773959_3_alg».proof.Proof.KInv
import proofs.«403313_j30760555773959_3_alg».proof.Proof.KTail

noncomputable section

namespace Cert.SetLoss.K

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

theorem run (hr : ∀ (c : Dev nD) (n : Fin 4063232), InRange (m ((c.tc : Thread nD τ).loc main_arg5) (ix2 n (0 : Fin 1)))) :
    θ_run defs (onTc (τ := τ) (main (F := Ideal))) ⟨m, fun _ => 0, ρ⟩ fun r => ∀ c : Dev nD,
      r.2.mem ((c.tc : Thread nD τ).loc main_v38) = (fun _ => total (stat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_v20) = (fun _ => lossMatch (stat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_v21) = (fun _ => lossPos (stat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_cst_14) = (fun _ => zero32)
      ∧ r.2.mem ((c.tc : Thread nD τ).loc main_v25) = (fun _ => lossCov (stat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_v29) = (fun _ => precision (stat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_v33) = (fun _ => recall (stat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_main m ρ)
  have hs : rowSums (G6 m c) = stat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := funext (rowSums_G6 m c)
  have hG := final6 m c (hr c)
  exact ⟨((h c).2 main_v38 (Pipeline.mem_restRefs_of main_v38 (by decide) (by decide))).trans ((tail_total m c _ hG).trans (by rw [hs])),
    ((h c).2 main_v20 (Pipeline.mem_restRefs_of main_v20 (by decide) (by decide))).trans ((tail_match m c _ hG).trans (by rw [hs])),
    ((h c).2 main_v21 (Pipeline.mem_restRefs_of main_v21 (by decide) (by decide))).trans ((tail_pos m c _ hG).trans (by rw [hs])),
    ((h c).2 main_cst_14 (Pipeline.mem_restRefs_of main_cst_14 (by decide) (by decide))).trans (tail_rot m c _ hG),
    ((h c).2 main_v25 (Pipeline.mem_restRefs_of main_v25 (by decide) (by decide))).trans ((tail_cov m c _ hG).trans (by rw [hs])),
    ((h c).2 main_v29 (Pipeline.mem_restRefs_of main_v29 (by decide) (by decide))).trans ((tail_prec m c _ hG).trans (by rw [hs])),
    ((h c).2 main_v33 (Pipeline.mem_restRefs_of main_v33 (by decide) (by decide))).trans ((tail_rec m c _ hG).trans (by rw [hs])),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩

end Cert.SetLoss.K

end
-- ==== Proof.RefMatch.lean ====
/-
  The reference's matching loss. It flattens the first 31 rows of every score table to 4063232 rows of 32 columns and
  takes, in row n, the column the label selects: -1 is first replaced by 31, a negative index would then be wrapped by
  adding 32 and an index outside 0 … 31 would read a fill value; with every label word in range neither happens, and
  the gather, which clamps its start index into the row, reads exactly the label's column. The loss is the sum of
  the negated picks over all rows, from zero, divided by the number of rows.
-/
import proofs.«403313_j30760555773959_3_alg».proof.Proof.Spec
import proofs.«403313_j30760555773959_3_alg».proof.Proof.Sums
import proofs.«403313_j30760555773959_3_alg».proof.Proof.RefReadP
import Idealize.ShloMosaic.Lib.StableHlo.Predicate
import Idealize.ShloMosaic.PureOps.Reduce

noncomputable section

open scoped BigOperators

namespace Cert.SetLoss.Ref

open Idealize.ShloMosaic Idealize.ShloMosaic.ValueIdx Cert.ReferenceIdeal Cert.ReferenceIdeal.Gen Cert.ReferenceIdeal.ReadP
open Idealize.ShloMosaic.StableHlo.Predicate

/-! ## Words: the routed label is a column -/

/-- The routed index of a label word: 31 for -1, else the word. -/
def route (w : BitVec 32) : BitVec 32 := Scalar.select (IntOp.cmpi .eq w 4294967295#32) 31#32 w

/-- The routed index of a label word in range is its column. -/
theorem route_toNat {w : BitVec 32} (hw : InRange w) : (route w).toNat = (colOf w).val := by
  unfold route colOf Scalar.select
  by_cases h : w = negOne
  · have hc : IntOp.cmpi .eq w 4294967295#32 = 1 := cmpi_eq_iff.mpr h
    rw [if_pos hc, if_pos h]; rfl
  · have hc : ¬ IntOp.cmpi .eq w 4294967295#32 = 1 := fun hc => h (cmpi_eq_iff.mp hc)
    rw [if_neg hc, if_neg h]
    rcases hw with hw | hw
    · exact absurd hw h
    · show w.toNat = w.toNat % 32; omega

theorem route_le {w : BitVec 32} (hw : InRange w) : (route w).toNat ≤ 31 := by
  rw [route_toNat hw]; have := (colOf w).isLt; omega

/-- A word in 0 … 31 is not negative: the wrap by 32 leaves it. -/
theorem wrap_id {v : BitVec 32} (hv : v.toNat ≤ 31) :
    Scalar.select (IntOp.cmpi .slt v 0#32) (IntOp.addi v 32#32) v = v := by
  unfold Scalar.select
  rw [if_neg]
  intro hc
  have := (slt_iff_toNat (a := v) (b := 0#32) (by omega) (by decide)).mp hc
  simp at this

/-- A word in 0 … 31 passes the range test 0 ≤ v ≤ 31. -/
theorem mask_one {v : BitVec 32} (hv : v.toNat ≤ 31) :
    IntOp.andi (IntOp.cmpi .sge v 0#32) (IntOp.cmpi .sle v 31#32) = 1#1 := by
  rw [(sge_iff_toNat (a := v) (b := 0#32) (by omega) (by decide)).mpr (by simp),
    (sle_iff_toNat (a := v) (b := 31#32) (by omega) (by decide)).mpr (by simpa using hv)]
  decide

/-- A word in 0 … 31 read signed and clamped into 0 … 31 is itself. -/
theorem clamp_id {v : BitVec 32} (hv : v.toNat ≤ 31) : min v.toInt.toNat 31 = v.toNat := by
  rw [toInt_eq_toNat_of_lt (a := v) (by omega)]
  simp only [Int.toNat_natCast]
  omega

/-! ## The conjunction over a unit axis is the one element, and-ed onto the initial value -/

/-- A fold over an index set of one element is the operation at that element and the initial value. -/
theorem fold_fin_one {α : Type} (k : Nat) (hk : k = 1) (f : α → α → α) [Std.Commutative f] [Std.Associative f] (b : α)
    (g : Fin k → α) : (Finset.univ : Finset (Fin k)).fold f b g = f (g ⟨0, by omega⟩) b := by
  subst hk
  rw [Finset.univ_unique, Finset.fold_singleton]
  rfl

theorem reduce_and_unit (m : IVec ⟨3, ![4063232, 1, 1]⟩ 1) (init : IVec ⟨0, ![]⟩ 1)
    (h' : (⟨3, ![4063232, 1, 1]⟩ : Shape).ReducesTo [2] ⟨2, ![4063232, 1]⟩) (hu : 0 < (⟨0, ![]⟩ : Shape).numel)
    (n : Fin 4063232) :
    Host.reduce IntOp.andi m init h' hu (ix2 n (0 : Fin 1))
      = IntOp.andi (m (ix3 n (0 : Fin 1) (0 : Fin 1))) (init (Shape.Idx.first hu)) := by
  have h : (⟨3, ![4063232, 1, 1]⟩ : Shape).Reduces [2] ⟨2, ![4063232, 1]⟩ := by decide
  refine (Host.reduce_eq_fold_single IntOp.andi m init h' h hu (ix2 n (0 : Fin 1))).trans ?_
  refine (fold_fin_one _ rfl IntOp.andi _ _).trans ?_
  have hl : h.lift (ix2 n (0 : Fin 1)) ⟨0, by decide⟩ = ix3 n (0 : Fin 1) (0 : Fin 1) := by
    funext c; apply Fin.ext
    fin_cases c <;> rfl
  show IntOp.andi (m (h.lift (ix2 n (0 : Fin 1)) ⟨0, _⟩)) _ = _
  rw [hl]

/-! ## The row gather read at an index -/

section Gather
variable [Facts₀]

local notation "gd" => gather_S4063232x32_S4063232x1x1_S4063232x1_n_1_0_0_1_2_11

/-- THE ROW GATHER READ AT (n, 0): axis 0 of the operand is a batching axis, so its coordinate is the result's row n;
    axis 1 is the gathered and collapsed axis, so its coordinate is the start index at (n, 0, 0), read signed and
    clamped into 0 … 31. -/
theorem gather_row_apply {α : Type} {w : Nat}
    (x : (⟨2, ![4063232, 32]⟩ : Shape).Idx → α) (idx : IVec ⟨3, ![4063232, 1, 1]⟩ w) (n : Fin 4063232) :
    Host.gather gd x idx (ix2 n (0 : Fin 1))
      = x (ix2 n (⟨min (idx (ix3 n (0 : Fin 1) (0 : Fin 1))).toInt.toNat 31, by omega⟩ : Fin 32)) := by
  unfold Host.gather
  congr 1
  funext a
  refine Fin.ext ?_
  match a with
  | ⟨0, _⟩ =>
    show GatherDims.start gd (ix2 n (0 : Fin 1)) idx (0 : Fin 2) + GatherDims.batchCoord gd (ix2 n (0 : Fin 1)) (0 : Fin 2)
      + GatherDims.offCoord gd (ix2 n (0 : Fin 1)) (0 : Fin 2) = n.val
    have hb : (0 : Fin 2) ∈ GatherDims.operandBatchingDims gd := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    show GatherDims.start gd (ix2 n (0 : Fin 1)) idx (1 : Fin 2) + GatherDims.batchCoord gd (ix2 n (0 : Fin 1)) (1 : Fin 2)
      + GatherDims.offCoord gd (ix2 n (0 : Fin 1)) (1 : Fin 2) = min (idx (ix3 n (0 : Fin 1) (0 : Fin 1))).toInt.toNat 31
    have hc : (1 : Fin 2) ∈ GatherDims.collapsedSliceDims gd := List.mem_singleton.mpr rfl
    have hnb : (1 : Fin 2) ∉ GatherDims.operandBatchingDims gd := fun h => absurd (List.mem_singleton.mp h) (by decide)
    rw [GatherDims.batchCoord_eq_zero _ _ _ hnb,
      GatherDims.offCoord_eq_zero _ _ _ (fun h => ((GatherDims.mem_sKept _ _).mp h).1 hc)]
    simp only [Nat.add_zero]
    have hm : (1 : Fin 2) ∈ GatherDims.startIndexMap gd := List.mem_singleton.mpr rfl
    unfold GatherDims.start
    rw [dif_pos hm]
    have hsi : GatherDims.siIdx gd (ix2 n (0 : Fin 1)) ⟨List.idxOf (1 : Fin 2) (GatherDims.startIndexMap gd),
        List.idxOf_lt_length_iff.2 hm⟩ = ix3 n (0 : Fin 1) (0 : Fin 1) := by
      funext b; refine Fin.ext ?_
      match b with
      | ⟨0, _⟩ => rfl
      | ⟨1, _⟩ => rfl
      | ⟨2, _⟩ => rfl
    rw [hsi]
    rfl

end Gather

/-! ## The stages at a row -/

variable (a0 : FVec Ideal SScores .f32) (a1 : FVec Ideal SCov .f32) (a2 : FVec Ideal SPos .f32)
  (a3 : FVec Ideal SPose .f32) (a4 : IVec SInd 32) (a5 : IVec SMatch 32)

/-- The index after the routing of -1 to the last column. -/
theorem v5_at (i : S4063232x1.Idx) : val_main_v5 (F := Ideal) a5 i = route (a5 i) := by
  rw [val_main_v5_apply, val_main_v4_apply, val_main_v3_apply, val_main_c_0_apply, val_main_call0_v1_apply,
    val_main_call0_v0_apply, val_main_c_1_apply]
  rfl

/-- The wrap of negative indices leaves a routed label in range as it is. -/
theorem v4w_at (i : S4063232x1.Idx) (h : InRange (a5 i)) : val_main_call1_v4 (F := Ideal) a5 i = route (a5 i) := by
  rw [val_main_call1_v4_apply, val_main_call1_v1_apply, val_main_call1_v3_apply, val_main_call1_v0_apply,
    val_main_call1_c_apply, val_main_call1_v2_apply, val_main_call1_c_0_apply, v5_at]
  exact wrap_id (route_le h)

/-- The reshaped index array at (n, 0, 0) is the index array at (n, 0). -/
theorem idx_v5w (n : Fin 4063232) : idx_main_call1_v5 (ix3 n (0 : Fin 1) (0 : Fin 1)) = ix2 n (0 : Fin 1) := by
  funext a
  match a with
  | ⟨0, _⟩ => exact Fin.ext (by show ((n.val * 1 + 0) * 1 + 0) / 1 = n.val; omega)
  | ⟨1, _⟩ => rfl

theorem v5w_at (n : Fin 4063232) (h : InRange (a5 (ix2 n (0 : Fin 1)))) :
    val_main_call1_v5 (F := Ideal) a5 (ix3 n (0 : Fin 1) (0 : Fin 1)) = route (a5 (ix2 n (0 : Fin 1))) := by
  rw [val_main_call1_v5_apply, idx_v5w, v4w_at a5 _ h]

/-- The range mask of a routed label in range is set. -/
theorem mask_at (n : Fin 4063232) (h : InRange (a5 (ix2 n (0 : Fin 1)))) :
    val_main_call1_v12 (F := Ideal) a5 (ix2 n (0 : Fin 1)) = 1#1 := by
  unfold val_main_call1_v12
  refine (reduce_and_unit (val_main_call1_v11 (F := Ideal) a5) (val_main_call1_c_3 (F := Ideal)) _ _ n).trans ?_
  rw [val_main_call1_v11_apply, val_main_call1_v7_apply, val_main_call1_v10_apply, val_main_call1_v6_apply,
    val_main_call1_c_2_apply, val_main_call1_v9_apply, val_main_call1_v8_apply, val_main_call1_c_1_apply,
    v5w_at a5 n h, val_main_call1_c_3_apply, mask_one (route_le h)]
  decide

/-- The gather reads row n of the flattened tables at the label's column. -/
theorem gath_at (n : Fin 4063232) (h : InRange (a5 (ix2 n (0 : Fin 1)))) :
    val_main_call1_v13 (F := Ideal) a0 a5 (ix2 n (0 : Fin 1))
      = val_main_v7 (F := Ideal) a0 (ix2 n (colOf (a5 (ix2 n (0 : Fin 1))))) := by
  unfold val_main_call1_v13
  refine (gather_row_apply (val_main_v7 (F := Ideal) a0) (val_main_call1_v5 (F := Ideal) a5) n).trans ?_
  refine congrArg (fun c : Fin 32 => val_main_v7 (F := Ideal) a0 (ix2 n c)) (Fin.ext ?_)
  show min (val_main_call1_v5 (F := Ideal) a5 (ix3 n (0 : Fin 1) (0 : Fin 1))).toInt.toNat 31
    = (colOf (a5 (ix2 n (0 : Fin 1)))).val
  rw [v5w_at a5 n h, clamp_id (route_le h), route_toNat h]

/-- Row b·31 + j of the flattened tables is row j of table b. -/
theorem v7_at (b : Fin 131072) (j : Fin 31) (c : Fin 32) :
    val_main_v7 (F := Ideal) a0 (ix2 (rowOf b j) c)
      = a0 (ix3 b (⟨j.val, by have := j.isLt; omega⟩ : Fin 32) c) := by
  rw [val_main_v7_apply, val_main_v6_apply]
  refine congrArg a0 ?_
  funext a
  have hb := b.isLt
  have hj := j.isLt
  have hc := c.isLt
  match a with
  | ⟨0, _⟩ => exact Fin.ext (by show ((b.val * 31 + j.val) * 32 + c.val) / 992 = b.val; omega)
  | ⟨1, _⟩ => exact Fin.ext (by show ((b.val * 31 + j.val) * 32 + c.val) / 32 % 31 = j.val; omega)
  | ⟨2, _⟩ => exact Fin.ext (by show ((b.val * 31 + j.val) * 32 + c.val) % 32 = c.val; omega)

/-- The pick at row b·31 + j: the score of table b, row j, in the label's column. -/
theorem v8_at (b : Fin 131072) (j : Fin 31) (h : InRange (a5 (ix2 (rowOf b j) (0 : Fin 1)))) :
    val_main_v8 (F := Ideal) a0 a5 (ix2 (rowOf b j) (0 : Fin 1))
      = a0 (ix3 b (⟨j.val, by have := j.isLt; omega⟩ : Fin 32) (colOf (a5 (ix2 (rowOf b j) (0 : Fin 1))))) := by
  rw [val_main_v8_apply, mask_at a5 _ h, gath_at a0 a5 _ h, v7_at, select_one]

/-- THE REFERENCE'S MATCHING LOSS is the spec's, the label words being in range. -/
theorem ref_match (hr : ∀ n : Fin 4063232, InRange (a5 (ix2 n (0 : Fin 1)))) :
    val_main_v11 (F := Ideal) a0 a5 = fun _ => lossMatch (stat a0 a1 a2 a3 a4 a5) := by
  funext i
  rw [val_main_v11_apply, val_main_v10_apply, val_main_cst_2_apply, val_main_cst_apply]
  show Ideal.div (Ideal.ofBits .f32 0x00000000#32 + ∑ k : S4063232x1.Idx, val_main_v9 (F := Ideal) a0 a5 k)
      (Ideal.ofBits .f32 0x4A780000#32) = Ideal.div (stat a0 a1 a2 a3 a4 a5 0) nTot
  rw [Ideal.ofBits_zero_f32, zero_add]
  refine congrArg (fun s => Ideal.div s nTot) ?_
  refine (sum_idx2 (fun k => val_main_v9 (F := Ideal) a0 a5 k)).trans ?_
  refine (Sums.rows_to_groups (fun n => ∑ c : Fin 1, val_main_v9 (F := Ideal) a0 a5 (ix2 n c))).trans ?_
  unfold stat
  refine Finset.sum_congr rfl fun b _ => Finset.sum_congr rfl fun j _ => ?_
  show ∑ c : Fin 1, val_main_v9 (F := Ideal) a0 a5 (ix2 (rowOf b j) c) = (entryAt a0 a1 a2 a3 a4 a5 b j).term 0
  rw [Fin.sum_univ_one, val_main_v9_apply, v8_at a0 a5 b j (hr _)]
  exact (zero_sub (G := EReal) _).symm

end Cert.SetLoss.Ref

end
-- ==== Proof.RefPos.lean ====
/-
  The reference's position loss and its covariance sum. The differences position - pose are taken on the arrays
  flattened to 4063232 rows of 3; the position loss is the sum of all 3·4063232 squares divided by their number and
  multiplied by 3, which is the sum divided by 4063232; the per-row term is the row's three squares summed, over the
  variance, plus (3 · log variance) · 0.04, kept where a prediction exists and summed over the rows from zero.
-/
import proofs.«403313_j30760555773959_3_alg».proof.Proof.Spec
import proofs.«403313_j30760555773959_3_alg».proof.Proof.Sums
import proofs.«403313_j30760555773959_3_alg».proof.Proof.RefReadP
import Idealize.ShloMosaic.Lib.ValueIdxRank1
import Idealize.ShloMosaic.Lib.Affine

noncomputable section

open scoped BigOperators

namespace Cert.SetLoss.Ref

open Idealize.ShloMosaic Idealize.ShloMosaic.ValueIdx Cert.ReferenceIdeal Cert.ReferenceIdeal.Gen Cert.ReferenceIdeal.ReadP

variable (a0 : FVec Ideal SScores .f32) (a1 : FVec Ideal SCov .f32) (a2 : FVec Ideal SPos .f32)
  (a3 : FVec Ideal SPose .f32) (a4 : IVec SInd 32) (a5 : IVec SMatch 32)

/-! ## The constants of the position loss -/

/-- The word 0x4B3A0000 denotes the real 12189696 = 3 · 4063232. -/
private theorem ofBits_12189696 : Ideal.ofBits .f32 0x4B3A0000#32 = ((12189696 : ℝ) : EReal) := by
  simp [Ideal.ofBits, Ideal.ieee, -EReal.coe_mul] <;> norm_num

/-- The word 0x40400000 denotes the real 3. -/
private theorem ofBits_three : Ideal.ofBits .f32 0x40400000#32 = ((3 : ℝ) : EReal) := by
  simp [Ideal.ofBits, Ideal.ieee, -EReal.coe_mul] <;> norm_num

/-- The word 0x4A780000 denotes the real 4063232. -/
private theorem ofBits_4063232 : Ideal.ofBits .f32 0x4A780000#32 = ((4063232 : ℝ) : EReal) := by
  simp [Ideal.ofBits, Ideal.ieee, -EReal.coe_mul] <;> norm_num

/-- Dividing by 3 · 4063232 and then multiplying by 3 is dividing by 4063232, for every extended real: both
    divisions are products with a real reciprocal, and (1 / 12189696) · 3 = 1 / 4063232. -/
private theorem div_mul_three (x : EReal) :
    Ideal.div x (Ideal.ofBits .f32 0x4B3A0000#32) * Ideal.ofBits .f32 0x40400000#32
      = Ideal.div x (Ideal.ofBits .f32 0x4A780000#32) := by
  rw [ofBits_12189696, ofBits_three, ofBits_4063232,
    Ideal.div_coe (by norm_num : (12189696 : ℝ) ≠ 0), Ideal.div_coe (by norm_num : (4063232 : ℝ) ≠ 0),
    mul_assoc, ← EReal.coe_mul]
  congr 2
  norm_num

/-! ## Sums over a flat index set, and a select on "not equal" -/

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A select on the bit "w ≠ v" keeps its first operand off v and its second at v. -/
private theorem select_ne (w v : BitVec 32) (A B : EReal) :
    Scalar.select (IntOp.cmpi .ne w v) A B = if w = v then B else A := by
  by_cases h : w = v
  · have hc : IntOp.cmpi .ne w v = 0#1 := eq_zero_of_ne_one fun h1 => (IntOp.cmpi_ne.mp h1) h
    rw [hc, select_zero, if_pos h]
  · rw [IntOp.cmpi_ne.mpr h, select_one, if_neg h]

/-! ## Rows of the flattened arrays: row b·31 + j is (group b, detection j) -/

/-- Row b·31 + j, column k of the positions flattened to 4063232 × 3 is element (b, j, k):
    ((b·31 + j)·3 + k) / 93 = b, ((b·31 + j)·3 + k) / 3 mod 31 = j, ((b·31 + j)·3 + k) mod 3 = k. -/
private theorem idx37_row (b : Fin 131072) (j : Fin 31) (k : Fin 3) : idx_main_v37 (ix2 (rowOf b j) k) = ix3 b j k := by
  have hb := b.isLt; have hj := j.isLt; have hk := k.isLt
  funext a
  match a with
  | ⟨0, _⟩ => exact Fin.ext (show ((b.val * 31 + j.val) * 3 + k.val) / 93 = b.val by omega)
  | ⟨1, _⟩ => exact Fin.ext (show ((b.val * 31 + j.val) * 3 + k.val) / 3 % 31 = j.val by omega)
  | ⟨2, _⟩ => exact Fin.ext (show ((b.val * 31 + j.val) * 3 + k.val) % 3 = k.val by omega)

/-- Column k < 3 of the poses' first three columns is column k of the poses, in the same row. -/
private theorem idx38_row (n : Fin 4063232) (k : Fin 3) :
    idx_main_v38 (ix2 n k) = ix2 n (⟨k.val, by have := k.isLt; omega⟩ : Fin 7) := by
  funext a
  match a with
  | ⟨0, _⟩ => rfl
  | ⟨1, _⟩ => rfl

/-- Row b·31 + j of an array [131072, 31, 1] flattened to 4063232 entries is element (b, j, 0). -/
private theorem idx44_row (b : Fin 131072) (j : Fin 31) : idx_main_v44 (ix1 (rowOf b j)) = ix3 b j (0 : Fin 1) := by
  have hb := b.isLt; have hj := j.isLt
  funext a
  match a with
  | ⟨0, _⟩ => exact Fin.ext (show (b.val * 31 + j.val) / 31 = b.val by omega)
  | ⟨1, _⟩ => exact Fin.ext (show (b.val * 31 + j.val) / 1 % 31 = j.val by omega)
  | ⟨2, _⟩ => rfl

/-- Summand k of row n's sum over the three columns sits at (n, k). -/
private theorem idx46_row (n : Fin 4063232) (k : Fin 3) : idx_main_v46 (ix1 n) k = ix2 n k := by
  funext a
  match a with
  | ⟨0, _⟩ => rfl
  | ⟨1, _⟩ => rfl

/-- Entry n of a column [4063232, 1] flattened to 4063232 entries is element (n, 0). -/
private theorem idx16_row (n : Fin 4063232) : idx_main_v16 (ix1 n) = ix2 n (0 : Fin 1) := by
  funext a
  match a with
  | ⟨0, _⟩ => exact Fin.ext (show n.val / 1 = n.val by omega)
  | ⟨1, _⟩ => rfl

/-- Row b·31 + j of an array [131072, 31, 1] regrouped as [4063232, 1] is element (b, j, 0). -/
private theorem idx12_row (b : Fin 131072) (j : Fin 31) :
    idx_main_v12 (ix2 (rowOf b j) (0 : Fin 1)) = ix3 b j (0 : Fin 1) := by
  have hb := b.isLt; have hj := j.isLt
  funext a
  match a with
  | ⟨0, _⟩ => exact Fin.ext (show ((b.val * 31 + j.val) * 1 + 0) / 31 = b.val by omega)
  | ⟨1, _⟩ => exact Fin.ext (show ((b.val * 31 + j.val) * 1 + 0) / 1 % 31 = j.val by omega)
  | ⟨2, _⟩ => rfl

/-! ## The squared differences -/

/-- The difference at row b·31 + j, column k: position (b, j, k) minus pose (b·31 + j, k). -/
private theorem diff_row (b : Fin 131072) (j : Fin 31) (k : Fin 3) :
    val_main_v39 (F := Ideal) a2 a3 (ix2 (rowOf b j) k)
      = a2 (ix3 b j k) - a3 (ix2 (rowOf b j) (⟨k.val, by have := k.isLt; omega⟩ : Fin 7)) := by
  rw [val_main_v39_apply, val_main_v37_apply, val_main_v38_apply, idx37_row, idx38_row, Ideal.subf_def]

/-- Its square. -/
private theorem sq_row (b : Fin 131072) (j : Fin 31) (k : Fin 3) :
    val_main_v40 (F := Ideal) a2 a3 (ix2 (rowOf b j) k)
      = (a2 (ix3 b j k) - a3 (ix2 (rowOf b j) (⟨k.val, by have := k.isLt; omega⟩ : Fin 7)))
        * (a2 (ix3 b j k) - a3 (ix2 (rowOf b j) (⟨k.val, by have := k.isLt; omega⟩ : Fin 7))) := by
  rw [val_main_v40_apply, diff_row, Ideal.mulf_def]

/-- The three squares of a row, added left to right, are the entry's squared distance. -/
private theorem sq3_row (b : Fin 131072) (j : Fin 31) :
    ∑ k : Fin 3, val_main_v40 (F := Ideal) a2 a3 (ix2 (rowOf b j) k) = (entryAt a0 a1 a2 a3 a4 a5 b j).sq := by
  rw [Fin.sum_univ_three, sq_row, sq_row, sq_row]
  rfl

/-- All 3 · 4063232 squares sum to statistic 1: by rows, then rows by (group, detection). -/
private theorem sum_sq : ∑ i : S4063232x3.Idx, val_main_v40 (F := Ideal) a2 a3 i = stat a0 a1 a2 a3 a4 a5 1 := by
  rw [sum_idx2 (n0 := 4063232) (n1 := 3), Sums.rows_to_groups]
  show _ = ∑ b : Fin 131072, ∑ j : Fin 31, (entryAt a0 a1 a2 a3 a4 a5 b j).sq
  exact Finset.sum_congr rfl fun b _ => Finset.sum_congr rfl fun j _ => sq3_row a0 a1 a2 a3 a4 a5 b j

/-- THE REFERENCE'S POSITION LOSS is the spec's. -/
theorem ref_pos : val_main_v43 (F := Ideal) a2 a3 = fun _ => lossPos (stat a0 a1 a2 a3 a4 a5) := by
  funext i
  rw [val_main_v43_apply, val_main_v42_apply, val_main_v41_apply, val_main_cst_16_apply, val_main_cst_17_apply,
    val_main_cst_18_apply, sum_sq a0 a1 a2 a3 a4 a5]
  show Ideal.div (Ideal.ofBits .f32 0x00000000#32 + stat a0 a1 a2 a3 a4 a5 1) (Ideal.ofBits .f32 0x4B3A0000#32)
      * Ideal.ofBits .f32 0x40400000#32 = Ideal.div (stat a0 a1 a2 a3 a4 a5 1) (Ideal.ofBits .f32 0x4A780000#32)
  rw [Ideal.ofBits_zero_f32, zero_add, div_mul_three]

/-! ## The per-row covariance term -/

/-- The mask bit of a row: its predicted index word is not -1. -/
private theorem mask_row (b : Fin 131072) (j : Fin 31) :
    val_main_v18 (F := Ideal) a4 (ix1 (rowOf b j)) = IntOp.cmpi .ne (a4 (ix3 b j (0 : Fin 1))) negOne := by
  rw [val_main_v18_apply, val_main_v16_apply, val_main_v12_apply, val_main_v17_apply, val_main_c_3_apply, idx16_row,
    idx12_row]

/-- The variance of a row. -/
private theorem cv_row (b : Fin 131072) (j : Fin 31) :
    val_main_v44 (F := Ideal) a1 (ix1 (rowOf b j)) = a1 (ix3 b j (0 : Fin 1)) := by
  rw [val_main_v44_apply, idx44_row]

/-- The two square arrays of the program are one array. -/
private theorem v45_eq : val_main_v45 (F := Ideal) a2 a3 = val_main_v40 (F := Ideal) a2 a3 := rfl

/-- A row's three squares summed from zero are the entry's squared distance. -/
private theorem sqsum_row (b : Fin 131072) (j : Fin 31) :
    val_main_v46 (F := Ideal) a2 a3 (ix1 (rowOf b j)) = (entryAt a0 a1 a2 a3 a4 a5 b j).sq := by
  rw [val_main_v46_apply, val_main_cst_19_apply, v45_eq]
  simp only [idx46_row]
  rw [sq3_row a0 a1 a2 a3 a4 a5, Ideal.ofBits_def, Ideal.ofBits_zero_f32, zero_add]

/-- A row's term before masking: squared distance over variance, plus (3 · log variance) · 0.04. -/
private theorem per_row (b : Fin 131072) (j : Fin 31) :
    val_main_v53 (F := Ideal) a1 a2 a3 (ix1 (rowOf b j)) = (entryAt a0 a1 a2 a3 a4 a5 b j).per := by
  rw [val_main_v53_apply, val_main_v47_apply, val_main_v52_apply, val_main_v50_apply, val_main_v49_apply,
    val_main_cst_20_apply, val_main_v48_apply, val_main_v51_apply, val_main_cst_21_apply, cv_row,
    sqsum_row a0 a1 a2 a3 a4 a5]
  rfl

/-- The masked-out value is zero. -/
private theorem zero_row (n : S4063232.Idx) : val_main_call6_v1 (F := Ideal) n = 0 := by
  rw [val_main_call6_v1_apply, val_main_call6_v0_apply, val_main_cst_23_apply]
  exact Ideal.ofBits_zero_f32

/-- A row's masked term is the entry's term 2. -/
private theorem term_row (b : Fin 131072) (j : Fin 31) :
    val_main_v56 (F := Ideal) a1 a2 a3 a4 (ix1 (rowOf b j)) = (entryAt a0 a1 a2 a3 a4 a5 b j).term 2 := by
  rw [val_main_v56_apply, mask_row, per_row a0 a1 a2 a3 a4 a5, zero_row, select_ne]
  rfl

/-- THE REFERENCE'S MASKED COVARIANCE SUM is statistic 2. -/
theorem ref_wsum : val_main_v57 (F := Ideal) a1 a2 a3 a4 = fun _ => stat a0 a1 a2 a3 a4 a5 2 := by
  funext i
  rw [val_main_v57_apply, val_main_cst_24_apply, sum_idx1 (n := 4063232), Sums.rows_to_groups]
  show Ideal.ofBits .f32 0x00000000#32 + _
      = ∑ b : Fin 131072, ∑ j : Fin 31, (entryAt a0 a1 a2 a3 a4 a5 b j).term 2
  rw [Ideal.ofBits_zero_f32, zero_add]
  exact Finset.sum_congr rfl fun b _ => Finset.sum_congr rfl fun j _ => term_row a0 a1 a2 a3 a4 a5 b j

end Cert.SetLoss.Ref

end
-- ==== Proof.Counts.lean ====
/-
  Counting with 32-bit integers agrees with counting in the extended reals. The reference counts a mask of
  4063232 bits by widening each bit to a 32-bit word and adding the words; the count is at most 4063232 < 2^31, so
  the word sum does not wrap and, read as a signed integer, is the number of set bits. Hence "count > 0",
  "max(count, 1)" and the conversion to a float mean the same on the integer count as on the sum of ones.
-/
import proofs.«403313_j30760555773959_3_alg».proof.Proof.Spec
import Idealize.ShloMosaic.Lib.StableHlo.Predicate
import Idealize.ShloMosaic.Lib.IdealHost

noncomputable section

open scoped BigOperators

namespace Cert.SetLoss.Counts

open Idealize.ShloMosaic Idealize.ShloMosaic.ValueIdx

abbrev SN : Shape := ⟨1, ![4063232]⟩
abbrev SU : Shape := ⟨0, ![]⟩

/-- The number of set bits of a mask, as a sum of ones. -/
def cnt (bits : IVec SN 1) : EReal := ∑ n : Fin 4063232, if bits (ix1 n) = 1#1 then (1 : EReal) else 0

open Idealize.ShloMosaic.StableHlo.Predicate

/-- The number of set bits of a mask, as a natural number. -/
def setBits (bits : IVec SN 1) : ℕ := (Finset.univ.filter (fun n : Fin 4063232 => bits (ix1 n) = 1#1)).card

theorem setBits_le (bits : IVec SN 1) : setBits bits ≤ 4063232 := by
  unfold setBits
  exact le_trans (Finset.card_le_univ _) (by simp)

/-- The sum of ones is the number of set bits. -/
theorem cnt_eq_setBits (bits : IVec SN 1) : cnt bits = ((setBits bits : ℕ) : EReal) := by
  unfold cnt setBits
  rw [Finset.sum_boole]

/-- Summing the widened bits of a mask of 4063232 bits down to a scalar gives the number of set bits: every index
    of the mask drops to the one index of the scalar, and the count is far below 2^32, so no addition wraps. -/
theorem toNat_reduce_count (bits : IVec SN 1) (hw : 1 < 32) (h : SN.ReducesTo [0] SU) (hu : 0 < SU.numel) :
    (Host.reduce IntOp.addi (extui 32 bits hw) (constantI SU 32 0#32) h hu ix0).toNat = setBits bits := by
  classical
  rw [Host.reduce_eq_fold]
  have hval : ∀ i, (extui 32 bits hw i).toNat = if bits i = 1#1 then 1 else 0 := fun i => toNat_setWidth_bit (bits i)
  have hall : (Finset.univ.filter fun i : SN.Idx => h.drop i = ix0) = Finset.univ := by
    apply Finset.filter_true_of_mem
    intro i _
    funext a
    exact a.elim0
  have hback : ∀ i : SN.Idx, ix1 (i 0) = i := fun i => by
    funext b; match b with
    | ⟨0, _⟩ => rfl
  have hsum : ∑ i ∈ (Finset.univ : Finset SN.Idx), (extui 32 bits hw i).toNat = setBits bits := by
    unfold setBits
    rw [Finset.card_filter]
    refine Finset.sum_bij' (fun i _ => i 0) (fun n _ => ix1 n) (fun _ _ => Finset.mem_univ _)
      (fun _ _ => Finset.mem_univ _) (fun i _ => hback i) (fun _ _ => rfl) ?_
    intro i _
    rw [hval]
    exact (congrArg (fun x => if bits x = 1#1 then 1 else 0) (hback i)).symm
  rw [hall]
  show (Finset.fold IntOp.addi 0#32 (extui 32 bits hw) (Finset.univ : Finset SN.Idx)).toNat = _
  rw [toNat_fold_addi _ _ (by rw [hsum]; exact lt_of_le_of_lt (setBits_le bits) (by norm_num)), hsum]

/-- A word whose value is a count K of at most 4063232 bits: its sign test is "0 < K", its signed maximum with one
    is the word of max K 1, and read as a signed integer it is K. So the masked mean over the word is the masked
    mean over K in the extended reals. -/
theorem masked_of_word (W : BitVec 32) (K : ℕ) (hK : W.toNat = K) (hle : K ≤ 4063232) (s d : EReal) :
    Scalar.select (IntOp.cmpi .sgt W 0#32)
        (Ideal.div s (FloatOps.sitofp (F := Ideal) .f32 (IntOp.maxsi W 1#32))) d
      = masked ((K : ℕ) : EReal) s d := by
  have hWlt : W.toNat < 2 ^ 31 := by omega
  unfold masked zero32 one32
  rw [Ideal.ofBits_zero_f32, Ideal.ofBits_one_f32]
  rcases Nat.eq_zero_or_pos K with hK0 | hKpos
  · -- no bit is set: both tests fail and both sides are the default
    subst hK0
    have hW : W = 0#32 := BitVec.eq_of_toNat_eq (by rw [hK]; rfl)
    subst hW
    have hl : IntOp.cmpi .sgt (0#32) 0#32 = 0#1 := by decide
    have hr : Ideal.cmp .ogt ((0 : ℕ) : EReal) 0 = 0#1 := by
      simp [Ideal.cmp]
    rw [hl, hr]
    unfold Scalar.select
    rw [if_neg (by decide), if_neg (by decide)]
  · -- at least one bit is set: both tests hold, and the maximum with one is the count itself
    have hl : IntOp.cmpi .sgt W 0#32 = 1#1 := (sgt_iff_toNat hWlt (by decide)).2 (by rw [hK]; exact hKpos)
    have hr : Ideal.cmp .ogt ((K : ℕ) : EReal) 0 = 1#1 := by
      have : (0 : EReal) < ((K : ℕ) : EReal) := by
        have := (EReal.natCast_lt_iff (m := 0) (n := K)).2 hKpos
        simpa using this
      simp [Ideal.cmp, this]
    have hmaxw : IntOp.maxsi W 1#32 = W := by
      unfold IntOp.maxsi
      split
      · rfl
      · rename_i hc
        have h1 : (1#32 : BitVec 32).toInt = 1 := by decide
        simp only [BitVec.slt, toInt_eq_toNat_of_lt hWlt, h1, decide_eq_true_eq] at hc
        apply BitVec.eq_of_toNat_eq
        show 1 = W.toNat
        omega
    have hcast : FloatOps.sitofp (F := Ideal) .f32 W = ((K : ℕ) : EReal) := by
      show ((W.toInt : ℝ) : EReal) = _
      rw [toInt_eq_toNat_of_lt hWlt, hK, ← EReal.coe_coe_eq_natCast]
      norm_cast
    have hmax : max ((K : ℕ) : EReal) 1 = ((K : ℕ) : EReal) := by
      apply max_eq_left
      have := (EReal.natCast_le_iff (m := 1) (n := K)).2 hKpos
      simpa using this
    rw [hl, hr, hmaxw, hcast, hmax]

/-- A masked mean taken over the integer count is the masked mean over the sum of ones. -/
theorem masked_of_count (bits : IVec SN 1) (hw : 1 < 32) (h : SN.ReducesTo [0] SU) (hu : 0 < SU.numel) (s d : EReal) :
    Scalar.select (IntOp.cmpi .sgt (Host.reduce IntOp.addi (extui 32 bits hw) (constantI SU 32 0#32) h hu ix0) 0#32)
        (Ideal.div s (FloatOps.sitofp (F := Ideal) .f32
          (IntOp.maxsi (Host.reduce IntOp.addi (extui 32 bits hw) (constantI SU 32 0#32) h hu ix0) 1#32))) d
      = masked (cnt bits) s d := by
  rw [cnt_eq_setBits]
  exact masked_of_word _ _ (toNat_reduce_count bits hw h hu) (setBits_le bits) s d

end Cert.SetLoss.Counts

end
-- ==== Proof.RefSucc.lean ====
/-
  The reference's three masked means. "Success" is 1 where the predicted index equals the label; it is summed where a
  label exists (recall's numerator) and where a prediction exists (precision's); the denominators are the integer
  counts of the two masks, which agree with the sums of ones; the covariance loss divides the masked covariance sum
  by the prediction count in the same way.
  Each mask is read at row b·31 + j of the flattened arrays as "the word at (b, j) is not -1", the success value as
  "the two words at (b, j) are equal"; the sums over the 4063232 rows are regrouped as sums over groups and detections.
-/
import proofs.«403313_j30760555773959_3_alg».proof.Proof.Spec
import proofs.«403313_j30760555773959_3_alg».proof.Proof.Sums
import proofs.«403313_j30760555773959_3_alg».proof.Proof.RefReadP
import proofs.«403313_j30760555773959_3_alg».proof.Proof.Counts
import proofs.«403313_j30760555773959_3_alg».proof.Proof.RefPos
import Idealize.ShloMosaic.Lib.ValueIdxRank1

noncomputable section

open scoped BigOperators

namespace Cert.SetLoss.Ref

open Idealize.ShloMosaic Idealize.ShloMosaic.ValueIdx Cert.ReferenceIdeal Cert.ReferenceIdeal.Gen Cert.ReferenceIdeal.ReadP

variable (a0 : FVec Ideal SScores .f32) (a1 : FVec Ideal SCov .f32) (a2 : FVec Ideal SPos .f32)
  (a3 : FVec Ideal SPose .f32) (a4 : IVec SInd 32) (a5 : IVec SMatch 32)

/-! ## Words -/

/-- The "not equal" bit of two words is set exactly when they differ. -/
theorem succ_neBit_iff {w : Nat} (x y : BitVec w) : IntOp.cmpi .ne x y = 1#1 ↔ x ≠ y := by
  simp only [IntOp.cmpi, StableHlo.Predicate.ofBool_eq_one_iff, bne_iff_ne]

/-- A select on the "not equal" bit is the `if` on equality, branches exchanged. -/
theorem succ_select_neBit {w : Nat} {α : Type} (x y : BitVec w) (A B : α) :
    Scalar.select (IntOp.cmpi .ne x y) A B = if x = y then B else A := by
  by_cases h : x = y
  · have hc : IntOp.cmpi .ne x y = 0#1 := eq_zero_of_ne_one (fun hc => (succ_neBit_iff x y).1 hc h)
    rw [hc, select_zero, if_pos h]
  · rw [(succ_neBit_iff x y).2 h, select_one, if_neg h]

/-- Counting the "not equal" bit: one where the words differ. -/
theorem succ_ite_neBit {w : Nat} (x y : BitVec w) (A B : EReal) :
    (if IntOp.cmpi .ne x y = 1#1 then A else B) = if x = y then B else A := by
  by_cases h : x = y
  · rw [if_pos h, if_neg (fun hc => (succ_neBit_iff x y).1 hc h)]
  · rw [if_neg h, if_pos ((succ_neBit_iff x y).2 h)]

/-- A one-bit word read as an unsigned integer is 1 when set and 0 when clear. -/
theorem succ_uitofp_bit (c : BitVec 1) : FloatOps.uitofp (F := Ideal) .f32 c = if c = 1#1 then (1 : EReal) else 0 := by
  rcases BitVec.eq_zero_or_eq_one c with rfl | rfl
  · show (((0#1 : BitVec 1).toNat : ℝ) : EReal) = _
    simp
  · show (((1#1 : BitVec 1).toNat : ℝ) : EReal) = _
    simp

/-! ## Indices -/

/-- Row `n` of the flat vector is row `n`, column 0 of the one-column array. -/
theorem succ_idx_col (n : Fin 4063232) : idx_main_v0 (ix1 n) = ix2 n (0 : Fin 1) := by
  funext a
  match a with
  | ⟨0, _⟩ => exact Fin.ext (Nat.div_one _)
  | ⟨1, _⟩ => rfl

/-- Row b·31 + j of the one-column array is entry (b, j, 0) of the grouped array. -/
theorem succ_idx_group (b : Fin 131072) (j : Fin 31) : idx_main_v12 (ix2 (rowOf b j) (0 : Fin 1)) = ix3 b j (0 : Fin 1) := by
  funext a
  match a with
  | ⟨0, _⟩ =>
    refine Fin.ext ?_
    show (((b.val * 31 + j.val) * 1 + 0) / 31) = b.val
    have := j.isLt; omega
  | ⟨1, _⟩ =>
    refine Fin.ext ?_
    show (((b.val * 31 + j.val) * 1 + 0) / 1 % 31) = j.val
    have := j.isLt; omega
  | ⟨2, _⟩ => rfl

/-! ## Sums over the rows -/

/-- A sum over the 4063232 rows of a flat vector is the double sum over groups and detections. -/
theorem succ_sum_rows {M : Type} [AddCommMonoid M] (f : S4063232.Idx → M) :
    ∑ i, f i = ∑ b : Fin 131072, ∑ j : Fin 31, f (ix1 (rowOf b j)) := by
  rw [← Equiv.sum_comp (idxEquiv1 (n := 4063232)).symm f]
  exact Sums.rows_to_groups fun n => f (ix1 n)

/-! ## The two masks and the success bit at a row -/

/-- The label mask at row `n`: the label word is not -1. -/
theorem succ_label_mask_at (n : Fin 4063232) :
    val_main_v2 (F := Ideal) a5 (ix1 n) = IntOp.cmpi .ne (a5 (ix2 n (0 : Fin 1))) negOne := by
  rw [val_main_v2_apply, val_main_v0_apply, val_main_v1_apply, val_main_c_apply, succ_idx_col]

/-- The prediction mask at row b·31 + j: the predicted index word is not -1. -/
theorem succ_pred_mask_at (b : Fin 131072) (j : Fin 31) :
    val_main_v18 (F := Ideal) a4 (ix1 (rowOf b j)) = IntOp.cmpi .ne (a4 (ix3 b j (0 : Fin 1))) negOne := by
  rw [val_main_v18_apply, val_main_v16_apply, val_main_v12_apply, val_main_v17_apply, val_main_c_3_apply]
  rw [show idx_main_v16 (ix1 (rowOf b j)) = ix2 (rowOf b j) (0 : Fin 1) from succ_idx_col (rowOf b j), succ_idx_group]

/-- The success value at row b·31 + j: 1 when the predicted index word is the label word. -/
theorem succ_value_at (b : Fin 131072) (j : Fin 31) :
    val_main_v15 (F := Ideal) a4 a5 (ix1 (rowOf b j))
      = if a4 (ix3 b j (0 : Fin 1)) = a5 (ix2 (rowOf b j) (0 : Fin 1)) then 1 else 0 := by
  rw [val_main_v15_apply, val_main_v14_apply, val_main_v13_apply, val_main_v12_apply]
  rw [show idx_main_v14 (ix1 (rowOf b j)) = ix2 (rowOf b j) (0 : Fin 1) from succ_idx_col (rowOf b j), succ_idx_group, succ_uitofp_bit]
  by_cases h : a4 (ix3 b j (0 : Fin 1)) = a5 (ix2 (rowOf b j) (0 : Fin 1))
  · rw [if_pos h, if_pos (StableHlo.Predicate.cmpi_eq_iff.2 h)]
  · rw [if_neg h, if_neg (fun hc => h (StableHlo.Predicate.cmpi_eq_iff.1 hc))]

/-! ## The counts of the two masks -/

/-- The number of rows with a label is statistic 5. -/
theorem succ_cnt_label : Counts.cnt (val_main_v2 (F := Ideal) a5) = stat a0 a1 a2 a3 a4 a5 5 := by
  unfold Counts.cnt stat
  rw [Sums.rows_to_groups]
  refine Fintype.sum_congr _ _ fun b => Fintype.sum_congr _ _ fun j => ?_
  rw [succ_label_mask_at]
  exact succ_ite_neBit (a5 (ix2 (rowOf b j) (0 : Fin 1))) negOne 1 0

/-- The number of rows with a prediction is statistic 3. -/
theorem succ_cnt_pred : Counts.cnt (val_main_v18 (F := Ideal) a4) = stat a0 a1 a2 a3 a4 a5 3 := by
  unfold Counts.cnt stat
  rw [Sums.rows_to_groups]
  refine Fintype.sum_congr _ _ fun b => Fintype.sum_congr _ _ fun j => ?_
  rw [succ_pred_mask_at]
  exact succ_ite_neBit (a4 (ix3 b j (0 : Fin 1))) negOne 1 0

/-! ## The two masked sums of the success value -/

/-- The success value kept where a label exists, at row b·31 + j, is term 4 of the entry. -/
theorem succ_v21_at (b : Fin 131072) (j : Fin 31) :
    val_main_v21 (F := Ideal) a4 a5 (ix1 (rowOf b j)) = (entryAt a0 a1 a2 a3 a4 a5 b j).term 4 := by
  rw [val_main_v21_apply, succ_label_mask_at, succ_value_at, val_main_call2_v1_apply, val_main_call2_v0_apply,
    val_main_cst_5_apply, Ideal.ofBits_def, Ideal.ofBits_zero_f32, succ_select_neBit]
  rfl

/-- The success value kept where a prediction exists, at row b·31 + j, is term 6 of the entry. -/
theorem succ_v30_at (b : Fin 131072) (j : Fin 31) :
    val_main_v30 (F := Ideal) a4 a5 (ix1 (rowOf b j)) = (entryAt a0 a1 a2 a3 a4 a5 b j).term 6 := by
  rw [val_main_v30_apply, succ_pred_mask_at, succ_value_at, val_main_call4_v1_apply, val_main_call4_v0_apply,
    val_main_cst_11_apply, Ideal.ofBits_def, Ideal.ofBits_zero_f32, succ_select_neBit]
  rfl

/-- Recall's numerator is statistic 4. -/
theorem succ_sum_label : val_main_v22 (F := Ideal) a4 a5 ix0 = stat a0 a1 a2 a3 a4 a5 4 := by
  rw [val_main_v22_apply, val_main_cst_6_apply, Ideal.ofBits_def, Ideal.ofBits_zero_f32, zero_add, succ_sum_rows]
  exact Fintype.sum_congr _ _ fun b => Fintype.sum_congr _ _ fun j => succ_v21_at a0 a1 a2 a3 a4 a5 b j

/-- Precision's numerator is statistic 6. -/
theorem succ_sum_pred : val_main_v31 (F := Ideal) a4 a5 ix0 = stat a0 a1 a2 a3 a4 a5 6 := by
  rw [val_main_v31_apply, val_main_cst_12_apply, Ideal.ofBits_def, Ideal.ofBits_zero_f32, zero_add, succ_sum_rows]
  exact Fintype.sum_congr _ _ fun b => Fintype.sum_congr _ _ fun j => succ_v30_at a0 a1 a2 a3 a4 a5 b j

/-! ## The three results -/

/-- THE REFERENCE'S COVARIANCE LOSS is the spec's. -/
theorem ref_cov : val_main_v62 (F := Ideal) a1 a2 a3 a4 = fun _ => lossCov (stat a0 a1 a2 a3 a4 a5) := by
  funext i
  obtain rfl : i = ix0 := eq_ix0 i
  have hw : val_main_v57 (F := Ideal) a1 a2 a3 a4 ix0 = stat a0 a1 a2 a3 a4 a5 2 :=
    congrFun (ref_wsum a0 a1 a2 a3 a4 a5) ix0
  have hc : val_main_v55 (F := Ideal) a4 = Host.reduce IntOp.addi (extui 32 (val_main_v18 (F := Ideal) a4) natLt_1_32)
      (constantI Counts.SU 32 0#32) reducesTo_S4063232_S_d0 h_S_ := rfl
  rw [val_main_v62_apply, val_main_v58_apply, val_main_v61_apply, val_main_v60_apply, val_main_v59_apply,
    val_main_c_25_apply, val_main_c_26_apply, val_main_cst_27_apply, Ideal.hostDivf_def, Ideal.ofBits_def,
    hc, Counts.masked_of_count, succ_cnt_pred a0 a1 a2 a3 a4 a5, hw]
  rfl

/-- THE REFERENCE'S PRECISION is the spec's. -/
theorem ref_prec : val_main_v36 (F := Ideal) a4 a5 = fun _ => precision (stat a0 a1 a2 a3 a4 a5) := by
  funext i
  obtain rfl : i = ix0 := eq_ix0 i
  have hc : val_main_v29 (F := Ideal) a4 = Host.reduce IntOp.addi (extui 32 (val_main_v18 (F := Ideal) a4) natLt_1_32)
      (constantI Counts.SU 32 0#32) reducesTo_S4063232_S_d0 h_S_ := rfl
  rw [val_main_v36_apply, val_main_v32_apply, val_main_v35_apply, val_main_v34_apply, val_main_v33_apply,
    val_main_c_13_apply, val_main_c_14_apply, val_main_cst_15_apply, Ideal.hostDivf_def, Ideal.ofBits_def,
    hc, Counts.masked_of_count, succ_cnt_pred a0 a1 a2 a3 a4 a5, succ_sum_pred a0 a1 a2 a3 a4 a5]
  rfl

/-- THE REFERENCE'S RECALL is the spec's. -/
theorem ref_rec : val_main_v27 (F := Ideal) a4 a5 = fun _ => recall (stat a0 a1 a2 a3 a4 a5) := by
  funext i
  obtain rfl : i = ix0 := eq_ix0 i
  have hc : val_main_v20 (F := Ideal) a5 = Host.reduce IntOp.addi (extui 32 (val_main_v2 (F := Ideal) a5) natLt_1_32)
      (constantI Counts.SU 32 0#32) reducesTo_S4063232_S_d0 h_S_ := rfl
  rw [val_main_v27_apply, val_main_v23_apply, val_main_v26_apply, val_main_v25_apply, val_main_v24_apply,
    val_main_c_7_apply, val_main_c_8_apply, val_main_cst_9_apply, Ideal.hostDivf_def, Ideal.ofBits_def,
    hc, Counts.masked_of_count, succ_cnt_label a0 a1 a2 a3 a4 a5, succ_sum_label a0 a1 a2 a3 a4 a5]
  rfl

end Cert.SetLoss.Ref

end
-- ==== Proof.RefRun.lean ====
/-
  The reference's run, read. Every weakly fair execution of the idealized reference program terminates; its seven
  result buffers then hold the spec's seven functions of the statistics of the argument arrays, and the arguments are
  unchanged. The total is the weighted sum of the matching, position and covariance losses, composed in the program's
  own order; the other six are the stages read in the modules below. The label words are assumed in range.
-/
import proofs.«403313_j30760555773959_3_alg».proof.Proof.RefRunP
import proofs.«403313_j30760555773959_3_alg».proof.Proof.RefMatch
import proofs.«403313_j30760555773959_3_alg».proof.Proof.RefPos
import proofs.«403313_j30760555773959_3_alg».proof.Proof.RefSucc

noncomputable section

namespace Cert.SetLoss.Ref

open Idealize.ShloMosaic Idealize.ShloMosaic.TcCoe Idealize.ShloMosaic.ValueIdx Idealize.SL.Sem
open Cert.ReferenceIdeal Cert.ReferenceIdeal.Gen Cert.ReferenceIdeal.ReadP

variable (a0 : FVec Ideal SScores .f32) (a1 : FVec Ideal SCov .f32) (a2 : FVec Ideal SPos .f32)
  (a3 : FVec Ideal SPose .f32) (a4 : IVec SInd 32) (a5 : IVec SMatch 32)

/-- THE REFERENCE'S TOTAL is the spec's: 1 · match + 1 · position, plus 0.1 · covariance. -/
theorem ref_total (hr : ∀ n : Fin 4063232, InRange (a5 (ix2 n (0 : Fin 1)))) :
    val_main_v67 (F := Ideal) a0 a1 a2 a3 a4 a5 = fun _ => total (stat a0 a1 a2 a3 a4 a5) := by
  unfold val_main_v67 val_main_v65 val_main_v66 val_main_v63 val_main_v64
  rw [ref_match a0 a1 a2 a3 a4 a5 hr, ref_pos a0 a1 a2 a3 a4 a5, ref_cov a0 a1 a2 a3 a4 a5]
  rfl

theorem run (m' : (ℓ : Loc Cert.ReferenceIdeal.nD Cert.ReferenceIdeal.τ Cert.ReferenceIdeal.sig) → Buf (Elt Ideal) ℓ)
    (ρ' : Dev Cert.ReferenceIdeal.nD → PrngReg)
    (hr : ∀ (c : Dev Cert.ReferenceIdeal.nD) (n : Fin 4063232), InRange (m' ((c.tc : Thread Cert.ReferenceIdeal.nD Cert.ReferenceIdeal.τ).loc Cert.ReferenceIdeal.main_arg5) (ix2 n (0 : Fin 1)))) :
    θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v67) = (fun _ => total (stat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))))
      ∧ r.2.mem ((c.tc : Thread Cert.ReferenceIdeal.nD Cert.ReferenceIdeal.τ).loc Cert.ReferenceIdeal.main_v11) = (fun _ => lossMatch (stat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))))
      ∧ r.2.mem ((c.tc : Thread Cert.ReferenceIdeal.nD Cert.ReferenceIdeal.τ).loc Cert.ReferenceIdeal.main_v43) = (fun _ => lossPos (stat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))))
      ∧ r.2.mem ((c.tc : Thread Cert.ReferenceIdeal.nD Cert.ReferenceIdeal.τ).loc Cert.ReferenceIdeal.main_cst_31) = (fun _ => zero32)
      ∧ r.2.mem ((c.tc : Thread Cert.ReferenceIdeal.nD Cert.ReferenceIdeal.τ).loc Cert.ReferenceIdeal.main_v62) = (fun _ => lossCov (stat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))))
      ∧ r.2.mem ((c.tc : Thread Cert.ReferenceIdeal.nD Cert.ReferenceIdeal.τ).loc Cert.ReferenceIdeal.main_v36) = (fun _ => precision (stat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))))
      ∧ r.2.mem ((c.tc : Thread Cert.ReferenceIdeal.nD Cert.ReferenceIdeal.τ).loc Cert.ReferenceIdeal.main_v27) = (fun _ => recall (stat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5) :=
  (θ_run (Cert.ReferenceIdeal.defs (F := Ideal)) _ _).mono (fun r h c =>
    ⟨(h c).1.trans ((val_main_v67_eq m' c).trans (ref_total _ _ _ _ _ _ (hr c))),
     (h c).2.1.trans ((val_main_v11_eq _ _).trans (ref_match (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (hr c))),
     (h c).2.2.1.trans ((val_main_v43_eq _ _).trans (ref_pos (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))),
     (h c).2.2.2.1.trans (funext fun _ => rfl),
     (h c).2.2.2.2.1.trans ((val_main_v62_eq _ _ _ _).trans (ref_cov (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))),
     (h c).2.2.2.2.2.1.trans ((val_main_v36_eq _ _).trans (ref_prec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))),
     (h c).2.2.2.2.2.2.1.trans ((val_main_v27_eq _ _).trans (ref_rec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))),
     (h c).2.2.2.2.2.2.2⟩)
    (Cert.ReferenceIdeal.ValueP.run (F := Ideal) m' ρ')

end Cert.SetLoss.Ref

end
-- ==== Proof.lean ====
/-
  The certificate's claim. The kernel computes a set-matching loss over 131072 groups of 31 detections: seven
  statistics (sums over all (group, detection) entries of a matching cost, a squared distance, a covariance term, two
  success indicators and two counts) accumulated block by block into lane-spread partial sums on two cores, and seven
  results formed from them. The reference computes the same seven results with whole-array sums, a gather for the
  matching cost and integer counts. Over the extended reals both are the same functions of the argument arrays
  (Proof/Spec.lean): sums may be regrouped freely, a lane-spread sum collapses to the plain sum, an integer count of
  at most 4063232 ones is the sum of ones, and (x / (3N)) · 3 = x / N. The one assumption beyond finiteness is that every
  label word is -1 or a score column 0 … 31, which the precondition states: outside it the reference's gather wraps or
  fills while the kernel's one-hot mask selects nothing.
  The frames of the two kernel programs are the generated frame certificates; the reference's frame is its run with the
  results dropped; the idealization rewrote nothing.
-/
import proofs.«403313_j30760555773959_3_alg».proof.Defs
import proofs.«403313_j30760555773959_3_alg».proof.Proof.Gen.Kernel
import proofs.«403313_j30760555773959_3_alg».proof.Proof.Gen.Kernel.Frame
import proofs.«403313_j30760555773959_3_alg».proof.Proof.Gen.KernelIdeal
import proofs.«403313_j30760555773959_3_alg».proof.Proof.Gen.KernelIdeal.Frame
import proofs.«403313_j30760555773959_3_alg».proof.Proof.Gen.ReferenceIdeal
import proofs.«403313_j30760555773959_3_alg».proof.Proof.Gen.Pre_finite_inputs
import proofs.«403313_j30760555773959_3_alg».proof.Proof.PreRange
import proofs.«403313_j30760555773959_3_alg».proof.Proof.KRun
import proofs.«403313_j30760555773959_3_alg».proof.Proof.RefRun
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run (Cert.ReferenceIdeal.defs (F := Ideal)) _ _).mono (fun _ h c => (h c).2.2.2.2.2.2.2)
    (Cert.ReferenceIdeal.ValueP.run (F := Ideal) m ρ)

theorem preserves : Cert.preserves_Kernel_KernelIdeal := trivial

/-- Both programs end with the spec's seven results of arguments that agree. -/
theorem algebraic : Cert.algebraic_KernelIdeal_ReferenceIdeal := by
  intro m ρ m' ρ' hpre hagree
  have hrK : ∀ (c : Dev Cert.KernelIdeal.nD) (n : Fin 4063232),
      Cert.SetLoss.InRange (m ((c.tc : Thread Cert.KernelIdeal.nD Cert.KernelIdeal.τ).loc Cert.KernelIdeal.main_arg5) (ix2 n (0 : Fin 1))) :=
    fun c n => Cert.SetLoss.range_of_pre _ _ _ _ _ _ (hpre c) n
  have hrR : ∀ (c : Dev Cert.ReferenceIdeal.nD) (n : Fin 4063232),
      Cert.SetLoss.InRange (m' ((c.tc : Thread Cert.ReferenceIdeal.nD Cert.ReferenceIdeal.τ).loc Cert.ReferenceIdeal.main_arg5) (ix2 n (0 : Fin 1))) := fun c n => by
    rw [(hagree c).2.2.2.2.2]; exact hrK c n
  refine ⟨(fun c _ => Cert.SetLoss.total (Cert.SetLoss.stat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
    (fun c _ => Cert.SetLoss.lossMatch (Cert.SetLoss.stat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
    (fun c _ => Cert.SetLoss.lossPos (Cert.SetLoss.stat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
    (fun c _ => Cert.SetLoss.zero32),
    (fun c _ => Cert.SetLoss.lossCov (Cert.SetLoss.stat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
    (fun c _ => Cert.SetLoss.precision (Cert.SetLoss.stat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
    (fun c _ => Cert.SetLoss.recall (Cert.SetLoss.stat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
    Cert.SetLoss.K.run m ρ hrK, ?_⟩
  refine (θ_run (Cert.ReferenceIdeal.defs (F := Ideal)) _ _).mono (fun r h c => ?_) (Cert.SetLoss.Ref.run m' ρ' hrR)
  obtain ⟨e0, e1, e2, e3, e4, e5⟩ := hagree c
  have hs : Cert.SetLoss.stat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = Cert.SetLoss.stat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by rw [e0, e1, e2, e3, e4, e5]
  exact ⟨(h c).1.trans (by rw [hs]; rfl), (h c).2.1.trans (by rw [hs]; rfl), (h c).2.2.1.trans (by rw [hs]; rfl), (h c).2.2.2.1,
    (h c).2.2.2.2.1.trans (by rw [hs]; rfl), (h c).2.2.2.2.2.1.trans (by rw [hs]; rfl), (h c).2.2.2.2.2.2.1.trans (by rw [hs]; rfl),
    (h c).2.2.2.2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
